-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x19x512x512 : Shape := ⟨4, ![16, 19, 512, 512]⟩
abbrev S16x19 : Shape := ⟨2, ![16, 19]⟩
abbrev S16x512x512 : Shape := ⟨3, ![16, 512, 512]⟩
abbrev S_ : Shape := ⟨0, ![]⟩

class Facts : Prop where
  bcast_S_S16x19x512x512 : S_.BroadcastsInDim S16x19x512x512 (![] : Fin 0 → Fin S16x19x512x512.rank)
  reducesTo_S16x19x512x512_S_d0_1_2_3 : S16x19x512x512.ReducesTo [0, 1, 2, 3] S_
  h_S_ : 0 < S_.numel
  bcast_S_S16x19 : S_.BroadcastsInDim S16x19 (![] : Fin 0 → Fin S16x19.rank)
  reducesTo_S16x19_S_d0_1 : S16x19.ReducesTo [0, 1] S_
  bcast_S_S16x512x512 : S_.BroadcastsInDim S16x512x512 (![] : Fin 0 → Fin S16x512x512.rank)
  reducesTo_S16x512x512_S_d0_1_2 : S16x512x512.ReducesTo [0, 1, 2] S_

variable [Facts]

def fn {F : FTy → Type} [FloatOps F] (main_arg0 : FVec F S16x19x512x512 .f32) (main_arg1 : FVec F S16x19 .f32) (main_arg2 : IVec S16x512x512 32) : IVec S_ 1 :=
  let main_v0 : FVec F S16x19x512x512 .f32 := Host.absf main_arg0
  let main_cst : FVec F S_ .f32 := constant S_ .f32 0x7F800000#32
  let main_v1 : FVec F S16x19x512x512 .f32 := broadcastInDim S16x19x512x512 ![] bcast_S_S16x19x512x512 main_cst
  let main_v2 : IVec S16x19x512x512 1 := cmpf .olt main_v0 main_v1
  let main_c : IVec S_ 1 := constantI S_ 1 1#1
  let main_v3 : IVec S_ 1 := (fun x v => Host.reduce IntOp.andi x v reducesTo_S16x19x512x512_S_d0_1_2_3 h_S_) main_v2 main_c
  let main_v4 : FVec F S16x19 .f32 := Host.absf main_arg1
  let main_cst_0 : FVec F S_ .f32 := constant S_ .f32 0x7F800000#32
  let main_v5 : FVec F S16x19 .f32 := broadcastInDim S16x19 ![] bcast_S_S16x19 main_cst_0
  let main_v6 : IVec S16x19 1 := cmpf .olt main_v4 main_v5
  let main_c_1 : IVec S_ 1 := constantI S_ 1 1#1
  let main_v7 : IVec S_ 1 := (fun x v => Host.reduce IntOp.andi x v reducesTo_S16x19_S_d0_1 h_S_) main_v6 main_c_1
  let main_v8 : IVec S_ 1 := andi main_v3 main_v7
  let main_c_2 : IVec S_ 32 := constantI S_ 32 0#32
  let main_v9 : IVec S16x512x512 32 := broadcastInDim S16x512x512 ![] bcast_S_S16x512x512 main_c_2
  let main_v10 : IVec S16x512x512 1 := cmpi .sge main_arg2 main_v9
  let main_c_3 : IVec S_ 32 := constantI S_ 32 19#32
  let main_v11 : IVec S16x512x512 32 := broadcastInDim S16x512x512 ![] bcast_S_S16x512x512 main_c_3
  let main_v12 : IVec S16x512x512 1 := cmpi .slt main_arg2 main_v11
  let main_v13 : IVec S16x512x512 1 := andi main_v10 main_v12
  let main_c_4 : IVec S_ 1 := constantI S_ 1 1#1
  let main_v14 : IVec S_ 1 := (fun x v => Host.reduce IntOp.andi x v reducesTo_S16x512x512_S_d0_1_2 h_S_) main_v13 main_c_4
  let main_v15 : IVec S_ 1 := andi main_v8 main_v14
  main_v15
-- ==== Kernel.lean ====
abbrev S16x19x512x512 : Shape := ⟨4, ![16, 19, 512, 512]⟩
abbrev S16x19 : Shape := ⟨2, ![16, 19]⟩
abbrev S16x512x512 : Shape := ⟨3, ![16, 512, 512]⟩
abbrev S2x1x1 : Shape := ⟨3, ![2, 1, 1]⟩
abbrev S2x8x19 : Shape := ⟨3, ![2, 8, 19]⟩
abbrev S8x19x32x512 : Shape := ⟨4, ![8, 19, 32, 512]⟩
abbrev S8x32x512 : Shape := ⟨3, ![8, 32, 512]⟩
abbrev S1x1x1 : Shape := ⟨3, ![1, 1, 1]⟩
abbrev S1x8x19 : Shape := ⟨3, ![1, 8, 19]⟩
abbrev S8x32 : Shape := ⟨2, ![8, 32]⟩
abbrev S8x19 : Shape := ⟨2, ![8, 19]⟩
abbrev S8x1x32x512 : Shape := ⟨4, ![8, 1, 32, 512]⟩
abbrev S8x19x32 : Shape := ⟨3, ![8, 19, 32]⟩
abbrev S1x8x32 : Shape := ⟨3, ![1, 8, 32]⟩
abbrev S1 : Shape := ⟨1, ![1]⟩
abbrev S_ : Shape := ⟨0, ![]⟩

abbrev nBuf : Space → Nat
  | .hbm => 31
  | .vmem => 10
  | .smem => 0
  | _ => 0

abbrev bufTy : (tb : Table) → Fin (tcTables nBuf tb) → BufTy
  | .hbm, ⟨0, _⟩ => ⟨S16x19x512x512, .f32⟩
  | .hbm, ⟨1, _⟩ => ⟨S16x19, .f32⟩
  | .hbm, ⟨2, _⟩ => ⟨S16x512x512, .i32⟩
  | .hbm, ⟨3, _⟩ => ⟨S2x1x1, .f32⟩
  | .hbm, ⟨4, _⟩ => ⟨S2x8x19, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S16x19, .f32⟩
  | .hbm, ⟨10, _⟩ => ⟨S_, .f32⟩
  | .hbm, ⟨11, _⟩ => ⟨S16x19, .f32⟩
  | .hbm, ⟨12, _⟩ => ⟨S16x19, .f32⟩
  | .hbm, ⟨13, _⟩ => ⟨S16x19, .f32⟩
  | .hbm, ⟨14, _⟩ => ⟨S16x19, .f32⟩
  | .hbm, ⟨15, _⟩ => ⟨S16x19, .i1⟩
  | .hbm, ⟨16, _⟩ => ⟨S16x19, .f32⟩
  | .hbm, ⟨17, _⟩ => ⟨S16x19, .f32⟩
  | .hbm, ⟨18, _⟩ => ⟨S16x19, .f32⟩
  | .hbm, ⟨19, _⟩ => ⟨S16x19, .f32⟩
  | .hbm, ⟨20, _⟩ => ⟨S16x19, .f32⟩
  | .hbm, ⟨21, _⟩ => ⟨S16x19, .f32⟩
  | .hbm, ⟨22, _⟩ => ⟨S16x19, .f32⟩
  | .hbm, ⟨23, _⟩ => ⟨S16x19, .f32⟩
  | .hbm, ⟨24, _⟩ => ⟨S16x19, .f32⟩
  | .hbm, ⟨25, _⟩ => ⟨S16x19, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .local _ .vmem, ⟨0, _⟩ => ⟨S8x19x32x512, .f32⟩
  | .local _ .vmem, ⟨1, _⟩ => ⟨S8x19x32x512, .f32⟩
  | .local _ .vmem, ⟨2, _⟩ => ⟨S8x32x512, .i32⟩
  | .local _ .vmem, ⟨3, _⟩ => ⟨S8x32x512, .i32⟩
  | .local _ .vmem, ⟨4, _⟩ => ⟨S1x1x1, .f32⟩
  | .local _ .vmem, ⟨5, _⟩ => ⟨S1x1x1, .f32⟩
  | .local _ .vmem, ⟨6, _⟩ => ⟨S1x8x19, .f32⟩
  | .local _ .vmem, ⟨7, _⟩ => ⟨S1x8x19, .f32⟩
  | .local _ .vmem, ⟨8, _⟩ => ⟨S8x32, .f32⟩
  | .local _ .vmem, ⟨9, _⟩ => ⟨S8x19, .f32⟩
  | _, _ => ⟨S16x19x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst_1 : Ref sig .tc := ⟨.hbm, 26, rfl⟩
abbrev main_v7 : Ref sig .tc := ⟨.hbm, 27, rfl⟩
abbrev main_cst_2 : Ref sig .tc := ⟨.hbm, 28, rfl⟩
abbrev main_v8 : Ref sig .tc := ⟨.hbm, 29, rfl⟩
abbrev main_v9 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v51 : BitVec 1 := Scalar.cmpi .eq arg1 c15_i32
  let v52 : BitVec 32 := Scalar.extui v51
  let c0_i32_22 : BitVec 32 := 0#32
  let v53 : BitVec 1 := Scalar.cmpi .ne v52 c0_i32_22
  v53

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x19x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x32x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x19 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S8x32_S8x32_0_0 : ∀ a, (![0, 0] : Fin 2 → Nat) a + S8x32.size a ≤ S8x32.size a
  h_S8x32 : 0 < S8x32.numel
  shapeCasts_S8x32_S8x32 : S8x32.ShapeCasts S8x32
  inb_S8x19_S8x19_0_0 : ∀ a, (![0, 0] : Fin 2 → Nat) a + S8x19.size a ≤ S8x19.size a
  h_S8x19 : 0 < S8x19.numel
  shapeCasts_S8x19_S8x19 : S8x19.ShapeCasts S8x19
  inb_S8x19x32x512_S8x19x32x512_0_0_0_0 : ∀ a, (![0, 0, 0, 0] : Fin 4 → Nat) a + S8x19x32x512.size a ≤ S8x19x32x512.size a
  h_S8x19x32x512 : 0 < S8x19x32x512.numel
  reduces_S8x19x32x512_S8x32x512 : S8x19x32x512.Reduces [1] S8x32x512
  shapeCasts_S8x32x512_S8x1x32x512 : S8x32x512.ShapeCasts S8x1x32x512
  broadcasts_S8x1x32x512_S8x19x32x512 : S8x1x32x512.Broadcasts S8x19x32x512
  inb_S8x32x512_S8x32x512_0_0_0 : ∀ a, (![0, 0, 0] : Fin 3 → Nat) a + S8x32x512.size a ≤ S8x32x512.size a
  h_S8x32x512 : 0 < S8x32x512.numel
  natLt_1_32 : 1 < 32
  iota_S8x19x32x512_d1_w32 : S8x19x32x512.Iotas .tc 32 [1]
  shapeCasts_S8x1x32x512_S8x32x512 : S8x1x32x512.ShapeCasts S8x32x512
  reduces_S8x32x512_S8x32 : S8x32x512.Reduces [2] S8x32
  reduces_S8x19x32x512_S8x19x32 : S8x19x32x512.Reduces [3] S8x19x32
  reduces_S8x19x32_S8x19 : S8x19x32.Reduces [2] S8x19
  shapeCasts_S8x32_S1x8x32 : S8x32.ShapeCasts S1x8x32
  reduces_S1x8x32_S1 : S1x8x32.Reduces [1, 2] S1
  shapeCasts_S1_S1x1x1 : S1.ShapeCasts S1x1x1
  inpos_S1x1x1_p0_0_0 : ∀ a, (![0, 0, 0] : Fin 3 → Nat) a < S1x1x1.size a
  inb_S1x1x1_S1x1x1_0_0_0 : ∀ a, (![0, 0, 0] : Fin 3 → Nat) a + S1x1x1.size a ≤ S1x1x1.size a
  h_S1x1x1 : 0 < S1x1x1.numel
  shapeCasts_S8x19_S1x8x19 : S8x19.ShapeCasts S1x8x19
  inb_S1x8x19_S1x8x19_0_0_0 : ∀ a, (![0, 0, 0] : Fin 3 → Nat) a + S1x8x19.size a ≤ S1x8x19.size a
  h_S1x8x19 : 0 < S1x8x19.numel
  reducesTo_S2x1x1_S_d0_1_2 : S2x1x1.ReducesTo [0, 1, 2] S_
  h_S_ : 0 < S_.numel
  shapeCasts_S2x8x19_S16x19 : S2x8x19.ShapeCasts S16x19
  bcast_S_S16x19 : S_.BroadcastsInDim S16x19 (![] : Fin 0 → Fin S16x19.rank)
  reducesTo_S16x19_S_d0_1 : S16x19.ReducesTo [0, 1] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x19x32x512.size a ≤ S16x19x512x512.size a
  hwx0_0 : ∀ i : grid0.Coords, EltTy.bits .f32 = 32 ∨ (Rect.block (s := S16x19x512x512) S8x19x32x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x32x512.size a ≤ S16x512x512.size a
  hwx0_1 : ∀ i : grid0.Coords, EltTy.bits .i32 = 32 ∨ (Rect.block (s := S16x512x512) S8x32x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x19.size a ≤ S2x8x19.size a
  hwx0_3 : ∀ i : grid0.Coords, EltTy.bits .f32 = 32 ∨ (Rect.block (s := S2x8x19) S1x8x19.size (cc0_transform_3 i) (hinb0_3 i)).WholeWords (EltTy.packing .f32)

variable [Facts₀]

abbrev win0_0 : Pipeline.Window sig grid0 :=
  Pipeline.Window.ofSpec (Memref.whole main_arg0) S8x19x32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S8x32x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x8x19.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16x19x512x512 : Shape := ⟨4, ![16, 19, 512, 512]⟩
abbrev S16x19 : Shape := ⟨2, ![16, 19]⟩
abbrev S16x512x512 : Shape := ⟨3, ![16, 512, 512]⟩
abbrev S_ : Shape := ⟨0, ![]⟩
abbrev S16x1x512x512 : Shape := ⟨4, ![16, 1, 512, 512]⟩
abbrev S16x1x512x512x1 : Shape := ⟨5, ![16, 1, 512, 512, 1]⟩
abbrev S1 : Shape := ⟨1, ![1]⟩
abbrev S1x1x1x1x1 : Shape := ⟨5, ![1, 1, 1, 1, 1]⟩
abbrev S16x262144 : Shape := ⟨2, ![16, 262144]⟩
abbrev S16 : Shape := ⟨1, ![16]⟩
abbrev S16x1 : Shape := ⟨2, ![16, 1]⟩
abbrev S16x262144x1 : Shape := ⟨3, ![16, 262144, 1]⟩
abbrev S16x262144x2 : Shape := ⟨3, ![16, 262144, 2]⟩

abbrev nBuf : Space → Nat
  | .hbm => 98
  | .vmem => 0
  | .smem => 0
  | _ => 0

abbrev bufTy : (tb : Table) → Fin (tcTables nBuf tb) → BufTy
  | .hbm, ⟨0, _⟩ => ⟨S16x19x512x512, .f32⟩
  | .hbm, ⟨1, _⟩ => ⟨S16x19, .f32⟩
  | .hbm, ⟨2, _⟩ => ⟨S16x512x512, .i32⟩
  | .hbm, ⟨3, _⟩ => ⟨S_, .f32⟩
  | .hbm, ⟨4, _⟩ => ⟨S16x512x512, .f32⟩
  | .hbm, ⟨5, _⟩ => ⟨S_, .f32⟩
  | .hbm, ⟨6, _⟩ => ⟨S16x512x512, .f32⟩
  | .hbm, ⟨7, _⟩ => ⟨S16x512x512, .f32⟩
  | .hbm, ⟨8, _⟩ => ⟨S16x1x512x512, .f32⟩
  | .hbm, ⟨9, _⟩ => ⟨S16x19x512x512, .f32⟩
  | .hbm, ⟨10, _⟩ => ⟨S16x19x512x512, .f32⟩
  | .hbm, ⟨11, _⟩ => ⟨S16x19x512x512, .f32⟩
  | .hbm, ⟨12, _⟩ => ⟨S_, .f32⟩
  | .hbm, ⟨13, _⟩ => ⟨S16x512x512, .f32⟩
  | .hbm, ⟨14, _⟩ => ⟨S16x1x512x512, .f32⟩
  | .hbm, ⟨15, _⟩ => ⟨S16x1x512x512, .f32⟩
  | .hbm, ⟨16, _⟩ => ⟨S16x19x512x512, .f32⟩
  | .hbm, ⟨17, _⟩ => ⟨S16x19x512x512, .f32⟩
  | .hbm, ⟨18, _⟩ => ⟨S16x1x512x512, .i32⟩
  | .hbm, ⟨19, _⟩ => ⟨S_, .i32⟩
  | .hbm, ⟨20, _⟩ => ⟨S16x1x512x512, .i32⟩
  | .hbm, ⟨21, _⟩ => ⟨S16x1x512x512, .i1⟩
  | .hbm, ⟨22, _⟩ => ⟨S_, .i32⟩
  | .hbm, ⟨23, _⟩ => ⟨S16x1x512x512, .i32⟩
  | .hbm, ⟨24, _⟩ => ⟨S16x1x512x512, .i32⟩
  | .hbm, ⟨25, _⟩ => ⟨S16x1x512x512, .i32⟩
  | .hbm, ⟨26, _⟩ => ⟨S16x1x512x512x1, .i32⟩
  | .hbm, ⟨27, _⟩ => ⟨S1, .i32⟩
  | .hbm, ⟨28, _⟩ => ⟨S_, .i32⟩
  | .hbm, ⟨29, _⟩ => ⟨S16x1x512x512x1, .i32⟩
  | .hbm, ⟨30, _⟩ => ⟨S16x1x512x512x1, .i1⟩
  | .hbm, ⟨31, _⟩ => ⟨S1x1x1x1x1, .i32⟩
  | .hbm, ⟨32, _⟩ => ⟨S16x1x512x512x1, .i32⟩
  | .hbm, ⟨33, _⟩ => ⟨S16x1x512x512x1, .i1⟩
  | .hbm, ⟨34, _⟩ => ⟨S16x1x512x512x1, .i1⟩
  | .hbm, ⟨35, _⟩ => ⟨S_, .i1⟩
  | .hbm, ⟨36, _⟩ => ⟨S16x1x512x512, .i1⟩
  | .hbm, ⟨37, _⟩ => ⟨S16x1x512x512, .f32⟩
  | .hbm, ⟨38, _⟩ => ⟨S_, .f32⟩
  | .hbm, ⟨39, _⟩ => ⟨S16x1x512x512, .f32⟩
  | .hbm, ⟨40, _⟩ => ⟨S16x1x512x512, .f32⟩
  | .hbm, ⟨41, _⟩ => ⟨S16x512x512, .f32⟩
  | .hbm, ⟨42, _⟩ => ⟨S16x512x512, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S16x262144, .i32⟩
  | .hbm, ⟨48, _⟩ => ⟨S_, .f32⟩
  | .hbm, ⟨49, _⟩ => ⟨S16x19, .f32⟩
  | .hbm, ⟨50, _⟩ => ⟨S16, .i32⟩
  | .hbm, ⟨51, _⟩ => ⟨S16x1, .i32⟩
  | .hbm, ⟨52, _⟩ => ⟨S_, .i32⟩
  | .hbm, ⟨53, _⟩ => ⟨S16x1, .i32⟩
  | .hbm, ⟨54, _⟩ => ⟨S16x1, .i1⟩
  | .hbm, ⟨55, _⟩ => ⟨S_, .i32⟩
  | .hbm, ⟨56, _⟩ => ⟨S16x1, .i32⟩
  | .hbm, ⟨57, _⟩ => ⟨S16x1, .i32⟩
  | .hbm, ⟨58, _⟩ => ⟨S16x1, .i32⟩
  | .hbm, ⟨59, _⟩ => ⟨S_, .i32⟩
  | .hbm, ⟨60, _⟩ => ⟨S16x262144, .i32⟩
  | .hbm, ⟨61, _⟩ => ⟨S16x262144, .i1⟩
  | .hbm, ⟨62, _⟩ => ⟨S_, .i32⟩
  | .hbm, ⟨63, _⟩ => ⟨S16x262144, .i32⟩
  | .hbm, ⟨64, _⟩ => ⟨S16x262144, .i32⟩
  | .hbm, ⟨65, _⟩ => ⟨S16x262144, .i32⟩
  | .hbm, ⟨66, _⟩ => ⟨S16x262144, .i32⟩
  | .hbm, ⟨67, _⟩ => ⟨S16x262144x1, .i32⟩
  | .hbm, ⟨68, _⟩ => ⟨S16x262144x1, .i32⟩
  | .hbm, ⟨69, _⟩ => ⟨S16x262144x2, .i32⟩
  | .hbm, ⟨70, _⟩ => ⟨S_, .f32⟩
  | .hbm, ⟨71, _⟩ => ⟨S16x262144, .f32⟩
  | .hbm, ⟨72, _⟩ => ⟨S16x19, .f32⟩
  | .hbm, ⟨73, _⟩ => ⟨S_, .f32⟩
  | .hbm, ⟨74, _⟩ => ⟨S16x19, .f32⟩
  | .hbm, ⟨75, _⟩ => ⟨S16x19, .i1⟩
  | .hbm, ⟨76, _⟩ => ⟨S16x19, .f32⟩
  | .hbm, ⟨77, _⟩ => ⟨S_, .f32⟩
  | .hbm, ⟨78, _⟩ => ⟨S16x19, .f32⟩
  | .hbm, ⟨79, _⟩ => ⟨S16x19, .f32⟩
  | .hbm, ⟨80, _⟩ => ⟨S16x19, .f32⟩
  | .hbm, ⟨81, _⟩ => ⟨S16x19, .f32⟩
  | .hbm, ⟨82, _⟩ => ⟨S16x19, .i1⟩
  | .hbm, ⟨83, _⟩ => ⟨S16x19, .f32⟩
  | .hbm, ⟨84, _⟩ => ⟨S16x19, .f32⟩
  | .hbm, ⟨85, _⟩ => ⟨S16x19, .f32⟩
  | .hbm, ⟨86, _⟩ => ⟨S16x19, .f32⟩
  | .hbm, ⟨87, _⟩ => ⟨S16x19, .f32⟩
  | .hbm, ⟨88, _⟩ => ⟨S16x19, .f32⟩
  | .hbm, ⟨89, _⟩ => ⟨S16x19, .f32⟩
  | .hbm, ⟨90, _⟩ => ⟨S16x19, .f32⟩
  | .hbm, ⟨91, _⟩ => ⟨S16x19, .f32⟩
  | .hbm, ⟨92, _⟩ => ⟨S16x19, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | _, _ => ⟨S16x19x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_call0_cst_0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_cst_1 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_v0 : Ref sig .tc := ⟨.hbm, 17, rfl⟩
abbrev main_v1 : Ref sig .tc := ⟨.hbm, 18, rfl⟩
abbrev main_call1_c : Ref sig .tc := ⟨.hbm, 19, rfl⟩
abbrev main_call1_v0 : Ref sig .tc := ⟨.hbm, 20, rfl⟩
abbrev main_call1_v1 : Ref sig .tc := ⟨.hbm, 21, rfl⟩
abbrev main_call1_c_0 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_c_1 : Ref sig .tc := ⟨.hbm, 27, rfl⟩
abbrev main_call1_c_2 : Ref sig .tc := ⟨.hbm, 28, rfl⟩
abbrev main_call1_v6 : Ref sig .tc := ⟨.hbm, 29, rfl⟩
abbrev main_call1_v7 : Ref sig .tc := ⟨.hbm, 30, rfl⟩
abbrev main_call1_v8 : Ref sig .tc := ⟨.hbm, 31, rfl⟩
abbrev main_call1_v9 : Ref sig .tc := ⟨.hbm, 32, rfl⟩
abbrev main_call1_v10 : Ref sig .tc := ⟨.hbm, 33, rfl⟩
abbrev main_call1_v11 : Ref sig .tc := ⟨.hbm, 34, rfl⟩
abbrev main_call1_c_3 : Ref sig .tc := ⟨.hbm, 35, rfl⟩
abbrev main_call1_v12 : Ref sig .tc := ⟨.hbm, 36, rfl⟩
abbrev main_call1_v13 : Ref sig .tc := ⟨.hbm, 37, rfl⟩
abbrev main_call1_cst : Ref sig .tc := ⟨.hbm, 38, rfl⟩
abbrev main_call1_v14 : Ref sig .tc := ⟨.hbm, 39, rfl⟩
abbrev main_v2 : Ref sig .tc := ⟨.hbm, 40, rfl⟩
abbrev main_v3 : Ref sig .tc := ⟨.hbm, 41, rfl⟩
abbrev main_v4 : Ref sig .tc := ⟨.hbm, 42, rfl⟩
abbrev main_cst : Ref sig .tc := ⟨.hbm, 43, rfl⟩
abbrev main_v5 : Ref sig .tc := ⟨.hbm, 44, rfl⟩
abbrev main_cst_0 : Ref sig .tc := ⟨.hbm, 45, rfl⟩
abbrev main_v6 : Ref sig .tc := ⟨.hbm, 46, rfl⟩
abbrev main_v7 : Ref sig .tc := ⟨.hbm, 47, rfl⟩
abbrev main_cst_1 : Ref sig .tc := ⟨.hbm, 48, rfl⟩
abbrev main_v8 : Ref sig .tc := ⟨.hbm, 49, rfl⟩
abbrev main_v9 : Ref sig .tc := ⟨.hbm, 50, rfl⟩
abbrev main_v10 : Ref sig .tc := ⟨.hbm, 51, rfl⟩
abbrev main_c : Ref sig .tc := ⟨.hbm, 52, rfl⟩
abbrev main_v11 : Ref sig .tc := ⟨.hbm, 53, rfl⟩
abbrev main_v12 : Ref sig .tc := ⟨.hbm, 54, rfl⟩
abbrev main_c_2 : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev main_c_3 : Ref sig .tc := ⟨.hbm, 59, rfl⟩
abbrev main_v16 : Ref sig .tc := ⟨.hbm, 60, rfl⟩
abbrev main_v17 : Ref sig .tc := ⟨.hbm, 61, rfl⟩
abbrev main_c_4 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_cst_5 : Ref sig .tc := ⟨.hbm, 70, rfl⟩
abbrev main_v25 : Ref sig .tc := ⟨.hbm, 71, rfl⟩
abbrev main_v26 : Ref sig .tc := ⟨.hbm, 72, rfl⟩
abbrev main_cst_6 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_call2_cst : Ref sig .tc := ⟨.hbm, 77, rfl⟩
abbrev main_call2_v0 : Ref sig .tc := ⟨.hbm, 78, rfl⟩
abbrev main_call2_v1 : Ref sig .tc := ⟨.hbm, 79, rfl⟩
abbrev main_call2_v2 : Ref sig .tc := ⟨.hbm, 80, rfl⟩
abbrev main_call2_v3 : Ref sig .tc := ⟨.hbm, 81, rfl⟩
abbrev main_call2_v4 : Ref sig .tc := ⟨.hbm, 82, rfl⟩
abbrev main_call2_v5 : Ref sig .tc := ⟨.hbm, 83, rfl⟩
abbrev main_call2_v6 : Ref sig .tc := ⟨.hbm, 84, rfl⟩
abbrev main_call2_v7 : Ref sig .tc := ⟨.hbm, 85, rfl⟩
abbrev main_call2_v8 : Ref sig .tc := ⟨.hbm, 86, rfl⟩
abbrev main_call2_v9 : Ref sig .tc := ⟨.hbm, 87, rfl⟩
abbrev main_call2_v10 : Ref sig .tc := ⟨.hbm, 88, rfl⟩
abbrev main_call2_v11 : Ref sig .tc := ⟨.hbm, 89, rfl⟩
abbrev main_v30 : Ref sig .tc := ⟨.hbm, 90, rfl⟩
abbrev main_v31 : Ref sig .tc := ⟨.hbm, 91, rfl⟩
abbrev main_v32 : Ref sig .tc := ⟨.hbm, 92, rfl⟩
abbrev main_cst_7 : Ref sig .tc := ⟨.hbm, 93, rfl⟩
abbrev main_v33 : Ref sig .tc := ⟨.hbm, 94, rfl⟩
abbrev main_cst_8 : Ref sig .tc := ⟨.hbm, 95, rfl⟩
abbrev main_v34 : Ref sig .tc := ⟨.hbm, 96, rfl⟩
abbrev main_v35 : Ref sig .tc := ⟨.hbm, 97, rfl⟩

abbrev nD : Nat := 1
abbrev τ : Topo := Topo.v7x

variable {F : FTy → Type} [FloatOps F]

class Facts₀ : Prop where
  reducesTo_S16x19x512x512_S16x512x512_d1 : S16x19x512x512.ReducesTo [1] S16x512x512
  h_S_ : 0 < S_.numel
  bcast_S_S16x512x512 : S_.BroadcastsInDim S16x512x512 (![] : Fin 0 → Fin S16x512x512.rank)
  bcast_S16x512x512_S16x1x512x512_0_2_3 : S16x512x512.BroadcastsInDim S16x1x512x512 (![0, 2, 3] : Fin 3 → Fin S16x1x512x512.rank)
  bcast_S16x1x512x512_S16x19x512x512_0_1_2_3 : S16x1x512x512.BroadcastsInDim S16x19x512x512 (![0, 1, 2, 3] : Fin 4 → Fin S16x19x512x512.rank)
  bcast_S_S16x1x512x512 : S_.BroadcastsInDim S16x1x512x512 (![] : Fin 0 → Fin S16x1x512x512.rank)
  shapeCasts_S16x1x512x512_S16x1x512x512x1 : S16x1x512x512.ShapeCasts S16x1x512x512x1
  bcast_S_S16x1x512x512x1 : S_.BroadcastsInDim S16x1x512x512x1 (![] : Fin 0 → Fin S16x1x512x512x1.rank)
  bcast_S1_S1x1x1x1x1_4 : S1.BroadcastsInDim S1x1x1x1x1 (![4] : Fin 1 → Fin S1x1x1x1x1.rank)
  bcast_S1x1x1x1x1_S16x1x512x512x1_0_1_2_3_4 : S1x1x1x1x1.BroadcastsInDim S16x1x512x512x1 (![0, 1, 2, 3, 4] : Fin 5 → Fin S16x1x512x512x1.rank)
  reducesTo_S16x1x512x512x1_S16x1x512x512_d4 : S16x1x512x512x1.ReducesTo [4] S16x1x512x512
  shapeCasts_S16x1x512x512_S16x512x512 : S16x1x512x512.ShapeCasts S16x512x512
  reducesTo_S16x512x512_S_d0_1_2 : S16x512x512.ReducesTo [0, 1, 2] S_
  shapeCasts_S16x512x512_S16x262144 : S16x512x512.ShapeCasts S16x262144
  bcast_S_S16x19 : S_.BroadcastsInDim S16x19 (![] : Fin 0 → Fin S16x19.rank)
  bcast_S16_S16x1_0 : S16.BroadcastsInDim S16x1 (![0] : Fin 1 → Fin S16x1.rank)
  bcast_S_S16x1 : S_.BroadcastsInDim S16x1 (![] : Fin 0 → Fin S16x1.rank)
  bcast_S_S16x262144 : S_.BroadcastsInDim S16x262144 (![] : Fin 0 → Fin S16x262144.rank)
  bcast_S16x1_S16x262144_0_1 : S16x1.BroadcastsInDim S16x262144 (![0, 1] : Fin 2 → Fin S16x262144.rank)
  bcast_S16x262144_S16x262144x1_0_1 : S16x262144.BroadcastsInDim S16x262144x1 (![0, 1] : Fin 2 → Fin S16x262144x1.rank)
  concatenates_S16x262144x1_S16x262144x1_S16x262144x2_d2 : Shape.Concatenates [S16x262144x1, S16x262144x1] S16x262144x2 2
  reducesTo_S16x19_S_d0_1 : S16x19.ReducesTo [0, 1] S_
  gather_S16x19x512x512_S16x1x512x512x1_S16x1x512x512_n_1_023_023_1_4_1111_wf : GatherDims.WF S16x19x512x512 S16x1x512x512x1 S16x1x512x512 [] [1] [0, 2, 3] [1] [0, 2, 3] 4 ![1, 1, 1, 1]
  scatter_S16x19_S16x262144x2_S16x262144_n_01_01_2_wf : ScatterDims.WF S16x19 S16x262144x2 S16x262144 [] [0, 1] [0, 1] 2

variable [Facts₀]

def gather_S16x19x512x512_S16x1x512x512x1_S16x1x512x512_n_1_023_023_1_4_1111 : GatherDims S16x19x512x512 S16x1x512x512x1 S16x1x512x512 where
  offsetDims := []
  collapsedSliceDims := [1]
  operandBatchingDims := [0, 2, 3]
  startIndicesBatchingDims := [0, 2, 3]
  startIndexMap := [1]
  indexVectorDim := 4
  sliceSizes := ![1, 1, 1, 1]
  wf := gather_S16x19x512x512_S16x1x512x512x1_S16x1x512x512_n_1_023_023_1_4_1111_wf
def scatter_S16x19_S16x262144x2_S16x262144_n_01_01_2 : ScatterDims S16x19 S16x262144x2 S16x262144 where
  updateWindowDims := []
  insertedWindowDims := [0, 1]
  scatterDimsToOperandDims := [0, 1]
  indexVectorDim := 2
  wf := scatter_S16x19_S16x262144x2_S16x262144_n_01_01_2_wf

class Facts : Prop extends Facts₀ where

variable [Facts]
-- ==== Proof.KPieces.lean ====
/-
  What each control case of the kernel body leaves in the two accumulators it carries from grid point to grid point,
  and in the two output blocks at the last row tile, as the body's pure values of what it loaded:

    first row tile (h = 0):   nll accumulator  = update (per-pixel values) (zeros),   histogram = update (one-hot) (zeros)
    any later row tile:       nll accumulator  = update (per-pixel values) (what the point before left), likewise the histogram
    last row tile (h = 15):   also  output 0 = sum of the updated nll accumulator,  output 1 = (updated histogram > 0)

  Each is read off the stores the body's run found: one covering store per buffer (two at the first tile, the reset
  and then the update, of which the update is the later and covers), every load through a whole buffer.
-/
import proofs.«422559_j52725018526410_3_alg».proof.Proof.Gen.KernelIdeal.Frame
import Idealize.ShloMosaic.Lib.Pipeline.Value

set_option maxRecDepth 16384

noncomputable section

namespace Cert.KernelIdeal.KPieces

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

theorem hz2 : (![0, 0] : Fin 2 → Nat) = fun _ => 0 := by funext a; fin_cases a <;> rfl
theorem hz3 : (![0, 0, 0] : Fin 3 → Nat) = fun _ => 0 := by funext a; fin_cases a <;> rfl
theorem hz4 : (![0, 0, 0, 0] : Fin 4 → Nat) = fun _ => 0 := by funext a; fin_cases a <;> rfl

/-- First row tile: the nll accumulator is reset to zeros and then updated with the tile's row sums. -/
theorem soutA0 (c : Dev nD) (i : grid0.Coords) (arg2 : Memref sig .tc .vmem S8x19x32x512 .f32) (harg2 : arg2.IsWhole) (arg3 : Memref sig .tc .vmem S8x32x512 .i32) (harg3 : arg3.IsWhole) (arg4 : Memref sig .tc .vmem S1x1x1 .f32) (harg4 : arg4.IsWhole) (arg5 : Memref sig .tc .vmem S1x8x19 .f32) (harg5 : arg5.IsWhole) (arg6 : Memref sig .tc .vmem S8x32 .f32) (harg6 : arg6.IsWhole) (arg7 : Memref sig .tc .vmem S8x19 .f32) (harg7 : arg7.IsWhole) (hc0 : cond0_0 i) (hc1 : ¬cond0_1 i)
    (x0 : Vec F S8x19x32x512 .f32) (x1 : Vec F S8x32x512 .i32) :
    sout0_A_0 c i arg2 harg2 arg3 harg3 arg4 harg4 arg5 harg5 arg6 harg6 arg7 harg7 hc0 hc1 x0 x1 = k0_pay1 (k0_pay10 x0 x1) (k0_pay5 (F := F)) := by
  unfold sout0_A_0
  rw [View.read_writes_eq_canon _ _ _ (scover0_A_0 c i arg2 harg2 arg3 harg3 arg4 harg4 arg5 harg5 arg6 harg6 arg7 harg7 hc0 hc1 x0 x1)]
  unfold kernelRun0_A
  dsimp only
  sl_unfold_words
  rw [View.canon_cons_unit_zero (S := S8x32) hz2]
  simp only [View.readAt_eq_ld, harg2.read_unread, harg3.read_unread, harg6.read_unread, harg7.read_unread, View.ld_unit_zero (S := S8x19x32x512) hz4, View.ld_unit_zero (S := S8x32x512) hz3, View.ld_unit_zero (S := S8x32) hz2, View.ld_unit_zero (S := S8x19) hz2, View.readCov_unit_zero (S := S8x32) _ hz2, View.readCov_unit_zero (S := S8x19) _ hz2]

/-- First row tile: the histogram accumulator is reset to zeros and then updated with the tile's label counts. -/
theorem soutA1 (c : Dev nD) (i : grid0.Coords) (arg2 : Memref sig .tc .vmem S8x19x32x512 .f32) (harg2 : arg2.IsWhole) (arg3 : Memref sig .tc .vmem S8x32x512 .i32) (harg3 : arg3.IsWhole) (arg4 : Memref sig .tc .vmem S1x1x1 .f32) (harg4 : arg4.IsWhole) (arg5 : Memref sig .tc .vmem S1x8x19 .f32) (harg5 : arg5.IsWhole) (arg6 : Memref sig .tc .vmem S8x32 .f32) (harg6 : arg6.IsWhole) (arg7 : Memref sig .tc .vmem S8x19 .f32) (harg7 : arg7.IsWhole) (hc0 : cond0_0 i) (hc1 : ¬cond0_1 i)
    (x0 : Vec F S8x19x32x512 .f32) (x1 : Vec F S8x32x512 .i32) :
    sout0_A_1 c i arg2 harg2 arg3 harg3 arg4 harg4 arg5 harg5 arg6 harg6 arg7 harg7 hc0 hc1 x0 x1 = k0_pay2 (k0_pay9 x1) (k0_pay6 (F := F)) := by
  unfold sout0_A_1
  rw [View.read_writes_eq_canon _ _ _ (scover0_A_1 c i arg2 harg2 arg3 harg3 arg4 harg4 arg5 harg5 arg6 harg6 arg7 harg7 hc0 hc1 x0 x1)]
  unfold kernelRun0_A
  dsimp only
  sl_unfold_words
  rw [View.canon_cons_unit_zero (S := S8x19) hz2]
  simp only [View.readAt_eq_ld, harg2.read_unread, harg3.read_unread, harg6.read_unread, harg7.read_unread, View.ld_unit_zero (S := S8x19x32x512) hz4, View.ld_unit_zero (S := S8x32x512) hz3, View.ld_unit_zero (S := S8x32) hz2, View.ld_unit_zero (S := S8x19) hz2, View.readCov_unit_zero (S := S8x32) _ hz2, View.readCov_unit_zero (S := S8x19) _ hz2]

/-- A middle row tile: the nll accumulator is what the point before left, updated with the tile's row sums. -/
theorem soutB0 (c : Dev nD) (i : grid0.Coords) (arg2 : Memref sig .tc .vmem S8x19x32x512 .f32) (harg2 : arg2.IsWhole) (arg3 : Memref sig .tc .vmem S8x32x512 .i32) (harg3 : arg3.IsWhole) (arg4 : Memref sig .tc .vmem S1x1x1 .f32) (harg4 : arg4.IsWhole) (arg5 : Memref sig .tc .vmem S1x8x19 .f32) (harg5 : arg5.IsWhole) (arg6 : Memref sig .tc .vmem S8x32 .f32) (harg6 : arg6.IsWhole) (arg7 : Memref sig .tc .vmem S8x19 .f32) (harg7 : arg7.IsWhole) (hc0 : ¬cond0_0 i) (hc1 : ¬cond0_1 i)
    (x0 : Vec F S8x19x32x512 .f32) (x1 : Vec F S8x32x512 .i32) (xs0 : Vec F S8x32 .f32) (xs1 : Vec F S8x19 .f32) :
    sout0_B_0 c i arg2 harg2 arg3 harg3 arg4 harg4 arg5 harg5 arg6 harg6 arg7 harg7 hc0 hc1 x0 x1 xs0 xs1 = k0_pay1 (k0_pay10 x0 x1) xs0 := by
  unfold sout0_B_0
  rw [View.read_writes_eq_canon _ _ _ (scover0_B_0 c i arg2 harg2 arg3 harg3 arg4 harg4 arg5 harg5 arg6 harg6 arg7 harg7 hc0 hc1 x0 x1 xs0 xs1)]
  unfold kernelRun0_B
  dsimp only
  sl_unfold_words
  rw [View.canon_unit_zero (S := S8x32) hz2]
  simp only [View.readAt_eq_ld, harg2.read_unread, harg3.read_unread, harg6.read_unread, harg7.read_unread, View.ld_unit_zero (S := S8x19x32x512) hz4, View.ld_unit_zero (S := S8x32x512) hz3, View.ld_unit_zero (S := S8x32) hz2, View.ld_unit_zero (S := S8x19) hz2, View.readCov_unit_zero (S := S8x32) _ hz2, View.readCov_unit_zero (S := S8x19) _ hz2]

/-- A middle row tile: the histogram accumulator is what the point before left, updated with the tile's label counts. -/
theorem soutB1 (c : Dev nD) (i : grid0.Coords) (arg2 : Memref sig .tc .vmem S8x19x32x512 .f32) (harg2 : arg2.IsWhole) (arg3 : Memref sig .tc .vmem S8x32x512 .i32) (harg3 : arg3.IsWhole) (arg4 : Memref sig .tc .vmem S1x1x1 .f32) (harg4 : arg4.IsWhole) (arg5 : Memref sig .tc .vmem S1x8x19 .f32) (harg5 : arg5.IsWhole) (arg6 : Memref sig .tc .vmem S8x32 .f32) (harg6 : arg6.IsWhole) (arg7 : Memref sig .tc .vmem S8x19 .f32) (harg7 : arg7.IsWhole) (hc0 : ¬cond0_0 i) (hc1 : ¬cond0_1 i)
    (x0 : Vec F S8x19x32x512 .f32) (x1 : Vec F S8x32x512 .i32) (xs0 : Vec F S8x32 .f32) (xs1 : Vec F S8x19 .f32) :
    sout0_B_1 c i arg2 harg2 arg3 harg3 arg4 harg4 arg5 harg5 arg6 harg6 arg7 harg7 hc0 hc1 x0 x1 xs0 xs1 = k0_pay2 (k0_pay9 x1) xs1 := by
  unfold sout0_B_1
  rw [View.read_writes_eq_canon _ _ _ (scover0_B_1 c i arg2 harg2 arg3 harg3 arg4 harg4 arg5 harg5 arg6 harg6 arg7 harg7 hc0 hc1 x0 x1 xs0 xs1)]
  unfold kernelRun0_B
  dsimp only
  sl_unfold_words
  rw [View.canon_unit_zero (S := S8x19) hz2]
  simp only [View.readAt_eq_ld, harg2.read_unread, harg3.read_unread, harg6.read_unread, harg7.read_unread, View.ld_unit_zero (S := S8x19x32x512) hz4, View.ld_unit_zero (S := S8x32x512) hz3, View.ld_unit_zero (S := S8x32) hz2, View.ld_unit_zero (S := S8x19) hz2, View.readCov_unit_zero (S := S8x32) _ hz2, View.readCov_unit_zero (S := S8x19) _ hz2]

/-- The last row tile: the nll accumulator is what the point before left, updated with the tile's row sums. -/
theorem soutC0 (c : Dev nD) (i : grid0.Coords) (arg2 : Memref sig .tc .vmem S8x19x32x512 .f32) (harg2 : arg2.IsWhole) (arg3 : Memref sig .tc .vmem S8x32x512 .i32) (harg3 : arg3.IsWhole) (arg4 : Memref sig .tc .vmem S1x1x1 .f32) (harg4 : arg4.IsWhole) (arg5 : Memref sig .tc .vmem S1x8x19 .f32) (harg5 : arg5.IsWhole) (arg6 : Memref sig .tc .vmem S8x32 .f32) (harg6 : arg6.IsWhole) (arg7 : Memref sig .tc .vmem S8x19 .f32) (harg7 : arg7.IsWhole) (hc0 : ¬cond0_0 i) (hc1 : cond0_1 i)
    (x0 : Vec F S8x19x32x512 .f32) (x1 : Vec F S8x32x512 .i32) (xs0 : Vec F S8x32 .f32) (xs1 : Vec F S8x19 .f32) :
    sout0_C_0 c i arg2 harg2 arg3 harg3 arg4 harg4 arg5 harg5 arg6 harg6 arg7 harg7 hc0 hc1 x0 x1 xs0 xs1 = k0_pay1 (k0_pay10 x0 x1) xs0 := by
  unfold sout0_C_0
  rw [View.read_writes_eq_canon _ _ _ (scover0_C_0 c i arg2 harg2 arg3 harg3 arg4 harg4 arg5 harg5 arg6 harg6 arg7 harg7 hc0 hc1 x0 x1 xs0 xs1)]
  unfold kernelRun0_C
  dsimp only
  sl_unfold_words
  rw [View.canon_unit_zero (S := S8x32) hz2]
  simp only [View.readAt_eq_ld, harg2.read_unread, harg3.read_unread, harg6.read_unread, harg7.read_unread, View.ld_unit_zero (S := S8x19x32x512) hz4, View.ld_unit_zero (S := S8x32x512) hz3, View.ld_unit_zero (S := S8x32) hz2, View.ld_unit_zero (S := S8x19) hz2, View.readCov_unit_zero (S := S8x32) _ hz2, View.readCov_unit_zero (S := S8x19) _ hz2]

/-- The last row tile: the histogram accumulator is what the point before left, updated with the tile's label counts. -/
theorem soutC1 (c : Dev nD) (i : grid0.Coords) (arg2 : Memref sig .tc .vmem S8x19x32x512 .f32) (harg2 : arg2.IsWhole) (arg3 : Memref sig .tc .vmem S8x32x512 .i32) (harg3 : arg3.IsWhole) (arg4 : Memref sig .tc .vmem S1x1x1 .f32) (harg4 : arg4.IsWhole) (arg5 : Memref sig .tc .vmem S1x8x19 .f32) (harg5 : arg5.IsWhole) (arg6 : Memref sig .tc .vmem S8x32 .f32) (harg6 : arg6.IsWhole) (arg7 : Memref sig .tc .vmem S8x19 .f32) (harg7 : arg7.IsWhole) (hc0 : ¬cond0_0 i) (hc1 : cond0_1 i)
    (x0 : Vec F S8x19x32x512 .f32) (x1 : Vec F S8x32x512 .i32) (xs0 : Vec F S8x32 .f32) (xs1 : Vec F S8x19 .f32) :
    sout0_C_1 c i arg2 harg2 arg3 harg3 arg4 harg4 arg5 harg5 arg6 harg6 arg7 harg7 hc0 hc1 x0 x1 xs0 xs1 = k0_pay2 (k0_pay9 x1) xs1 := by
  unfold sout0_C_1
  rw [View.read_writes_eq_canon _ _ _ (scover0_C_1 c i arg2 harg2 arg3 harg3 arg4 harg4 arg5 harg5 arg6 harg6 arg7 harg7 hc0 hc1 x0 x1 xs0 xs1)]
  unfold kernelRun0_C
  dsimp only
  sl_unfold_words
  rw [View.canon_unit_zero (S := S8x19) hz2]
  simp only [View.readAt_eq_ld, harg2.read_unread, harg3.read_unread, harg6.read_unread, harg7.read_unread, View.ld_unit_zero (S := S8x19x32x512) hz4, View.ld_unit_zero (S := S8x32x512) hz3, View.ld_unit_zero (S := S8x32) hz2, View.ld_unit_zero (S := S8x19) hz2, View.readCov_unit_zero (S := S8x32) _ hz2, View.readCov_unit_zero (S := S8x19) _ hz2]

/-- The last row tile: output 0's block is the sum of the nll accumulator just updated. -/
theorem outC2 (c : Dev nD) (i : grid0.Coords) (arg2 : Memref sig .tc .vmem S8x19x32x512 .f32) (harg2 : arg2.IsWhole) (arg3 : Memref sig .tc .vmem S8x32x512 .i32) (harg3 : arg3.IsWhole) (arg4 : Memref sig .tc .vmem S1x1x1 .f32) (harg4 : arg4.IsWhole) (arg5 : Memref sig .tc .vmem S1x8x19 .f32) (harg5 : arg5.IsWhole) (arg6 : Memref sig .tc .vmem S8x32 .f32) (harg6 : arg6.IsWhole) (arg7 : Memref sig .tc .vmem S8x19 .f32) (harg7 : arg7.IsWhole) (hc0 : ¬cond0_0 i) (hc1 : cond0_1 i)
    (x0 : Vec F S8x19x32x512 .f32) (x1 : Vec F S8x32x512 .i32) (xs0 : Vec F S8x32 .f32) (xs1 : Vec F S8x19 .f32) :
    out0_C_2 c i arg2 harg2 arg3 harg3 arg4 harg4 arg5 harg5 arg6 harg6 arg7 harg7 hc0 hc1 x0 x1 xs0 xs1 = k0_pay3 (k0_pay1 (k0_pay10 x0 x1) xs0) := by
  unfold out0_C_2
  rw [View.read_writes_eq_canon _ _ _ (cover0_C_2 c i arg2 harg2 arg3 harg3 arg4 harg4 arg5 harg5 arg6 harg6 arg7 harg7 hc0 hc1 x0 x1 xs0 xs1)]
  unfold kernelRun0_C
  dsimp only
  sl_unfold_words
  rw [View.canon_unit_zero (S := S1x1x1) hz3]
  simp only [View.readAt_eq_ld, harg2.read_unread, harg3.read_unread, harg6.read_unread, harg7.read_unread, View.ld_unit_zero (S := S8x19x32x512) hz4, View.ld_unit_zero (S := S8x32x512) hz3, View.ld_unit_zero (S := S8x32) hz2, View.ld_unit_zero (S := S8x19) hz2, View.readCov_unit_zero (S := S8x32) _ hz2, View.readCov_unit_zero (S := S8x19) _ hz2]

/-- The last row tile: output 1's block is the positivity indicator of the histogram accumulator just updated. -/
theorem outC3 (c : Dev nD) (i : grid0.Coords) (arg2 : Memref sig .tc .vmem S8x19x32x512 .f32) (harg2 : arg2.IsWhole) (arg3 : Memref sig .tc .vmem S8x32x512 .i32) (harg3 : arg3.IsWhole) (arg4 : Memref sig .tc .vmem S1x1x1 .f32) (harg4 : arg4.IsWhole) (arg5 : Memref sig .tc .vmem S1x8x19 .f32) (harg5 : arg5.IsWhole) (arg6 : Memref sig .tc .vmem S8x32 .f32) (harg6 : arg6.IsWhole) (arg7 : Memref sig .tc .vmem S8x19 .f32) (harg7 : arg7.IsWhole) (hc0 : ¬cond0_0 i) (hc1 : cond0_1 i)
    (x0 : Vec F S8x19x32x512 .f32) (x1 : Vec F S8x32x512 .i32) (xs0 : Vec F S8x32 .f32) (xs1 : Vec F S8x19 .f32) :
    out0_C_3 c i arg2 harg2 arg3 harg3 arg4 harg4 arg5 harg5 arg6 harg6 arg7 harg7 hc0 hc1 x0 x1 xs0 xs1 = k0_pay4 (k0_pay2 (k0_pay9 x1) xs1) := by
  unfold out0_C_3
  rw [View.read_writes_eq_canon _ _ _ (cover0_C_3 c i arg2 harg2 arg3 harg3 arg4 harg4 arg5 harg5 arg6 harg6 arg7 harg7 hc0 hc1 x0 x1 xs0 xs1)]
  unfold kernelRun0_C
  dsimp only
  sl_unfold_words
  rw [View.canon_unit_zero (S := S1x8x19) hz3]
  simp only [View.readAt_eq_ld, harg2.read_unread, harg3.read_unread, harg6.read_unread, harg7.read_unread, View.ld_unit_zero (S := S8x19x32x512) hz4, View.ld_unit_zero (S := S8x32x512) hz3, View.ld_unit_zero (S := S8x32) hz2, View.ld_unit_zero (S := S8x19) hz2, View.readCov_unit_zero (S := S8x32) _ hz2, View.readCov_unit_zero (S := S8x19) _ hz2]

end Cert.KernelIdeal.KPieces

end
-- ==== Proof.KBlocks.lean ====
/-
  The blocks the pipeline hands the kernel body, as restrictions of the argument arrays.  The grid is 2 x 16: point
  t = 16 k + s is row tile s of batch half k.  There the logits' block is samples 8k … 8k+7, all 19 classes, rows
  32s … 32s+31, all 512 columns; the labels' block likewise; and each output's block is block k of its array.
-/
import proofs.«422559_j52725018526410_3_alg».proof.Proof.Gen.KernelIdeal.Frame
import Idealize.ShloMosaic.Lib.Pipeline.Value
import Idealize.ShloMosaic.Lib.ValueIdx

set_option maxRecDepth 16384

noncomputable section

namespace Cert.KernelIdeal.KBlocks

open Idealize.ShloMosaic Idealize.ShloMosaic.TcCoe Idealize.ShloMosaic.ValueIdx Idealize.SL.Sem
open Cert.KernelIdeal Cert.KernelIdeal.Gen

variable {F : FTy → Type} [FloatOps F]
variable (m : (ℓ : Loc nD τ sig) → Buf (Elt F) ℓ)

/-- The logits as the region finds them. -/
abbrev xarr (c : Dev nD) : Vec F S16x19x512x512 .f32 := V m c main_arg0
/-- The labels as the region finds them. -/
abbrev tarr (c : Dev nD) : Vec F S16x512x512 .i32 := V m c main_arg2
/-- The logits' block at a grid point. -/
abbrev xblk (c : Dev nD) (t : Fin cfg0.N) : Vec F S8x19x32x512 .f32 := iblk m c 0 t
/-- The labels' block at a grid point. -/
abbrev tblk (c : Dev nD) (t : Fin cfg0.N) : Vec F S8x32x512 .i32 := iblk m c 1 t

theorem xarr_eq (c : Dev nD) : xarr m c = m ((c : Thread nD τ).loc main_arg0) := V_main_arg0 m c
theorem tarr_eq (c : Dev nD) : tarr m c = m ((c : Thread nD τ).loc main_arg2) := V_main_arg2 m c

theorem N32 : cfg0.N = 32 := N_0

/-- The printed index maps, decided over the 32 grid points. -/
theorem idx_facts : ∀ t : Fin cfg0.N,
    win0_0.index t (0 : Fin 4) = t.val / 16 ∧ win0_0.index t (1 : Fin 4) = 0 ∧ win0_0.index t (2 : Fin 4) = t.val % 16 ∧ win0_0.index t (3 : Fin 4) = 0
    ∧ win0_1.index t (0 : Fin 3) = t.val / 16 ∧ win0_1.index t (1 : Fin 3) = t.val % 16 ∧ win0_1.index t (2 : Fin 3) = 0
    ∧ win0_2.index t (0 : Fin 3) = t.val / 16 ∧ win0_2.index t (1 : Fin 3) = 0 ∧ win0_2.index t (2 : Fin 3) = 0
    ∧ win0_3.index t (0 : Fin 3) = t.val / 16 ∧ win0_3.index t (1 : Fin 3) = 0 ∧ win0_3.index t (2 : Fin 3) = 0 :=
  (by decide +kernel : ∀ t : Fin grid0.N, _)

/-- The two outputs are written back exactly at the last row tile of each batch half. -/
theorem flush_iff : ∀ t : Fin cfg0.N, ((cfg0.win 2).flush t = true ↔ t.val % 16 = 15) ∧ ((cfg0.win 3).flush t = true ↔ t.val % 16 = 15) :=
  (by decide +kernel : ∀ t : Fin grid0.N, _)

/-- The logits' block at point t, entry (b, c, r, w), is the array's entry (8 (t / 16) + b, c, 32 (t % 16) + r, w). -/
theorem xblk_apply (c : Dev nD) (t : Fin cfg0.N) (b : Fin 8) (cl : Fin 19) (r : Fin 32) (w : Fin 512) :
    xblk m c t (ix4 b cl r w)
      = xarr m c (ix4 (⟨8 * (t.val / 16) + b.val, by have := t.isLt; have := N32; omega⟩ : Fin 16) cl
          (⟨32 * (t.val % 16) + r.val, by omega⟩ : Fin 512) w) := by
  obtain ⟨e0, e1, e2, e3, -⟩ := idx_facts t
  show V m c main_arg0 (((cfg0.win 0).blk t).view.emb (ix4 b cl r w)) = V m c main_arg0 _
  refine congrArg (V m c main_arg0) ?_
  funext a; apply Fin.ext
  match a with
  | ⟨0, _⟩ => show win0_0.index t (0 : Fin 4) * 8 + 1 * b.val = 8 * (t.val / 16) + b.val; omega
  | ⟨1, _⟩ => show win0_0.index t (1 : Fin 4) * 19 + 1 * cl.val = cl.val; omega
  | ⟨2, _⟩ => show win0_0.index t (2 : Fin 4) * 32 + 1 * r.val = 32 * (t.val % 16) + r.val; omega
  | ⟨3, _⟩ => show win0_0.index t (3 : Fin 4) * 512 + 1 * w.val = w.val; omega

/-- The labels' block at point t, entry (b, r, w), is the array's entry (8 (t / 16) + b, 32 (t % 16) + r, w). -/
theorem tblk_apply (c : Dev nD) (t : Fin cfg0.N) (b : Fin 8) (r : Fin 32) (w : Fin 512) :
    tblk m c t (ix3 b r w)
      = tarr m c (ix3 (⟨8 * (t.val / 16) + b.val, by have := t.isLt; have := N32; omega⟩ : Fin 16)
          (⟨32 * (t.val % 16) + r.val, by omega⟩ : Fin 512) w) := by
  obtain ⟨-, -, -, -, e0, e1, e2, -⟩ := idx_facts t
  show V m c main_arg2 (((cfg0.win 1).blk t).view.emb (ix3 b r w)) = V m c main_arg2 _
  refine congrArg (V m c main_arg2) ?_
  funext a; apply Fin.ext
  match a with
  | ⟨0, _⟩ => show win0_1.index t (0 : Fin 3) * 8 + 1 * b.val = 8 * (t.val / 16) + b.val; omega
  | ⟨1, _⟩ => show win0_1.index t (1 : Fin 3) * 32 + 1 * r.val = 32 * (t.val % 16) + r.val; omega
  | ⟨2, _⟩ => show win0_1.index t (2 : Fin 3) * 512 + 1 * w.val = w.val; omega

end Cert.KernelIdeal.KBlocks

end
-- ==== Proof.KAcc.lean ====
/-
  The two accumulators the kernel carries across the 16 row tiles of a batch half, point by point: at the first row
  tile each is its update of zeros, at every later one its update of what the point before left; and at the last row
  tile the two outputs' blocks are the epilogue values of the accumulators just updated.
-/
import proofs.«422559_j52725018526410_3_alg».proof.Proof.KPieces
import proofs.«422559_j52725018526410_3_alg».proof.Proof.KBlocks

set_option maxRecDepth 16384

noncomputable section

namespace Cert.KernelIdeal.KAcc

open Idealize.ShloMosaic Idealize.ShloMosaic.TcCoe Idealize.ShloMosaic.ValueIdx Idealize.SL.Sem
open Cert.KernelIdeal Cert.KernelIdeal.Gen Cert.KernelIdeal.KPieces Cert.KernelIdeal.KBlocks

variable {F : FTy → Type} [FloatOps F]
variable (m : (ℓ : Loc nD τ sig) → Buf (Elt F) ℓ)

/-- First row tile: the nll accumulator after the point. -/
theorem nll_reset (c : Dev nD) (t : Fin cfg0.N) (h0 : t.val % 16 = 0) :
    (outsAt0 m c t.val t.isLt).2.2.1 = k0_pay1 (k0_pay10 (xblk m c t) (tblk m c t)) (k0_pay5 (F := F)) := by
  have h1 : ¬t.val % 16 = 15 := by omega
  rw [outsAt0_A m c t h0 h1]; dsimp only
  exact soutA0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t)

/-- First row tile: the histogram accumulator after the point. -/
theorem cnt_reset (c : Dev nD) (t : Fin cfg0.N) (h0 : t.val % 16 = 0) :
    (outsAt0 m c t.val t.isLt).2.2.2 = k0_pay2 (k0_pay9 (tblk m c t)) (k0_pay6 (F := F)) := by
  have h1 : ¬t.val % 16 = 15 := by omega
  rw [outsAt0_A m c t h0 h1]; dsimp only
  exact soutA1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t)

/-- A later row tile: the nll accumulator after the point is its update of what the point before left. -/
theorem nll_step (c : Dev nD) (t : Fin cfg0.N) (h0 : ¬t.val % 16 = 0) :
    (outsAt0 m c t.val t.isLt).2.2.1
      = k0_pay1 (k0_pay10 (xblk m c t) (tblk m c t)) (outsAt0 m c (t.val - 1) (Nat.lt_of_le_of_lt (Nat.sub_le _ _) t.isLt)).2.2.1 := by
  by_cases h1 : t.val % 16 = 15
  · rw [outsAt0_C m c t h0 h1]; dsimp only
    exact soutC0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2
  · rw [outsAt0_B m c t h0 h1]; dsimp only
    exact soutB0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2

/-- A later row tile: the histogram accumulator after the point is its update of what the point before left. -/
theorem cnt_step (c : Dev nD) (t : Fin cfg0.N) (h0 : ¬t.val % 16 = 0) :
    (outsAt0 m c t.val t.isLt).2.2.2
      = k0_pay2 (k0_pay9 (tblk m c t)) (outsAt0 m c (t.val - 1) (Nat.lt_of_le_of_lt (Nat.sub_le _ _) t.isLt)).2.2.2 := by
  by_cases h1 : t.val % 16 = 15
  · rw [outsAt0_C m c t h0 h1]; dsimp only
    exact soutC1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2
  · rw [outsAt0_B m c t h0 h1]; dsimp only
    exact soutB1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2

/-- The last row tile: output 0's block is the sum of the nll accumulator as the point leaves it. -/
theorem out2_last (c : Dev nD) (t : Fin cfg0.N) (h1 : t.val % 16 = 15) :
    (outsAt0 m c t.val t.isLt).1 = k0_pay3 (outsAt0 m c t.val t.isLt).2.2.1 := by
  have h0 : ¬t.val % 16 = 0 := by omega
  rw [nll_step m c t h0, outsAt0_C m c t h0 h1]; dsimp only
  exact outC2 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2

/-- The last row tile: output 1's block is the positivity indicator of the histogram accumulator as the point leaves it. -/
theorem out3_last (c : Dev nD) (t : Fin cfg0.N) (h1 : t.val % 16 = 15) :
    (outsAt0 m c t.val t.isLt).2.1 = k0_pay4 (outsAt0 m c t.val t.isLt).2.2.2 := by
  have h0 : ¬t.val % 16 = 0 := by omega
  rw [cnt_step m c t h0, outsAt0_C m c t h0 h1]; dsimp only
  exact outC3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2

end Cert.KernelIdeal.KAcc

end
-- ==== Proof.KFinal.lean ====
/-
  The two output arrays after the run, entry by entry.  Each output's block is written back once per batch half, at
  the half's last row tile (point 16 k + 15), and block k of the array is entry k of its leading axis; so the first
  array's entry (k, 0, 0) is the epilogue sum of the first accumulator as point 16 k + 15 leaves it, and the second
  array's entry (k, b, c) is the epilogue indicator of the second accumulator there, at (b, c).
-/
import proofs.«422559_j52725018526410_3_alg».proof.Proof.KAcc
import Idealize.ShloMosaic.Lib.Pipeline.Value

set_option maxRecDepth 16384

noncomputable section

namespace Cert.KernelIdeal.KFinal

open Idealize.ShloMosaic Idealize.ShloMosaic.TcCoe Idealize.ShloMosaic.ValueIdx Idealize.SL.Sem
open Cert.KernelIdeal Cert.KernelIdeal.Gen Cert.KernelIdeal.KBlocks Cert.KernelIdeal.KAcc

variable {F : FTy → Type} [FloatOps F]
variable (m : (ℓ : Loc nD τ sig) → Buf (Elt F) ℓ)

/-! ## The point-by-point record at equal point numbers -/

/-- The first epilogue value of the record at two spellings of one point number. -/
theorem pay3_congr (c : Dev nD) (i : S1x1x1.Idx) : ∀ (n n' : ℕ) (hn : n < cfg0.N) (hn' : n' < cfg0.N), n = n' →
    k0_pay3 (outsAt0 m c n hn).2.2.1 i = k0_pay3 (outsAt0 m c n' hn').2.2.1 i := by
  intro n n' hn hn' h; subst h; rfl

/-- The second epilogue value of the record at two spellings of one point number, at two spellings of one entry. -/
theorem pay4_congr (c : Dev nD) : ∀ (n n' : ℕ) (hn : n < cfg0.N) (hn' : n' < cfg0.N) (a a' : Fin 8) (b b' : Fin 19),
    n = n' → a = a' → b = b' →
    k0_pay4 (outsAt0 m c n hn).2.2.2 (ix3 (0 : Fin 1) a b) = k0_pay4 (outsAt0 m c n' hn').2.2.2 (ix3 (0 : Fin 1) a' b') := by
  intro n n' hn hn' a a' b b' h ha hb; subst h; subst ha; subst hb; rfl

/-! ## Output window 2: the per-half sums -/

/-- What the first output's array ends holding: at half k, the epilogue sum at point 16 k + 15. -/
def G2 (c : Dev nD) : S2x1x1.Idx → Elt F .f32 := fun j =>
  k0_pay3 (outsAt0 m c (16 * (j 0).val + 15) (by have h : (j 0).val < 2 := (j 0).isLt; have := N32; omega)).2.2.1
    (ix3 (0 : Fin 1) (0 : Fin 1) (0 : Fin 1))

/-- What a last row tile writes back is its block of `G2`. -/
theorem flushed2_eq (c : Dev nD) (t : Fin cfg0.N) (hf : (cfg0.win 2).flush t = true) :
    (dats m 0 c).flushed 2 t = ((cfg0.win 2).blk t).view.read (Elt F) (G2 m c) := by
  have h15 : t.val % 16 = 15 := ((flush_iff t).1).mp hf
  obtain ⟨-, -, -, -, -, -, -, e0, e1, e2, -⟩ := idx_facts t
  show (cfg0.win 2).cut (grid0.coords t) ((dats m 0 c).after 2 t) = _
  rw [after0_2, out2_last m c t h15]
  funext y
  have hy : y = ix3 (0 : Fin 1) (0 : Fin 1) (0 : Fin 1) := by
    funext a
    match a with
    | ⟨0, _⟩ => exact Fin.ext (by have h : (y 0).val < 1 := (y 0).isLt; show (y 0).val = 0; omega)
    | ⟨1, _⟩ => exact Fin.ext (by have h : (y 1).val < 1 := (y 1).isLt; show (y 1).val = 0; omega)
    | ⟨2, _⟩ => exact Fin.ext (by have h : (y 2).val < 1 := (y 2).isLt; show (y 2).val = 0; omega)
  have h0 : (((cfg0.win 2).blk t).view.emb y (0 : Fin 3)).val = t.val / 16 := by
    show win0_2.index t (0 : Fin 3) * 1 + 1 * (y 0).val = t.val / 16
    have h : (y 0).val < 1 := (y 0).isLt
    omega
  show k0_pay3 (outsAt0 m c t.val t.isLt).2.2.1 y = G2 m c (((cfg0.win 2).blk t).view.emb y)
  unfold G2
  refine (congrArg (k0_pay3 (outsAt0 m c t.val t.isLt).2.2.1) hy).trans ?_
  exact pay3_congr m c _ _ _ _ _ (by rw [h0]; omega)

/-- An index of the array is in point `t`'s block iff each coordinate is in the block's range on its axis. -/
theorem mem_blk2 (t : Fin cfg0.N) (i : S2x1x1.Idx) :
    i ∈ ((cfg0.win 2).blk t).view.set ↔ ∀ a : Fin 3, win0_2.index t a * S1x1x1.size a ≤ (i a).val ∧ (i a).val < win0_2.index t a * S1x1x1.size a + S1x1x1.size a := by
  show i ∈ ((View.whole main_v0_0).slice (win0_2.rect t)).set ↔ _
  rw [View.set_slice_whole, Rect.mem_set_unit]
  exact Iff.rfl

/-- THE FIRST OUTPUT after the run, at half k. -/
theorem final2_apply (c : Dev nD) (k : Fin 2) :
    (dats m 0 c).arrAt 2 cfg0.N (ix3 k (0 : Fin 1) (0 : Fin 1))
      = k0_pay3 (outsAt0 m c (16 * k.val + 15) (by have := N32; omega)).2.2.1 (ix3 (0 : Fin 1) (0 : Fin 1) (0 : Fin 1)) := by
  have hN := N32
  have hk : 16 * k.val + 15 < cfg0.N := by omega
  have h15 : (16 * k.val + 15) % 16 = 15 := by omega
  have hf : (cfg0.win 2).flush ⟨16 * k.val + 15, hk⟩ = true := ((flush_iff ⟨16 * k.val + 15, hk⟩).1).mpr h15
  have hi : (ix3 k (0 : Fin 1) (0 : Fin 1) : S2x1x1.Idx) ∈ ((cfg0.win 2).blk ⟨16 * k.val + 15, hk⟩).view.set := by
    rw [mem_blk2]
    obtain ⟨-, -, -, -, -, -, -, e0, e1, e2, -⟩ := idx_facts ⟨16 * k.val + 15, hk⟩
    have e0' : win0_2.index ⟨16 * k.val + 15, hk⟩ (0 : Fin 3) = (16 * k.val + 15) / 16 := e0
    intro a
    match a with
    | ⟨0, _⟩ =>
      show win0_2.index ⟨16 * k.val + 15, hk⟩ (0 : Fin 3) * 1 ≤ k.val ∧ k.val < win0_2.index ⟨16 * k.val + 15, hk⟩ (0 : Fin 3) * 1 + 1
      omega
    | ⟨1, _⟩ =>
      show win0_2.index ⟨16 * k.val + 15, hk⟩ (1 : Fin 3) * 1 ≤ 0 ∧ 0 < win0_2.index ⟨16 * k.val + 15, hk⟩ (1 : Fin 3) * 1 + 1
      omega
    | ⟨2, _⟩ =>
      show win0_2.index ⟨16 * k.val + 15, hk⟩ (2 : Fin 3) * 1 ≤ 0 ∧ 0 < win0_2.index ⟨16 * k.val + 15, hk⟩ (2 : Fin 3) * 1 + 1
      omega
  exact (dats m 0 c).arrAt_apply_of_mem 2 (G2 m c) (fun t hf => flushed2_eq m c t hf) cfg0.N ⟨16 * k.val + 15, hk⟩ _ hk hf hi

/-! ## Output window 3: the per-half presence table -/

/-- What the second output's array ends holding: at half k, the epilogue indicator at point 16 k + 15. -/
def G3 (c : Dev nD) : S2x8x19.Idx → Elt F .f32 := fun j =>
  k0_pay4 (outsAt0 m c (16 * (j 0).val + 15) (by have h : (j 0).val < 2 := (j 0).isLt; have := N32; omega)).2.2.2
    (ix3 (n0 := 1) (n1 := 8) (n2 := 19) (0 : Fin 1) (j 1) (j 2))

/-- What a last row tile writes back is its block of `G3`. -/
theorem flushed3_eq (c : Dev nD) (t : Fin cfg0.N) (hf : (cfg0.win 3).flush t = true) :
    (dats m 0 c).flushed 3 t = ((cfg0.win 3).blk t).view.read (Elt F) (G3 m c) := by
  have h15 : t.val % 16 = 15 := ((flush_iff t).2).mp hf
  obtain ⟨-, -, -, -, -, -, -, -, -, -, e0, e1, e2⟩ := idx_facts t
  show (cfg0.win 3).cut (grid0.coords t) ((dats m 0 c).after 3 t) = _
  rw [after0_3, out3_last m c t h15]
  funext y
  have hy : y = ix3 (n0 := 1) (n1 := 8) (n2 := 19) (0 : Fin 1) (y 1) (y 2) := by
    funext a
    match a with
    | ⟨0, _⟩ => exact Fin.ext (by have h : (y 0).val < 1 := (y 0).isLt; show (y 0).val = 0; omega)
    | ⟨1, _⟩ => rfl
    | ⟨2, _⟩ => rfl
  have h0 : (((cfg0.win 3).blk t).view.emb y (0 : Fin 3)).val = t.val / 16 := by
    show win0_3.index t (0 : Fin 3) * 1 + 1 * (y 0).val = t.val / 16
    have h : (y 0).val < 1 := (y 0).isLt
    omega
  have h1 : (y 1 : Fin 8) = ((cfg0.win 3).blk t).view.emb y (1 : Fin 3) := Fin.ext (by
    show (y 1).val = win0_3.index t (1 : Fin 3) * 8 + 1 * (y 1).val
    omega)
  have h2 : (y 2 : Fin 19) = ((cfg0.win 3).blk t).view.emb y (2 : Fin 3) := Fin.ext (by
    show (y 2).val = win0_3.index t (2 : Fin 3) * 19 + 1 * (y 2).val
    omega)
  show k0_pay4 (outsAt0 m c t.val t.isLt).2.2.2 y = G3 m c (((cfg0.win 3).blk t).view.emb y)
  unfold G3
  refine (congrArg (k0_pay4 (outsAt0 m c t.val t.isLt).2.2.2) hy).trans ?_
  exact pay4_congr m c _ _ _ _ _ _ _ _ (by rw [h0]; omega) h1 h2

/-- An index of the array is in point `t`'s block iff each coordinate is in the block's range on its axis. -/
theorem mem_blk3 (t : Fin cfg0.N) (i : S2x8x19.Idx) :
    i ∈ ((cfg0.win 3).blk t).view.set ↔ ∀ a : Fin 3, win0_3.index t a * S1x8x19.size a ≤ (i a).val ∧ (i a).val < win0_3.index t a * S1x8x19.size a + S1x8x19.size a := by
  show i ∈ ((View.whole main_v0_1).slice (win0_3.rect t)).set ↔ _
  rw [View.set_slice_whole, Rect.mem_set_unit]
  exact Iff.rfl

/-- THE SECOND OUTPUT after the run, at half k, sample b of the half, class c. -/
theorem final3_apply (c : Dev nD) (k : Fin 2) (b : Fin 8) (cl : Fin 19) :
    (dats m 0 c).arrAt 3 cfg0.N (ix3 k b cl)
      = k0_pay4 (outsAt0 m c (16 * k.val + 15) (by have := N32; omega)).2.2.2 (ix3 (0 : Fin 1) b cl) := by
  have hN := N32
  have hk : 16 * k.val + 15 < cfg0.N := by omega
  have h15 : (16 * k.val + 15) % 16 = 15 := by omega
  have hf : (cfg0.win 3).flush ⟨16 * k.val + 15, hk⟩ = true := ((flush_iff ⟨16 * k.val + 15, hk⟩).2).mpr h15
  have hi : (ix3 k b cl : S2x8x19.Idx) ∈ ((cfg0.win 3).blk ⟨16 * k.val + 15, hk⟩).view.set := by
    rw [mem_blk3]
    obtain ⟨-, -, -, -, -, -, -, -, -, -, e0, e1, e2⟩ := idx_facts ⟨16 * k.val + 15, hk⟩
    have e0' : win0_3.index ⟨16 * k.val + 15, hk⟩ (0 : Fin 3) = (16 * k.val + 15) / 16 := e0
    intro a
    match a with
    | ⟨0, _⟩ =>
      show win0_3.index ⟨16 * k.val + 15, hk⟩ (0 : Fin 3) * 1 ≤ k.val ∧ k.val < win0_3.index ⟨16 * k.val + 15, hk⟩ (0 : Fin 3) * 1 + 1
      omega
    | ⟨1, _⟩ =>
      show win0_3.index ⟨16 * k.val + 15, hk⟩ (1 : Fin 3) * 8 ≤ b.val ∧ b.val < win0_3.index ⟨16 * k.val + 15, hk⟩ (1 : Fin 3) * 8 + 8
      omega
    | ⟨2, _⟩ =>
      show win0_3.index ⟨16 * k.val + 15, hk⟩ (2 : Fin 3) * 19 ≤ cl.val ∧ cl.val < win0_3.index ⟨16 * k.val + 15, hk⟩ (2 : Fin 3) * 19 + 19
      omega
  exact (dats m 0 c).arrAt_apply_of_mem 3 (G3 m c) (fun t hf => flushed3_eq m c t hf) cfg0.N ⟨16 * k.val + 15, hk⟩ _ hk hf hi

end Cert.KernelIdeal.KFinal

end
-- ==== Proof.Spec.lean ====
/-
  Cross entropy with a per-sample label histogram: the two programs' common result, as mathematics.

  For logits x[b, c, h, w] (19 classes), integer labels t[b, h, w] and logits y[b, c] of the presence head:

    pix(b, h, w)   = -((x[b, t[b,h,w], h, w] - M) - log (sum over c of exp (x[b,c,h,w] - M))),   M = max over c of x[b,c,h,w]
    cnt(b, c)      = the number of pixels (h, w) of sample b whose label is c
    pres(b, c)     = 1 if cnt(b, c) > 0, else 0
    loss           = (sum over every pixel of pix) / (16 * 512 * 512)
                     + (sum over (b, c) of softplus(y[b,c]) - pres(b,c) * y[b,c]) / (16 * 19)

  all on the extended reals.  The definitions are generic in the batch and spatial extents, so that the same text
  speaks of a whole array and of one block of it; the class extent is the literal 19.
-/
import Idealize.ShloMosaic.PureOps.Ideal
import Idealize.ShloMosaic.PureOps.Ideal.Laws
import Idealize.ShloMosaic.Lib.ValueIdx
import Mathlib.Algebra.BigOperators.Fin
import Mathlib.Logic.Equiv.Fin.Basic

noncomputable section

open scoped BigOperators

namespace Cert.Spec

open Idealize.ShloMosaic Idealize.ShloMosaic.ValueIdx

/-- Logits [B, 19, H, W]. -/
abbrev SX (B H W : Nat) : Shape := ⟨4, ![B, 19, H, W]⟩
/-- Labels [B, H, W]. -/
abbrev ST (B H W : Nat) : Shape := ⟨3, ![B, H, W]⟩
/-- Per-sample class scores [B, 19]. -/
abbrev SY (B : Nat) : Shape := ⟨2, ![B, 19]⟩

variable {B H W : Nat}

/-- Every label is one of the 19 classes. -/
def InRange (t : (ST B H W).Idx → BitVec 32) : Prop := ∀ i, 0 ≤ (t i).toInt ∧ (t i).toInt < 19

/-- A label word as a class index (the word itself when it is in range). -/
def labOf (v : BitVec 32) : Fin 19 := ⟨v.toNat % 19, Nat.mod_lt _ (by norm_num)⟩

/-- The largest logit of a pixel, as the fold of `max` from -∞ over the 19 classes. -/
def rowMax (x : (SX B H W).Idx → EReal) (b : Fin B) (h : Fin H) (w : Fin W) : EReal :=
  (Finset.univ : Finset (Fin 19)).fold max ⊥ (fun c => x (ix4 b c h w))

/-- The log of the sum of the shifted exponentials of a pixel's logits. -/
def lse (x : (SX B H W).Idx → EReal) (b : Fin B) (h : Fin H) (w : Fin W) : EReal :=
  Ideal.log (∑ c : Fin 19, Ideal.exp (x (ix4 b c h w) - rowMax x b h w))

/-- A pixel's negative log-likelihood of its label. -/
def pix (x : (SX B H W).Idx → EReal) (t : (ST B H W).Idx → BitVec 32) (b : Fin B) (h : Fin H) (w : Fin W) : EReal :=
  -((x (ix4 b (labOf (t (ix3 b h w))) h w) - rowMax x b h w) - lse x b h w)

/-- Whether pixel (h, w) of sample b carries label c, as 1 or 0. -/
def hit (t : (ST B H W).Idx → BitVec 32) (b : Fin B) (c : Fin 19) (h : Fin H) (w : Fin W) : EReal :=
  if (t (ix3 b h w)).toInt = (c.val : Int) then 1 else 0

/-- How many pixels of sample b carry label c. -/
def cnt (t : (ST B H W).Idx → BitVec 32) (b : Fin B) (c : Fin 19) : EReal :=
  ∑ h : Fin H, ∑ w : Fin W, hit t b c h w

/-- Whether label c occurs in sample b, as 1 or 0. -/
def pres (t : (ST B H W).Idx → BitVec 32) (b : Fin B) (c : Fin 19) : EReal :=
  if 0 < cnt t b c then 1 else 0

/-- The f32 zero word's value. -/
abbrev z0 : EReal := Ideal.ofBits .f32 0x00000000#32

/-- softplus, as jax computes it: `logaddexp(y, 0)` with its guard for an unordered difference (which the extended
    reals never meet): max(y, 0) + log1p (exp (-|y - 0|)). -/
def sp (y : EReal) : EReal :=
  Scalar.select (FloatOps.cmpf (F := Ideal) (φ := .f32) .une (y - z0) (y - z0)) (y + z0)
    (max y z0 + Ideal.log1p (Ideal.exp (-(FloatOps.absf (F := Ideal) (φ := .f32) (y - z0)))))

/-- The first summand: the mean over all pixels of the negative log-likelihood (the divisor is the word of 2^22). -/
def loss1 (x : (SX 16 512 512).Idx → EReal) (t : (ST 16 512 512).Idx → BitVec 32) : EReal :=
  Ideal.div (z0 + ∑ i : (ST 16 512 512).Idx, pix x t (i 0) (i 1) (i 2)) (Ideal.ofBits .f32 0x4A800000#32)

/-- The second summand: the mean over (b, c) of the binary cross entropy of y against the presence vector (the divisor
    is the word of 304). -/
def loss2 (t : (ST 16 512 512).Idx → BitVec 32) (y : (SY 16).Idx → EReal) : EReal :=
  Ideal.div (z0 + ∑ i : (SY 16).Idx, (sp (y i) - pres t (i 0) (i 1) * y i)) (Ideal.ofBits .f32 0x43980000#32)

/-- The loss. -/
def loss (x : (SX 16 512 512).Idx → EReal) (t : (ST 16 512 512).Idx → BitVec 32) (y : (SY 16).Idx → EReal) : EReal :=
  loss1 x t + loss2 t y

/-! ## Words -/

theorem ofBits_neginf : Ideal.ofBits .f32 0xFF800000#32 = ⊥ := by simp [Ideal.ofBits, Ideal.ieee]

theorem z0_eq : z0 = 0 := Ideal.ofBits_zero_f32

/-- A label in range, read signed, is its class index. -/
theorem labOf_val {v : BitVec 32} (h0 : 0 ≤ v.toInt) (h1 : v.toInt < 19) : ((labOf v).val : Int) = v.toInt := by
  -- a word whose signed reading is not negative reads the same signed and unsigned
  have hlt : v.toNat < 2 ^ 32 := v.isLt
  have hnat : v.toInt = (v.toNat : Int) := by
    rw [BitVec.toInt_eq_toNat_cond] at h0 ⊢
    split_ifs at h0 ⊢ with hc
    · rfl
    · omega
  have hv : (labOf v).val = v.toNat % 19 := rfl
  rw [hv]
  omega

/-- So the class whose index a label in range equals is its class index. -/
theorem toInt_eq_iff_labOf {v : BitVec 32} (h0 : 0 ≤ v.toInt) (h1 : v.toInt < 19) (c : Fin 19) :
    v.toInt = (c.val : Int) ↔ c = labOf v := by
  have hv := labOf_val h0 h1
  constructor
  · intro h
    apply Fin.ext
    have hc : ((labOf v).val : Int) = (c.val : Int) := by rw [hv, h]
    exact_mod_cast hc.symm
  · intro h
    rw [h]
    exact hv.symm

/-! ## The blocks of a tiling are restrictions -/

/-- The quantities of a pixel read only that pixel's 19 logits: if a block agrees with the array there, so do they. -/
theorem rowMax_congr {B' H' W' : Nat} (x : (SX B H W).Idx → EReal) (x' : (SX B' H' W').Idx → EReal)
    (b : Fin B) (h : Fin H) (w : Fin W) (b' : Fin B') (h' : Fin H') (w' : Fin W')
    (hx : ∀ c : Fin 19, x (ix4 b c h w) = x' (ix4 b' c h' w')) : rowMax x b h w = rowMax x' b' h' w' := by
  unfold rowMax; congr 1; funext c; exact hx c

theorem lse_congr {B' H' W' : Nat} (x : (SX B H W).Idx → EReal) (x' : (SX B' H' W').Idx → EReal)
    (b : Fin B) (h : Fin H) (w : Fin W) (b' : Fin B') (h' : Fin H') (w' : Fin W')
    (hx : ∀ c : Fin 19, x (ix4 b c h w) = x' (ix4 b' c h' w')) : lse x b h w = lse x' b' h' w' := by
  unfold lse; rw [rowMax_congr x x' b h w b' h' w' hx]; congr 1
  exact Finset.sum_congr rfl fun c _ => by rw [hx c]

theorem pix_congr {B' H' W' : Nat} (x : (SX B H W).Idx → EReal) (x' : (SX B' H' W').Idx → EReal)
    (t : (ST B H W).Idx → BitVec 32) (t' : (ST B' H' W').Idx → BitVec 32)
    (b : Fin B) (h : Fin H) (w : Fin W) (b' : Fin B') (h' : Fin H') (w' : Fin W')
    (hx : ∀ c : Fin 19, x (ix4 b c h w) = x' (ix4 b' c h' w')) (ht : t (ix3 b h w) = t' (ix3 b' h' w')) :
    pix x t b h w = pix x' t' b' h' w' := by
  unfold pix; rw [rowMax_congr x x' b h w b' h' w' hx, lse_congr x x' b h w b' h' w' hx, ht, hx]

theorem hit_congr {B' H' W' : Nat} (t : (ST B H W).Idx → BitVec 32) (t' : (ST B' H' W').Idx → BitVec 32)
    (b : Fin B) (h : Fin H) (w : Fin W) (b' : Fin B') (h' : Fin H') (w' : Fin W') (c : Fin 19)
    (ht : t (ix3 b h w) = t' (ix3 b' h' w')) : hit t b c h w = hit t' b' c h' w' := by
  unfold hit; rw [ht]

/-! ## Sums over index sets, by coordinates, and over the tiles of the grid -/

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- Row 32 * s + r of 512, as the pair (s, r): quotient and remainder by 32. -/
def rowsEquiv : Fin 16 × Fin 32 ≃ Fin 512 where
  toFun p := ⟨32 * p.1.val + p.2.val, by omega⟩
  invFun h := (⟨h.val / 32, by omega⟩, ⟨h.val % 32, by omega⟩)
  left_inv p := by
    rcases p with ⟨s, r⟩
    apply Prod.ext <;> apply Fin.ext <;> simp only <;> omega
  right_inv h := by apply Fin.ext; simp only; omega

/-- Sample 8 * k + b of 16, as the pair (k, b): quotient and remainder by 8. -/
def halvesEquiv : Fin 2 × Fin 8 ≃ Fin 16 where
  toFun p := ⟨8 * p.1.val + p.2.val, by omega⟩
  invFun n := (⟨n.val / 8, by omega⟩, ⟨n.val % 8, by omega⟩)
  left_inv p := by
    rcases p with ⟨k, b⟩
    apply Prod.ext <;> apply Fin.ext <;> simp only <;> omega
  right_inv n := by apply Fin.ext; simp only; omega

/-- A sum over a rank-3 index set is the iterated sum over its coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The 512 rows are the 16 row tiles of 32 rows: row 32 * s + r is row r of tile s. -/
theorem sum_rows {M : Type*} [AddCommMonoid M] (g : Fin 512 → M) :
    ∑ s : Fin 16, ∑ r : Fin 32, g ⟨32 * s.val + r.val, by omega⟩ = ∑ h : Fin 512, g h := by
  -- the double sum is the sum over the pairs (s, r), and the pairs are the rows
  exact (Fintype.sum_prod_type (fun p : Fin 16 × Fin 32 => g (rowsEquiv p))).symm.trans
    (Equiv.sum_comp rowsEquiv g)

/-- The 16 samples are the 2 halves of 8 samples: sample 8 * k + b is sample b of half k. -/
theorem sum_halves {M : Type*} [AddCommMonoid M] (g : Fin 16 → M) :
    ∑ k : Fin 2, ∑ b : Fin 8, g ⟨8 * k.val + b.val, by omega⟩ = ∑ n : Fin 16, g n := by
  exact (Fintype.sum_prod_type (fun p : Fin 2 × Fin 8 => g (halvesEquiv p))).symm.trans
    (Equiv.sum_comp halvesEquiv g)

/-- THE PIXELS, TILE BY TILE: summing, over the two halves of the batch, over the (sample, row) positions of a
    tile and over the 16 row tiles, the row sums of a function of the pixels, is summing it over every pixel. -/
theorem sum_tiles {M : Type*} [AddCommMonoid M] (f : Fin 16 → Fin 512 → Fin 512 → M) :
    ∑ k : Fin 2, ∑ b : Fin 8, ∑ r : Fin 32, ∑ s : Fin 16, ∑ w : Fin 512,
        f ⟨8 * k.val + b.val, by omega⟩ ⟨32 * s.val + r.val, by omega⟩ w
      = ∑ i : (ST 16 512 512).Idx, f (i 0) (i 1) (i 2) := by
  -- the right side by coordinates, the samples by halves, then in each (half, sample) the rows by tiles
  rw [sum_idx3 (fun i : (ST 16 512 512).Idx => f (i 0) (i 1) (i 2))]
  show _ = ∑ a : Fin 16, ∑ h : Fin 512, ∑ w : Fin 512, f a h w
  rw [← sum_halves (fun n => ∑ h : Fin 512, ∑ w : Fin 512, f n h w)]
  refine Finset.sum_congr rfl fun k _ => Finset.sum_congr rfl fun b _ => ?_
  rw [Finset.sum_comm]
  exact sum_rows (fun h => ∑ w : Fin 512, f ⟨8 * k.val + b.val, by omega⟩ h w)

end Cert.Spec

end
-- ==== Proof.KPayload.lean ====
/-
  The kernel body's pure values of one block, read at an index over the extended reals: the one-hot of the block's
  labels and the per-pixel negative log-likelihood, for labels in range.
-/
import proofs.«422559_j52725018526410_3_alg».proof.Proof.Gen.KernelIdeal.Skeleton
import proofs.«422559_j52725018526410_3_alg».proof.Proof.Spec
import Idealize.ShloMosaic.Lib.Pipeline.Value
import Idealize.ShloMosaic.Lib.ValueLayout
import Idealize.ShloMosaic.PureOps.Ideal.Laws

noncomputable section

open scoped BigOperators

namespace Cert.KernelIdeal.KPayload

open Idealize.ShloMosaic Idealize.ShloMosaic.ValueIdx Cert.KernelIdeal Cert.KernelIdeal.Gen Cert.Spec

/-! ## Words -/

/-- The signed clip to 0 … 18 leaves a word in that range alone. -/
theorem clip_id (v : BitVec 32) (h0 : 0 ≤ v.toInt) (h1 : v.toInt < 19) :
    IntOp.minsi 18#32 (IntOp.maxsi 0#32 v) = v := by
  have e0 : (0#32 : BitVec 32).toInt = 0 := by decide
  have e18 : (18#32 : BitVec 32).toInt = 18 := by decide
  have hm : IntOp.maxsi 0#32 v = v := by
    unfold IntOp.maxsi
    refine if_neg ?_
    simp only [BitVec.slt, e0, decide_eq_true_eq, not_lt]
    exact h0
  rw [hm]
  unfold IntOp.minsi
  refine if_neg ?_
  simp only [BitVec.slt, e18, decide_eq_true_eq, not_lt]
  omega

/-- The set bit, widened and converted, is 1. -/
theorem one_word : FloatOps.sitofp (F := Ideal) .f32 ((1#1 : BitVec 1).setWidth 32) = (1 : EReal) := by
  show ((((1#1 : BitVec 1).setWidth 32).toInt : ℝ) : EReal) = 1
  have e : ((1#1 : BitVec 1).setWidth 32).toInt = 1 := by decide
  rw [e]; simp

/-- The clear bit, widened and converted, is 0. -/
theorem zero_word : FloatOps.sitofp (F := Ideal) .f32 ((0#1 : BitVec 1).setWidth 32) = (0 : EReal) := by
  show ((((0#1 : BitVec 1).setWidth 32).toInt : ℝ) : EReal) = 0
  have e : ((0#1 : BitVec 1).setWidth 32).toInt = 0 := by decide
  rw [e]; simp

/-- A class index below 19, as a 32-bit word read signed, is itself. -/
theorem toInt_class : ∀ c : Fin 19, (BitVec.ofNat 32 c.val).toInt = (c.val : Int) := by decide

/-- The comparison of the class index's word with a word, widened and converted, is 1 where the word read signed is the
    class index and 0 elsewhere. -/
theorem onehot_word (c : Fin 19) (v : BitVec 32) :
    FloatOps.sitofp (F := Ideal) .f32 ((IntOp.cmpi .eq (BitVec.ofNat 32 c.val) v).setWidth 32)
      = if v.toInt = (c.val : Int) then (1 : EReal) else 0 := by
  by_cases hv : v = BitVec.ofNat 32 c.val
  · subst hv
    rw [if_pos (toInt_class c)]
    have e : IntOp.cmpi .eq (BitVec.ofNat 32 c.val) (BitVec.ofNat 32 c.val) = 1#1 := by simp [IntOp.cmpi]
    rw [e]; exact one_word
  · have hne : ¬ v.toInt = (c.val : Int) := fun h => hv (BitVec.eq_of_toInt_eq (h.trans (toInt_class c).symm))
    rw [if_neg hne]
    have e : IntOp.cmpi .eq (BitVec.ofNat 32 c.val) v = 0#1 := by
      have : (BitVec.ofNat 32 c.val == v) = false := by simpa using fun h => hv h.symm
      simp [IntOp.cmpi, this]
    rw [e]; exact zero_word

/-! ## The block's layout operations at an index -/

/-- A block of labels (or of per-pixel values) viewed with a unit class axis reads the same pixel. -/
theorem addUnit_apply {α : Type} (v : S8x32x512.Idx → α) (h : S8x32x512.ShapeCasts S8x1x32x512)
    (b : Fin 8) (u : Fin 1) (r : Fin 32) (w : Fin 512) :
    shapeCast S8x1x32x512 v h (ix4 b u r w) = v (ix3 b r w) :=
  shapeCast_apply v h _ _ (by
    have hu : u.val = 0 := by have := u.isLt; omega
    rw [Shape.rowMajor_val_four, Shape.rowMajor_val_three]
    show (b.val * 32 + r.val) * 512 + w.val = ((b.val * 1 + u.val) * 32 + r.val) * 512 + w.val
    rw [hu]; omega)

/-- … and the unit class axis dropped again reads class coordinate 0. -/
theorem dropUnit_apply {α : Type} (v : S8x1x32x512.Idx → α) (h : S8x1x32x512.ShapeCasts S8x32x512)
    (b : Fin 8) (r : Fin 32) (w : Fin 512) :
    shapeCast S8x32x512 v h (ix3 b r w) = v (ix4 b (0 : Fin 1) r w) :=
  shapeCast_apply v h _ _ (by
    rw [Shape.rowMajor_val_four, Shape.rowMajor_val_three]
    show ((b.val * 1 + 0) * 32 + r.val) * 512 + w.val = (b.val * 32 + r.val) * 512 + w.val
    omega)

/-- A value with a unit class axis, broadcast over the 19 classes, reads the same pixel at every class. -/
theorem bcast_apply {α : Type} (v : S8x1x32x512.Idx → α) (h : S8x1x32x512.Broadcasts S8x19x32x512)
    (b : Fin 8) (c : Fin 19) (r : Fin 32) (w : Fin 512) :
    broadcastTo S8x19x32x512 v h (ix4 b c r w) = v (ix4 b (0 : Fin 1) r w) :=
  broadcastTo_apply v h _ _ (fun a => by
    match a with
    | ⟨0, _⟩ => rfl
    | ⟨1, _⟩ => rfl
    | ⟨2, _⟩ => rfl
    | ⟨3, _⟩ => rfl)

/-- The two together: a per-pixel value spread over the classes. -/
theorem spread_apply {α : Type} (v : S8x32x512.Idx → α) (h : S8x32x512.ShapeCasts S8x1x32x512)
    (h' : S8x1x32x512.Broadcasts S8x19x32x512) (b : Fin 8) (c : Fin 19) (r : Fin 32) (w : Fin 512) :
    broadcastTo S8x19x32x512 (shapeCast S8x1x32x512 v h) h' (ix4 b c r w) = v (ix3 b r w) :=
  (bcast_apply _ h' b c r w).trans (addUnit_apply v h b 0 r w)

/-- The exponential and the logarithm at an index are the elements'. -/
theorem exp_apply {s : Shape} {φ : FTy} (a : FVec Ideal s φ) (i : s.Idx) : exp a i = Ideal.exp (a i) := rfl
theorem log_apply {s : Shape} {φ : FTy} (a : FVec Ideal s φ) (i : s.Idx) : log a i = Ideal.log (a i) := rfl

/-! ## The clip, the validity factor, the one-hot -/

/-- The clipped labels are the labels, in range. -/
theorem pay7_apply (x1 : Vec Ideal S8x32x512 .i32) (hr : InRange (B := 8) (H := 32) (W := 512) x1) (i : S8x32x512.Idx) :
    k0_pay7 (F := Ideal) x1 i = x1 i := by
  unfold k0_pay7
  exact clip_id (x1 i) (hr i).1 (hr i).2

/-- The validity factor is 1, in range. -/
theorem pay8_apply (x1 : Vec Ideal S8x32x512 .i32) (hr : InRange (B := 8) (H := 32) (W := 512) x1) (i : S8x32x512.Idx) :
    k0_pay8 (F := Ideal) x1 i = 1 := by
  unfold k0_pay8
  show FloatOps.sitofp (F := Ideal) .f32 ((IntOp.cmpi .eq (x1 i) (k0_pay7 (F := Ideal) x1 i)).setWidth 32) = 1
  rw [pay7_apply x1 hr i]
  have e : IntOp.cmpi .eq (x1 i) (x1 i) = 1#1 := by simp [IntOp.cmpi]
  rw [e]; exact one_word

/-- The block's one-hot of its labels (times the validity factor, which is 1 in range). -/
theorem pay9_apply (x1 : Vec Ideal S8x32x512 .i32) (hr : InRange (B := 8) (H := 32) (W := 512) x1)
    (b : Fin 8) (c : Fin 19) (r : Fin 32) (w : Fin 512) :
    k0_pay9 (F := Ideal) x1 (ix4 b c r w) = hit (B := 8) (H := 32) (W := 512) x1 b c r w := by
  unfold k0_pay9
  dsimp only
  rw [mulf_apply, spread_apply, pay8_apply x1 hr, mul_one, sitofp_apply, extui_apply]
  show FloatOps.sitofp (F := Ideal) .f32 ((IntOp.cmpi .eq (iota .tc S8x19x32x512 32 [1] _ (ix4 b c r w))
    (broadcastTo S8x19x32x512 (shapeCast S8x1x32x512 (k0_pay7 (F := Ideal) x1) _) _ (ix4 b c r w))).setWidth 32) = _
  rw [iota_single_apply, spread_apply, pay7_apply x1 hr]
  exact onehot_word c (x1 (ix3 b r w))

/-! ## The reductions over the class axis -/

/-- The index a reduction over the class axis reads at class `c` over pixel (b, r, w) is (b, c, r, w). -/
theorem lift_eq (h : S8x19x32x512.Reduces [1] S8x32x512) (b : Fin 8) (r : Fin 32) (w : Fin 512) (c : Fin 19) :
    h.lift (ix3 b r w) c = ix4 b c r w := by
  funext a
  match a with
  | ⟨0, _⟩ => exact Fin.ext rfl
  | ⟨1, _⟩ => exact Fin.ext rfl
  | ⟨2, _⟩ => exact Fin.ext rfl
  | ⟨3, _⟩ => exact Fin.ext rfl

/-- The maximum over the class axis is the pixel's largest logit. -/
theorem max_apply (x0 : FVec Ideal S8x19x32x512 .f32) (h : S8x19x32x512.Reduces [1] S8x32x512)
    (b : Fin 8) (r : Fin 32) (w : Fin 512) :
    multiReduction (F := Ideal) .maximumf [1] S8x32x512 x0 0xFF800000#32 h (.inl rfl) rfl (ix3 b r w)
      = rowMax (B := 8) (H := 32) (W := 512) x0 b r w := by
  refine (Ideal.multiReduction_maximumf_single (φ := .f32) x0 _ h (.inl rfl) rfl (ix3 b r w)).trans ?_
  unfold rowMax
  show (Finset.univ : Finset (Fin 19)).fold max (Ideal.ofBits .f32 0xFF800000#32) (fun c : Fin 19 => x0 (h.lift (ix3 b r w) c)) = _
  rw [ofBits_neginf]
  congr 1
  funext c
  rw [lift_eq]

/-- The sum over the class axis is the sum over the 19 classes. -/
theorem sum_apply (v : FVec Ideal S8x19x32x512 .f32) (h : S8x19x32x512.Reduces [1] S8x32x512)
    (b : Fin 8) (r : Fin 32) (w : Fin 512) :
    multiReduction (F := Ideal) .add [1] S8x32x512 v 0x00000000#32 h (.inl rfl) rfl (ix3 b r w)
      = ∑ c : Fin 19, v (ix4 b c r w) := by
  refine (Ideal.multiReduction_add_single (φ := .f32) v _ h (.inl rfl) rfl (ix3 b r w)).trans ?_
  show ∑ c : Fin 19, v (h.lift (ix3 b r w) c) = _
  exact Finset.sum_congr rfl fun c _ => by rw [lift_eq]

/-- The one-hot product summed over the classes picks the label's logit. -/
theorem pick_label (x0 : FVec Ideal S8x19x32x512 .f32) (x1 : Vec Ideal S8x32x512 .i32)
    (hr : InRange (B := 8) (H := 32) (W := 512) x1) (b : Fin 8) (r : Fin 32) (w : Fin 512) :
    ∑ c : Fin 19, hit (B := 8) (H := 32) (W := 512) x1 b c r w * x0 (ix4 b c r w)
      = x0 (ix4 b (labOf (x1 (ix3 b r w))) r w) := by
  have hh : ∀ c : Fin 19, hit (B := 8) (H := 32) (W := 512) x1 b c r w = if c = labOf (x1 (ix3 b r w)) then 1 else 0 := by
    intro c
    unfold hit
    by_cases hc : c = labOf (x1 (ix3 b r w))
    · rw [if_pos hc, if_pos ((toInt_eq_iff_labOf (hr _).1 (hr _).2 c).2 hc)]
    · rw [if_neg hc, if_neg (fun e => hc ((toInt_eq_iff_labOf (hr _).1 (hr _).2 c).1 e))]
  rw [Finset.sum_eq_single (labOf (x1 (ix3 b r w)))]
  · rw [hh, if_pos rfl, one_mul]
  · intro c _ hc
    rw [hh, if_neg hc, zero_mul]
  · intro hn
    exact absurd (Finset.mem_univ _) hn

/-! ## The per-pixel value -/

/-- The block's per-pixel value is the pixel's negative log-likelihood of its label, when the block's labels are in
    range: the clip leaves them alone, the validity factor is 1, and the one-hot product picks the label's logit. -/
theorem pay10_apply (x0 : Vec Ideal S8x19x32x512 .f32) (x1 : Vec Ideal S8x32x512 .i32)
    (hr : InRange (B := 8) (H := 32) (W := 512) x1) (b : Fin 8) (r : Fin 32) (w : Fin 512) :
    k0_pay10 (F := Ideal) x0 x1 (ix3 b r w) = pix (B := 8) (H := 32) (W := 512) x0 x1 b r w := by
  unfold k0_pay10
  dsimp only
  rw [mulf_apply, pay8_apply x1 hr, mul_one, subf_apply, subf_apply, subf_apply, broadcast_apply,
    sum_apply, dropUnit_apply, addUnit_apply, max_apply, dropUnit_apply, log_apply, addUnit_apply, sum_apply]
  simp only [mulf_apply, exp_apply, subf_apply, spread_apply, max_apply, pay9_apply x1 hr]
  rw [max_apply, pick_label x0 x1 hr]
  unfold pix lse
  show Ideal.ofBits .f32 0x00000000#32 - _ = _
  rw [Ideal.ofBits_zero_f32, zero_sub]

end Cert.KernelIdeal.KPayload

end
-- ==== Proof.KPaySums.lean ====
/-
  The kernel body's small pure values, read at an index over the extended reals: the two accumulator updates, the two
  epilogue values and the accumulators' reset values.
-/
import proofs.«422559_j52725018526410_3_alg».proof.Proof.Gen.KernelIdeal.Skeleton
import proofs.«422559_j52725018526410_3_alg».proof.Proof.Spec
import Idealize.ShloMosaic.Lib.Pipeline.Value
import Idealize.ShloMosaic.Lib.ValueLayout
import Idealize.ShloMosaic.PureOps.Ideal.Laws

noncomputable section

open scoped BigOperators

namespace Cert.KernelIdeal.KPaySums

open Idealize.ShloMosaic Idealize.ShloMosaic.ValueIdx Cert.KernelIdeal Cert.KernelIdeal.Gen Cert.Spec

/-- The first accumulator's update: what it held plus the row sums of the per-pixel values. -/
theorem pay1_apply (v37 : FVec Ideal S8x32x512 .f32) (v38 : Vec Ideal S8x32 .f32) (b : Fin 8) (r : Fin 32) :
    k0_pay1 (F := Ideal) v37 v38 (ix2 b r) = v38 (ix2 b r) + ∑ w : Fin 512, v37 (ix3 b r w) := by
  unfold k0_pay1
  rw [shapeCast_self]
  rw [addf_apply]
  rw [Ideal.multiReduction_add_single (φ := .f32) v37 0x00000000#32 Facts₀.reduces_S8x32x512_S8x32 (.inl rfl) rfl (ix2 b r)]
  congr 1
  refine Finset.sum_congr rfl fun w _ => ?_
  congr 1
  funext a
  match a with
  | ⟨0, _⟩ => exact Fin.ext rfl
  | ⟨1, _⟩ => exact Fin.ext rfl
  | ⟨2, _⟩ => exact Fin.ext rfl

/-- The second accumulator's update: what it held plus the sums over a tile's pixels of the one-hot. -/
theorem pay2_apply (v28 : FVec Ideal S8x19x32x512 .f32) (v46 : Vec Ideal S8x19 .f32) (b : Fin 8) (c : Fin 19) :
    k0_pay2 (F := Ideal) v28 v46 (ix2 b c) = v46 (ix2 b c) + ∑ r : Fin 32, ∑ w : Fin 512, v28 (ix4 b c r w) := by
  unfold k0_pay2
  rw [shapeCast_self]
  rw [addf_apply]
  rw [Ideal.multiReduction_add_single (φ := .f32) _ 0x00000000#32 Facts₀.reduces_S8x19x32_S8x19 (.inl rfl) rfl (ix2 b c)]
  congr 1
  refine Finset.sum_congr rfl fun r _ => ?_
  rw [Ideal.multiReduction_add_single (φ := .f32) v28 0x00000000#32 Facts₀.reduces_S8x19x32x512_S8x19x32 (.inl rfl) rfl _]
  refine Finset.sum_congr rfl fun w _ => ?_
  congr 1
  funext a
  match a with
  | ⟨0, _⟩ => exact Fin.ext rfl
  | ⟨1, _⟩ => exact Fin.ext rfl
  | ⟨2, _⟩ => exact Fin.ext rfl
  | ⟨3, _⟩ => exact Fin.ext rfl

/-- The first epilogue value: the sum of the whole first accumulator. -/
theorem pay3_apply (v54 : Vec Ideal S8x32 .f32) (j : S1x1x1.Idx) :
    k0_pay3 (F := Ideal) v54 j = ∑ b : Fin 8, ∑ r : Fin 32, v54 (ix2 b r) := by
  unfold k0_pay3
  rw [broadcast_apply]
  unfold extractAt
  rw [shapeCast_apply _ Facts₀.shapeCasts_S1_S1x1x1 _ (ix1 (0 : Fin 1)) (by rfl)]
  rw [Ideal.multiReduction_add_total (φ := .f32) _ 0x00000000#32 Facts₀.reduces_S1x8x32_S1
    (by intro a; match a with | ⟨0, _⟩ => rfl) (.inl rfl) rfl (ix1 (0 : Fin 1))]
  rw [Cert.Spec.sum_idx3, Fin.sum_univ_one]
  refine Finset.sum_congr rfl fun b _ => Finset.sum_congr rfl fun r _ => ?_
  refine (shapeCast_addUnit_apply ![8, 32] v54 _ (ix3 (0 : Fin 1) b r)).trans ?_
  congr 1
  funext a
  match a with
  | ⟨0, _⟩ => rfl
  | ⟨1, _⟩ => rfl

/-- The second epilogue value: 1 where the second accumulator is positive, else 0. -/
theorem pay4_apply (v61 : Vec Ideal S8x19 .f32) (b : Fin 8) (c : Fin 19) :
    k0_pay4 (F := Ideal) v61 (ix3 (0 : Fin 1) b c) = if 0 < v61 (ix2 b c) then 1 else 0 := by
  unfold k0_pay4
  refine (shapeCast_addUnit_apply ![8, 19] _ _ (ix3 (0 : Fin 1) b c)).trans ?_
  have hj : (fun a : Fin 2 => (ix3 (0 : Fin 1) b c) a.succ) = ix2 b c := by
    funext a
    match a with
    | ⟨0, _⟩ => rfl
    | ⟨1, _⟩ => rfl
  rw [hj, sitofp_apply, extui_apply, cmpf_apply, broadcast_apply]
  show ((((Ideal.cmp .ogt (v61 (ix2 b c)) (Ideal.ofBits .f32 0x00000000#32)).setWidth 32).toInt : ℝ) : EReal) = _
  rw [Ideal.ofBits_zero_f32]
  by_cases hv : 0 < v61 (ix2 b c)
  · have e : Ideal.cmp .ogt (v61 (ix2 b c)) 0 = 1#1 := by simp [Ideal.cmp, hv]
    rw [e, if_pos hv, show ((1#1 : BitVec 1).setWidth 32).toInt = 1 from by decide]
    simp
  · have e : Ideal.cmp .ogt (v61 (ix2 b c)) 0 = 0#1 := by simp [Ideal.cmp, hv]
    rw [e, if_neg hv, show ((0#1 : BitVec 1).setWidth 32).toInt = 0 from by decide]
    simp

/-- The accumulators' reset values are the zero word's. -/
theorem pay5_apply (i : S8x32.Idx) : k0_pay5 (F := Ideal) i = z0 := by
  unfold k0_pay5
  rw [shapeCast_self]
  rfl

theorem pay6_apply (i : S8x19.Idx) : k0_pay6 (F := Ideal) i = z0 := by
  unfold k0_pay6
  rw [shapeCast_self]
  rfl

end Cert.KernelIdeal.KPaySums

end
-- ==== Proof.KSums.lean ====
/-
  The accumulators at the last row tile of batch half k, in closed form over the extended reals: entry (b, r) of the
  nll accumulator is zero plus, over the 16 row tiles s, the sum over a row's 512 pixels of the pixel's negative
  log-likelihood at sample 8k + b, row 32 s + r; entry (b, c) of the histogram accumulator is zero plus, over the row
  tiles, the number of the tile's pixels of sample 8k + b labelled c.
-/
import proofs.«422559_j52725018526410_3_alg».proof.Proof.KAcc
import proofs.«422559_j52725018526410_3_alg».proof.Proof.KPayload
import proofs.«422559_j52725018526410_3_alg».proof.Proof.KPaySums
import proofs.«422559_j52725018526410_3_alg».proof.Proof.Spec
import Idealize.ShloMosaic.Lib.Pipeline.Value

set_option maxRecDepth 16384

noncomputable section

open scoped BigOperators

namespace Cert.KernelIdeal.KSums

open Idealize.ShloMosaic Idealize.ShloMosaic.TcCoe Idealize.ShloMosaic.ValueIdx Idealize.SL.Sem
open Cert.KernelIdeal Cert.KernelIdeal.Gen Cert.KernelIdeal.KBlocks Cert.KernelIdeal.KAcc Cert.Spec

/-! ## The two folds, over any per-point addends -/

/-- A quantity that at the first point of each run of 16 is the first accumulator's update of zeros, and at every other
    point its update of what the point before left, is at the run's last point zero plus the 16 points' row sums. -/
theorem nll_fold {N : Nat} (X : (n : Nat) → n < N → FVec Ideal S8x32x512 .f32)
    (f : (n : Nat) → n < N → FVec Ideal S8x32 .f32)
    (h0 : ∀ (n : Nat) (h : n < N), n % 16 = 0 → f n h = k0_pay1 (F := Ideal) (X n h) (k0_pay5 (F := Ideal)))
    (hs : ∀ (n : Nat) (h : n + 1 < N), ¬(n + 1) % 16 = 0 →
      f (n + 1) h = k0_pay1 (F := Ideal) (X (n + 1) h) (f n (Nat.lt_of_succ_lt h)))
    (k : Nat) (hk : 16 * k + 15 < N) (b : Fin 8) (r : Fin 32) :
    f (16 * k + 15) hk (ix2 b r)
      = z0 + ∑ s : Fin 16, ∑ w : Fin 512, X (16 * k + s.val) (by have := s.isLt; omega) (ix3 b r w) := by
  rw [Pipeline.eq_accAt f 16 (fun n h => k0_pay1 (F := Ideal) (X n h) (k0_pay5 (F := Ideal)))
    (fun n h prev => k0_pay1 (F := Ideal) (X n h) prev) h0 hs k 15 (by norm_num) hk]
  rw [Pipeline.accAt_add_apply (ι := S8x32.Idx) (β := EReal)
    (fun n h => k0_pay1 (F := Ideal) (X n h) (k0_pay5 (F := Ideal)))
    (fun n h prev => k0_pay1 (F := Ideal) (X n h) prev) (fun _ => z0)
    (fun n i => if h : n < N then ∑ w : Fin 512, X n h (ix3 (i 0) (i 1) w) else 0) (16 * k) 15
    (fun h i => by
      obtain ⟨p, q, rfl⟩ : ∃ (p : Fin 8) (q : Fin 32), i = ix2 p q := ⟨i 0, i 1, eq_ix2 i⟩
      rw [dif_pos h]
      exact (KPaySums.pay1_apply _ _ p q).trans (by rw [KPaySums.pay5_apply]))
    (fun n h acc i _ _ => by
      obtain ⟨p, q, rfl⟩ : ∃ (p : Fin 8) (q : Fin 32), i = ix2 p q := ⟨i 0, i 1, eq_ix2 i⟩
      rw [dif_pos h]
      exact KPaySums.pay1_apply _ _ p q)
    15 (Nat.le_refl 15) hk (ix2 b r)]
  rw [Finset.sum_range (fun s => if h : 16 * k + s < N then ∑ w : Fin 512, X (16 * k + s) h (ix3 b r w) else 0)]
  refine congrArg (fun y => z0 + y) (Finset.sum_congr rfl fun s _ => ?_)
  rw [dif_pos (by have := s.isLt; omega)]

/-- The same for the second accumulator: zero plus the 16 points' sums over a tile's pixels. -/
theorem cnt_fold {N : Nat} (X : (n : Nat) → n < N → FVec Ideal S8x19x32x512 .f32)
    (f : (n : Nat) → n < N → FVec Ideal S8x19 .f32)
    (h0 : ∀ (n : Nat) (h : n < N), n % 16 = 0 → f n h = k0_pay2 (F := Ideal) (X n h) (k0_pay6 (F := Ideal)))
    (hs : ∀ (n : Nat) (h : n + 1 < N), ¬(n + 1) % 16 = 0 →
      f (n + 1) h = k0_pay2 (F := Ideal) (X (n + 1) h) (f n (Nat.lt_of_succ_lt h)))
    (k : Nat) (hk : 16 * k + 15 < N) (b : Fin 8) (cl : Fin 19) :
    f (16 * k + 15) hk (ix2 b cl)
      = z0 + ∑ s : Fin 16, ∑ r : Fin 32, ∑ w : Fin 512, X (16 * k + s.val) (by have := s.isLt; omega) (ix4 b cl r w) := by
  rw [Pipeline.eq_accAt f 16 (fun n h => k0_pay2 (F := Ideal) (X n h) (k0_pay6 (F := Ideal)))
    (fun n h prev => k0_pay2 (F := Ideal) (X n h) prev) h0 hs k 15 (by norm_num) hk]
  rw [Pipeline.accAt_add_apply (ι := S8x19.Idx) (β := EReal)
    (fun n h => k0_pay2 (F := Ideal) (X n h) (k0_pay6 (F := Ideal)))
    (fun n h prev => k0_pay2 (F := Ideal) (X n h) prev) (fun _ => z0)
    (fun n i => if h : n < N then ∑ r : Fin 32, ∑ w : Fin 512, X n h (ix4 (i 0) (i 1) r w) else 0) (16 * k) 15
    (fun h i => by
      obtain ⟨p, q, rfl⟩ : ∃ (p : Fin 8) (q : Fin 19), i = ix2 p q := ⟨i 0, i 1, eq_ix2 i⟩
      rw [dif_pos h]
      exact (KPaySums.pay2_apply _ _ p q).trans (by rw [KPaySums.pay6_apply]))
    (fun n h acc i _ _ => by
      obtain ⟨p, q, rfl⟩ : ∃ (p : Fin 8) (q : Fin 19), i = ix2 p q := ⟨i 0, i 1, eq_ix2 i⟩
      rw [dif_pos h]
      exact KPaySums.pay2_apply _ _ p q)
    15 (Nat.le_refl 15) hk (ix2 b cl)]
  rw [Finset.sum_range (fun s => if h : 16 * k + s < N then ∑ r : Fin 32, ∑ w : Fin 512, X (16 * k + s) h (ix4 b cl r w) else 0)]
  refine congrArg (fun y => z0 + y) (Finset.sum_congr rfl fun s _ => ?_)
  rw [dif_pos (by have := s.isLt; omega)]

/-! ## The blocks of row tile s of batch half k -/

variable (m : (ℓ : Loc nD τ sig) → Buf (Elt Ideal) ℓ)

/-- A block of labels in range is in range. -/
theorem tblk_inRange (c : Dev nD) (hr : InRange (B := 16) (H := 512) (W := 512) (tarr m c)) (t : Fin cfg0.N) :
    InRange (B := 8) (H := 32) (W := 512) (tblk m c t) := by
  intro i
  obtain ⟨p, q, u, rfl⟩ : ∃ (p : Fin 8) (q : Fin 32) (u : Fin 512), i = ix3 p q u := ⟨i 0, i 1, i 2, eq_ix3 i⟩
  rw [tblk_apply]
  exact hr _

/-- The logits' block at point 16 k + s reads sample 8 k + b, row 32 s + r. -/
theorem xblk_at (c : Dev nD) (k : Fin 2) (s : Fin 16) (h : 16 * k.val + s.val < cfg0.N)
    (b : Fin 8) (cl : Fin 19) (r : Fin 32) (w : Fin 512) :
    xblk m c ⟨16 * k.val + s.val, h⟩ (ix4 b cl r w)
      = xarr m c (ix4 (⟨8 * k.val + b.val, by omega⟩ : Fin 16) cl (⟨32 * s.val + r.val, by omega⟩ : Fin 512) w) := by
  refine (xblk_apply m c ⟨16 * k.val + s.val, h⟩ b cl r w).trans (congrArg (xarr m c) ?_)
  funext a
  match a with
  | ⟨0, _⟩ => exact Fin.ext (by show 8 * ((16 * k.val + s.val) / 16) + b.val = 8 * k.val + b.val; omega)
  | ⟨1, _⟩ => rfl
  | ⟨2, _⟩ => exact Fin.ext (by show 32 * ((16 * k.val + s.val) % 16) + r.val = 32 * s.val + r.val; omega)
  | ⟨3, _⟩ => rfl

/-- The labels' block at point 16 k + s reads sample 8 k + b, row 32 s + r. -/
theorem tblk_at (c : Dev nD) (k : Fin 2) (s : Fin 16) (h : 16 * k.val + s.val < cfg0.N)
    (b : Fin 8) (r : Fin 32) (w : Fin 512) :
    tblk m c ⟨16 * k.val + s.val, h⟩ (ix3 b r w)
      = tarr m c (ix3 (⟨8 * k.val + b.val, by omega⟩ : Fin 16) (⟨32 * s.val + r.val, by omega⟩ : Fin 512) w) := by
  refine (tblk_apply m c ⟨16 * k.val + s.val, h⟩ b r w).trans (congrArg (tarr m c) ?_)
  funext a
  match a with
  | ⟨0, _⟩ => exact Fin.ext (by show 8 * ((16 * k.val + s.val) / 16) + b.val = 8 * k.val + b.val; omega)
  | ⟨1, _⟩ => exact Fin.ext (by show 32 * ((16 * k.val + s.val) % 16) + r.val = 32 * s.val + r.val; omega)
  | ⟨2, _⟩ => rfl

/-! ## The accumulators at the last row tile -/

/-- The first accumulator resets at the first row tile of a batch half … -/
theorem nll_h0 (c : Dev nD) : ∀ (n : Nat) (h : n < cfg0.N), n % 16 = 0 →
    (outsAt0 m c n h).2.2.1 = k0_pay1 (F := Ideal) (k0_pay10 (F := Ideal) (xblk m c ⟨n, h⟩) (tblk m c ⟨n, h⟩)) (k0_pay5 (F := Ideal)) :=
  fun n h e => nll_reset m c ⟨n, h⟩ e

/-- … and is updated at every later one. -/
theorem nll_hs (c : Dev nD) : ∀ (n : Nat) (h : n + 1 < cfg0.N), ¬(n + 1) % 16 = 0 →
    (outsAt0 m c (n + 1) h).2.2.1 = k0_pay1 (F := Ideal) (k0_pay10 (F := Ideal) (xblk m c ⟨n + 1, h⟩) (tblk m c ⟨n + 1, h⟩))
      (outsAt0 m c n (Nat.lt_of_succ_lt h)).2.2.1 :=
  fun n h e => nll_step m c ⟨n + 1, h⟩ e

/-- The second accumulator likewise. -/
theorem cnt_h0 (c : Dev nD) : ∀ (n : Nat) (h : n < cfg0.N), n % 16 = 0 →
    (outsAt0 m c n h).2.2.2 = k0_pay2 (F := Ideal) (k0_pay9 (F := Ideal) (tblk m c ⟨n, h⟩)) (k0_pay6 (F := Ideal)) :=
  fun n h e => cnt_reset m c ⟨n, h⟩ e

theorem cnt_hs (c : Dev nD) : ∀ (n : Nat) (h : n + 1 < cfg0.N), ¬(n + 1) % 16 = 0 →
    (outsAt0 m c (n + 1) h).2.2.2 = k0_pay2 (F := Ideal) (k0_pay9 (F := Ideal) (tblk m c ⟨n + 1, h⟩))
      (outsAt0 m c n (Nat.lt_of_succ_lt h)).2.2.2 :=
  fun n h e => cnt_step m c ⟨n + 1, h⟩ e

/-- The nll accumulator after the last row tile of batch half k. -/
theorem nll_last (c : Dev nD) (hr : InRange (B := 16) (H := 512) (W := 512) (tarr m c)) (k : Fin 2) (b : Fin 8) (r : Fin 32) :
    (outsAt0 m c (16 * k.val + 15) (by have := N32; omega)).2.2.1 (ix2 b r)
      = z0 + ∑ s : Fin 16, ∑ w : Fin 512,
          pix (B := 16) (H := 512) (W := 512) (xarr m c) (tarr m c) (⟨8 * k.val + b.val, by omega⟩ : Fin 16) (⟨32 * s.val + r.val, by omega⟩ : Fin 512) w := by
  have hN15 : 16 * k.val + 15 < cfg0.N := by have := N32; omega
  have e := nll_fold (N := cfg0.N) (fun n h => k0_pay10 (F := Ideal) (xblk m c ⟨n, h⟩) (tblk m c ⟨n, h⟩))
    (fun n h => (outsAt0 m c n h).2.2.1) (nll_h0 m c) (nll_hs m c) k.val hN15 b r
  refine e.trans (congrArg (fun y => z0 + y) ?_)
  refine Finset.sum_congr rfl fun s _ => Finset.sum_congr rfl fun w _ => ?_
  have hN : 16 * k.val + s.val < cfg0.N := by have := N32; omega
  refine (KPayload.pay10_apply _ _ (tblk_inRange m c hr ⟨16 * k.val + s.val, hN⟩) b r w).trans ?_
  exact pix_congr _ _ _ _ b r w _ _ w (fun cl => xblk_at m c k s hN b cl r w) (tblk_at m c k s hN b r w)

/-- The histogram accumulator after the last row tile of batch half k. -/
theorem cnt_last (c : Dev nD) (hr : InRange (B := 16) (H := 512) (W := 512) (tarr m c)) (k : Fin 2) (b : Fin 8) (cl : Fin 19) :
    (outsAt0 m c (16 * k.val + 15) (by have := N32; omega)).2.2.2 (ix2 b cl)
      = z0 + ∑ s : Fin 16, ∑ r : Fin 32, ∑ w : Fin 512,
          hit (B := 16) (H := 512) (W := 512) (tarr m c) (⟨8 * k.val + b.val, by omega⟩ : Fin 16) cl (⟨32 * s.val + r.val, by omega⟩ : Fin 512) w := by
  have hN15 : 16 * k.val + 15 < cfg0.N := by have := N32; omega
  have e := cnt_fold (N := cfg0.N) (fun n h => k0_pay9 (F := Ideal) (tblk m c ⟨n, h⟩))
    (fun n h => (outsAt0 m c n h).2.2.2) (cnt_h0 m c) (cnt_hs m c) k.val hN15 b cl
  refine e.trans (congrArg (fun y => z0 + y) ?_)
  refine Finset.sum_congr rfl fun s _ => Finset.sum_congr rfl fun r _ => Finset.sum_congr rfl fun w _ => ?_
  have hN : 16 * k.val + s.val < cfg0.N := by have := N32; omega
  refine (KPayload.pay9_apply _ (tblk_inRange m c hr ⟨16 * k.val + s.val, hN⟩) b cl r w).trans ?_
  exact hit_congr _ _ b r w _ _ w cl (tblk_at m c k s hN b r w)

end Cert.KernelIdeal.KSums

end
-- ==== Proof.KTail.lean ====
/-
  The host tail of the idealized kernel program: the operations of @main after the region, read as a function of the
  two arrays the region wrote (the per-half sums of the pixel losses, [2,1,1], and the per-half presence table,
  [2,8,19]) and of the presence head's logits (main_arg1, [16,19]):

    result = (0 + sum of the first array) / 2^22
             + (0 + sum over (n, c) of softplus(y[n,c]) - presence[n / 8, n % 8, c] * y[n,c]) / 304
-/
import proofs.«422559_j52725018526410_3_alg».proof.Proof.Gen.KernelIdeal.Frame
import proofs.«422559_j52725018526410_3_alg».proof.Proof.Spec
import Idealize.ShloMosaic.Lib.StableHlo.Run
import Idealize.ShloMosaic.Lib.Pipeline.Value
import Idealize.ShloMosaic.Lib.ValueLayout
import Idealize.ShloMosaic.PureOps.Ideal.Laws

noncomputable section

open scoped BigOperators

namespace Cert.KernelIdeal.KTail

open Cert.KernelIdeal Cert.KernelIdeal.Gen Cert.Spec Idealize.ShloMosaic Idealize.ShloMosaic.ValueIdx Idealize.ShloMosaic.TcCoe

/-! ## The tail, generic in the float instance -/

section Generic

variable {F : FTy → Type} [FloatOps F]

/-- The zero word broadcast to the table's shape. -/
def zeros : FVec F S16x19 .f32 := broadcastInDim S16x19 ![] bcast_S_S16x19 (constant S_ .f32 0x00000000#32)

/-- The inlined softplus on the [16,19] table, operation by operation. -/
def spF (y : FVec F S16x19 .f32) : FVec F S16x19 .f32 :=
  select (cmpf .une (subf y zeros) (subf y zeros)) (addf y zeros)
    (addf (maximumf y zeros) (Host.log1p (Host.exp (Host.negf (Host.absf (subf y zeros))))))

/-- The operations after the region, as a function of the two arrays the region wrote and of the table of logits. -/
def tailF (A2 : FVec F S2x1x1 .f32) (A3 : FVec F S2x8x19 .f32) (y : FVec F S16x19 .f32) : FVec F S_ .f32 :=
  addf
    (Host.divf (Host.reduceAdd A2 (constant S_ .f32 0x00000000#32) reducesTo_S2x1x1_S_d0_1_2 h_S_) (constant S_ .f32 0x4A800000#32))
    (Host.divf
      (Host.reduceAdd (subf (spF y) (mulf (fun i => shapeCast S16x19 A3 shapeCasts_S2x8x19_S16x19 i) y))
        (constant S_ .f32 0x00000000#32) reducesTo_S16x19_S_d0_1 h_S_)
      (constant S_ .f32 0x43980000#32))

set_option maxHeartbeats 1000000 in
/-- The result buffer after the tail is `tailF` of the two output arrays as the region left them and of the launch
    contents of the logits' argument (which nothing writes). -/
theorem tail_gen (m : (ℓ : Loc nD τ sig) → Buf (Elt F) ℓ) (c : Dev nD) :
    Pipeline.afterTail₀ cfgs (dats m) 0 (V0 m) [hostOps1, hostOps1_1, hostOps1_2] c main_v9
      = tailF ((dats m 0 c).arrAt 2 cfg0.N) ((dats m 0 c).arrAt 3 cfg0.N) (m ((c.tc : Thread nD τ).loc main_arg1)) := by
  have e2 := Pipeline.withArrays_arr spec0 launch0.win.arr_inj c (V0 m c) (fun w => (dats m 0 c).arrAt w cfg0.N) 2
  have e3 := Pipeline.withArrays_arr spec0 launch0.win.arr_inj c (V0 m c) (fun w => (dats m 0 c).arrAt w cfg0.N) 3
  have e1 : Pipeline.withArrays spec0 c (V0 m c) (fun w => (dats m 0 c).arrAt w cfg0.N) (Proc.devRef .tc main_arg1)
      = m ((c.tc : Thread nD τ).loc main_arg1) :=
    (Pipeline.withArrays_of_ne spec0 c (V0 m c) _ main_arg1 (by exact (by decide : ∀ w, Pipeline.arrRef spec0 w ≠ main_arg1))).trans
      (V_main_arg1 m c)
  unfold Pipeline.afterTail₀
  show StableHlo.after (List.flatten [hostOps1, hostOps1_1, hostOps1_2]) _ (Proc.devRef .tc main_v9) = _
  simp only [hostOps1, hostOps1_1, hostOps1_2, List.flatten_cons, List.flatten_nil, List.append_nil, List.cons_append, List.nil_append]
  open StableHlo in after_results_simp
  simp only [StableHlo.TRef.ofBuf, StableHlo.TRef.toBuf, cast_eq]
  rw [← e2, ← e3, ← e1]
  rfl

end Generic

/-! ## The tail read over the extended reals -/

/-- Row `n` of the [16,19] table is row `n % 8` of half `n / 8` of the [2,8,19] array: a reshape keeps the
    row-major position, and (n / 8 * 8 + n % 8) * 19 + c = n * 19 + c. -/
theorem reshape_apply (A3 : S2x8x19.Idx → EReal) (i : S16x19.Idx) :
    shapeCast S16x19 A3 shapeCasts_S2x8x19_S16x19 i
      = A3 (ix3 (n0 := 2) (n1 := 8) (n2 := 19) ⟨(i 0).val / 8, by have := idx2_lt0 i; omega⟩
          ⟨(i 0).val % 8, Nat.mod_lt _ (by norm_num)⟩ (i 1)) := by
  refine shapeCast_apply A3 shapeCasts_S2x8x19_S16x19 i _ ?_
  rw [Shape.rowMajor_val_three, Shape.rowMajor_val_two]
  show ((i 0).val / 8 * 8 + (i 0).val % 8) * 19 + (i 1).val = (i 0).val * 19 + (i 1).val
  omega

/-- The inlined softplus at an entry is `sp` of the entry. -/
theorem spF_apply (y : S16x19.Idx → EReal) (i : S16x19.Idx) : spF (F := Ideal) y i = sp (y i) := rfl

/-- THE TAIL OVER THE EXTENDED REALS: the mean of the first array's entries over 2^22 pixels, plus the mean over the
    304 entries of the table of softplus(y) - presence * y, the presence read through the reshape. -/
theorem tailF_ideal (A2 : S2x1x1.Idx → EReal) (A3 : S2x8x19.Idx → EReal) (y : S16x19.Idx → EReal) :
    tailF (F := Ideal) A2 A3 y
      = fun _ => Ideal.div (z0 + ∑ j : S2x1x1.Idx, A2 j) (Ideal.ofBits .f32 0x4A800000#32)
          + Ideal.div (z0 + ∑ i : S16x19.Idx, (sp (y i)
              - A3 (ix3 (n0 := 2) (n1 := 8) (n2 := 19) ⟨(i 0).val / 8, by have := idx2_lt0 i; omega⟩
                  ⟨(i 0).val % 8, Nat.mod_lt _ (by norm_num)⟩ (i 1)) * y i)) (Ideal.ofBits .f32 0x43980000#32) := by
  funext j
  have hS : ∀ b : Fin S_.rank, S_.size b = 1 := fun b => b.elim0
  unfold tailF
  simp only [addf_apply, Host.divf, Host.reduceAdd, Ideal.hostDivf_def, Ideal.hostReduceAdd_def, constant_apply]
  rw [Ideal.hostReduceAdd_total _ hS, Ideal.hostReduceAdd_total _ hS]
  refine congrArg₂ (· + ·) rfl (congrArg (fun s => Ideal.div (z0 + s) (Ideal.ofBits .f32 0x43980000#32))
    (Finset.sum_congr rfl fun i _ => ?_))
  rw [subf_apply, mulf_apply, spF_apply, reshape_apply]

/-! ## The result buffer -/

/-- THE HOST TAIL: with the two arrays the region wrote named `A2` (the per-half sums) and `A3` (the per-half presence
    table), the program's result is the first array's mean over the 2^22 pixels plus the mean over the table of
    softplus(y) - presence * y. -/
theorem tail_eq (m : (ℓ : Loc nD τ sig) → Buf (Elt Ideal) ℓ) (c : Dev nD) (A2 : S2x1x1.Idx → EReal) (A3 : S2x8x19.Idx → EReal)
    (h2 : (dats m 0 c).arrAt 2 cfg0.N = A2) (h3 : (dats m 0 c).arrAt 3 cfg0.N = A3) :
    Pipeline.afterTail₀ cfgs (dats m) 0 (V0 m) [hostOps1, hostOps1_1, hostOps1_2] c main_v9
      = fun _ => Ideal.div (z0 + ∑ j : S2x1x1.Idx, A2 j) (Ideal.ofBits .f32 0x4A800000#32)
          + Ideal.div (z0 + ∑ i : S16x19.Idx, (sp (m ((c.tc : Thread nD τ).loc main_arg1) i)
              - A3 (ix3 (n0 := 2) (n1 := 8) (n2 := 19) ⟨(i 0).val / 8, by have := idx2_lt0 i; omega⟩
                  ⟨(i 0).val % 8, Nat.mod_lt _ (by norm_num)⟩ (i 1)) * m ((c.tc : Thread nD τ).loc main_arg1) i))
              (Ideal.ofBits .f32 0x43980000#32) := by
  rw [tail_gen m c, h2, h3]
  exact tailF_ideal A2 A3 (m ((c.tc : Thread nD τ).loc main_arg1))

end Cert.KernelIdeal.KTail

end
-- ==== Proof.KValue.lean ====
/-
  The idealized kernel program's result is the specification's loss, when the labels are in range.

  Output 0 of the pallas_call holds, per batch half k, the sum over the half's 8 samples and a tile's 32 rows of the
  nll accumulator, which is zero plus the 16 row tiles' row sums of the pixels' negative log-likelihoods: summed over
  the two halves this is the sum over every pixel.  Output 1 holds, at (k, b, c), the indicator that the histogram
  accumulator is positive, and the accumulator is zero plus the number of pixels of sample 8k + b labelled c: the
  presence vector.  The host tail then forms the two means and adds them.
-/
import proofs.«422559_j52725018526410_3_alg».proof.Proof.KFinal
import proofs.«422559_j52725018526410_3_alg».proof.Proof.KSums
import proofs.«422559_j52725018526410_3_alg».proof.Proof.KPaySums
import proofs.«422559_j52725018526410_3_alg».proof.Proof.KTail
import proofs.«422559_j52725018526410_3_alg».proof.Proof.Spec

set_option maxRecDepth 16384

noncomputable section

open scoped BigOperators

namespace Cert.KernelIdeal.KValue

open Idealize.ShloMosaic Idealize.ShloMosaic.TcCoe Idealize.ShloMosaic.ValueIdx Idealize.SL.Sem
open Cert.KernelIdeal Cert.KernelIdeal.Gen Cert.KernelIdeal.KBlocks Cert.Spec

variable (m : (ℓ : Loc nD τ sig) → Buf (Elt Ideal) ℓ) (ρ : Dev nD → PrngReg)

/-- Output 0 of the pallas_call after the run. -/
def A2 (c : Dev nD) : S2x1x1.Idx → EReal := (dats m 0 c).arrAt 2 cfg0.N
/-- Output 1 of the pallas_call after the run. -/
def A3 (c : Dev nD) : S2x8x19.Idx → EReal := (dats m 0 c).arrAt 3 cfg0.N

/-- Output 0 after the run, at batch half k. -/
theorem A2_apply (c : Dev nD) (hr : InRange (B := 16) (H := 512) (W := 512) (tarr m c)) (k : Fin 2) :
    A2 m c (ix3 k (0 : Fin 1) (0 : Fin 1))
      = ∑ b : Fin 8, ∑ r : Fin 32, ∑ s : Fin 16, ∑ w : Fin 512,
          pix (B := 16) (H := 512) (W := 512) (xarr m c) (tarr m c) (⟨8 * k.val + b.val, by omega⟩ : Fin 16) (⟨32 * s.val + r.val, by omega⟩ : Fin 512) w := by
  refine (KFinal.final2_apply m c k).trans ((KPaySums.pay3_apply _ _).trans ?_)
  refine Finset.sum_congr rfl fun b _ => Finset.sum_congr rfl fun r _ => ?_
  rw [KSums.nll_last m c hr k b r, z0_eq, zero_add]

/-- Output 1 after the run, at (k, b, c): whether label c occurs in sample 8k + b. -/
theorem A3_apply (c : Dev nD) (hr : InRange (B := 16) (H := 512) (W := 512) (tarr m c)) (k : Fin 2) (b : Fin 8) (cl : Fin 19) :
    A3 m c (ix3 k b cl)
      = pres (B := 16) (H := 512) (W := 512) (tarr m c) (⟨8 * k.val + b.val, by omega⟩ : Fin 16) cl := by
  refine (KFinal.final3_apply m c k b cl).trans ((KPaySums.pay4_apply _ b cl).trans ?_)
  rw [KSums.cnt_last m c hr k b cl, z0_eq, zero_add]
  unfold pres cnt
  rw [sum_rows (fun h => ∑ w : Fin 512, hit (B := 16) (H := 512) (W := 512) (tarr m c) (⟨8 * k.val + b.val, by omega⟩ : Fin 16) cl h w)]

/-- The sum of output 0 is the sum over every pixel of its negative log-likelihood. -/
theorem sum_A2 (c : Dev nD) (hr : InRange (B := 16) (H := 512) (W := 512) (tarr m c)) :
    ∑ j : S2x1x1.Idx, A2 m c j
      = ∑ i : (ST 16 512 512).Idx, pix (B := 16) (H := 512) (W := 512) (xarr m c) (tarr m c) (i 0) (i 1) (i 2) := by
  rw [sum_idx3 (n0 := 2) (n1 := 1) (n2 := 1), ← sum_tiles (fun n h w => pix (B := 16) (H := 512) (W := 512) (xarr m c) (tarr m c) n h w)]
  refine Finset.sum_congr rfl fun k _ => ?_
  rw [Fin.sum_univ_one, Fin.sum_univ_one]
  exact A2_apply m c hr k

/-- Output 1 at the coordinates the tail's reshape reads, as the presence vector. -/
theorem A3_reshape (c : Dev nD) (hr : InRange (B := 16) (H := 512) (W := 512) (tarr m c)) (i : S16x19.Idx) :
    A3 m c (ix3 (n0 := 2) (n1 := 8) (n2 := 19) ⟨(i 0).val / 8, by have := idx2_lt0 i; omega⟩ ⟨(i 0).val % 8, Nat.mod_lt _ (by norm_num)⟩ (i 1))
      = pres (B := 16) (H := 512) (W := 512) (tarr m c) (i 0) (i 1) := by
  have hi : (i 0).val < 16 := idx2_lt0 i
  rw [A3_apply m c hr ⟨(i 0).val / 8, by omega⟩ ⟨(i 0).val % 8, Nat.mod_lt _ (by norm_num)⟩ (i 1)]
  exact congrArg (fun n => pres (B := 16) (H := 512) (W := 512) (tarr m c) n (i 1))
    (Fin.ext (by show 8 * ((i 0).val / 8) + (i 0).val % 8 = (i 0).val; omega))

/-- The program's result. -/
theorem result_eq (c : Dev nD) (hr : InRange (B := 16) (H := 512) (W := 512) (tarr m c)) :
    Pipeline.afterTail₀ cfgs (dats m) 0 (V0 m) [hostOps1, hostOps1_1, hostOps1_2] c main_v9
      = fun _ => loss (m ((c.tc : Thread nD τ).loc main_arg0)) (m ((c.tc : Thread nD τ).loc main_arg2)) (m ((c.tc : Thread nD τ).loc main_arg1)) := by
  refine (KTail.tail_eq m c (A2 m c) (A3 m c) rfl rfl).trans ?_
  funext _
  beta_reduce
  rw [sum_A2 m c hr]
  simp only [A3_reshape m c hr]
  rw [xarr_eq, tarr_eq]
  rfl

/-- THE RUN of the idealized kernel program, read: the result buffer ends at the specification's loss, the arguments
    unchanged. -/
theorem run (hr : ∀ c : Dev nD, InRange (B := 16) (H := 512) (W := 512) (m ((c.tc : Thread nD τ).loc main_arg2))) :
    θ_run defs (onTc (τ := τ) (main (F := Ideal))) ⟨m, fun _ => 0, ρ⟩ (fun r => ∀ c : Dev nD,
      r.2.mem ((c.tc : Thread nD τ).loc main_v9)
          = (fun _ => loss (m ((c.tc : Thread nD τ).loc main_arg0)) (m ((c.tc : Thread nD τ).loc main_arg2)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v9 (Pipeline.mem_restRefs_of main_v9 (by decide) (by decide))).trans (result_eq m c (hr c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c)))⟩)
    (run_main m ρ)

end Cert.KernelIdeal.KValue

end
-- ==== Proof.LibGatherScatter.lean ====
/-
  STABLEHLO'S GATHER AND SCATTER READ AT AN INDEX, for the dimension numbers that indexing an array by an integer
  array lowers to.

  `x[idx]` of a vector or of a matrix's rows is a `stablehlo.gather` whose start indices are a column `[M, 1]`;
  `x.at[idx].add(v)` of a vector, of a matrix's rows, or of a matrix at index pairs is a `stablehlo.scatter` with an
  `add` body whose scatter indices are a column `[M, 1]` or pairs `[M, 2]`. For each of these five dimension-number
  shapes this file builds the record from the sizes (`vecGatherDims`, `rowGatherDims`, `vecScatterDims`,
  `rowScatterDims`, `pairScatterDims`) and reads the operation at an index:

  * a gather's result element is the operand's at the start index, read SIGNED and CLAMPED into the operand
    (`vecGather_apply`, `rowGather_apply`);
  * a scatter's update lands on an operand element exactly when its index, read SIGNED and NOT clamped, is that
    element's (`vecScatter_resultIdx`, `rowScatter_resultIdx`, `pairScatter_resultIdx`); an update whose index is
    outside the operand lands nowhere;
  * so, over the extended reals, an accumulating scatter's result element is the operand's plus the sum of the updates
    whose index is that element's (`vecScatterAdd_apply`, `rowScatterAdd_apply`, `pairScatterAdd_apply`).
-/
import Idealize.ShloMosaic.PureOps.Ideal
import Idealize.ShloMosaic.Lib.ValueIdx

noncomputable section

open scoped BigOperators

namespace Idealize.ShloMosaic.GatherScatter

open Idealize.ShloMosaic Idealize.ShloMosaic.ValueIdx

/-! ## A scatter's result index, in general -/

section General
variable {s si u : Shape}

/-- An axis among the removed ones is not among the kept ones. -/
theorem not_mem_kept {axes : List (Fin s.rank)} {a : Fin s.rank} (h : a ∈ axes) : a ∉ s.kept axes := by
  intro hk
  have := (List.mem_filter.mp hk).2
  simp only [decide_not, Bool.not_eq_eq_eq_not, Bool.not_true, decide_eq_false_iff_not] at this
  exact this h

/-- An axis not among the removed ones is among the kept ones. -/
theorem mem_kept {axes : List (Fin s.rank)} {a : Fin s.rank} (h : a ∉ axes) : a ∈ s.kept axes :=
  List.mem_filter.mpr ⟨List.mem_finRange a, by simpa using h⟩

/-- An update lands on operand index `i` exactly when, on every operand axis, its start plus its window
    coordinate is `i`'s coordinate: the in-range test of `ScatterDims.resultIdx?` is then `i`'s own range. -/
theorem resultIdx?_eq_some_iff (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · rename_i h
    constructor
    · intro he a
      have hi := congrFun (Option.some.inj he) a
      have hv := congrArg Fin.val hi
      simp only at hv
      have := (h a).1
      omega
    · intro H
      congr 1
      funext a
      refine Fin.ext ?_
      have := H a
      simp only
      omega
  · rename_i h
    constructor
    · intro he; cases he
    · intro H
      exfalso
      apply h
      intro a
      have := H a
      have := (i a).isLt
      omega

variable {t : Shape}

/-- A gather's operand index on an axis is the clamped start plus the batching coordinate plus the offset
    coordinate. -/
theorem operandIdx_val (d : GatherDims s si t) {w : Nat} (j : t.Idx) (idx : IVec si w) (a : Fin s.rank) :
    (d.operandIdx j idx a).val = d.start j idx a + d.batchCoord j a + d.offCoord j a := rfl

/-- A gather without batching axes has no batching coordinate. -/
theorem batchCoord_of_nil (d : GatherDims s si t) (h : d.operandBatchingDims = []) (j : t.Idx) (a : Fin s.rank) :
    d.batchCoord j a = 0 :=
  d.batchCoord_eq_zero j a (by rw [h]; exact List.not_mem_nil)

/-- On a collapsed axis a gather has no offset coordinate. -/
theorem offCoord_of_collapsed (d : GatherDims s si t) (j : t.Idx) {a : Fin s.rank} (h : a ∈ d.collapsedSliceDims) :
    d.offCoord j a = 0 :=
  d.offCoord_eq_zero j a fun hk => ((d.mem_sKept a).mp hk).1 h

end General

/-! ## Scalars scattered into a vector by a column of indices

What `x.at[idx].add(v)` of a vector `x : [N]` at `idx : [M]` lowers to: scatter indices `[M, 1]`, updates `[M]`,
update_window_dims `[]`, inserted_window_dims `[0]`, scatter_dims_to_operand_dims `[0]`, index_vector_dim 1. -/

section VecScatter

/-- Those dimension numbers for an operand `[N]`, scatter indices `[M, 1]` and updates `[M]`; their conditions
    `wf` are decided on a program's literal shapes. -/
abbrev vecScatterDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

variable {N M w : Nat} (wf : ScatterDims.WF ⟨1, ![N]⟩ ⟨2, ![M, 1]⟩ ⟨1, ![M]⟩ [] [0] [0] 1)

/-- Update `j`'s window starts, on the operand's one axis, at the index `idx[j, 0]` read signed. -/
theorem vecScatter_start (idx : IVec ⟨2, ![M, 1]⟩ w) (j : Fin M) (a : Fin (⟨1, ![N]⟩ : Shape).rank) :
    (vecScatterDims N M wf).start (ix1 j) idx a = (idx (ix2 j 0)).toInt := by
  obtain rfl : a = 0 := Subsingleton.elim _ _
  unfold ScatterDims.start
  rw [dif_pos (show (0 : Fin 1) ∈ (vecScatterDims N M wf).scatterDimsToOperandDims from List.mem_singleton.mpr rfl)]
  have hsi : (vecScatterDims N M wf).siIdx (ix1 j) ⟨List.idxOf (0 : Fin 1) (vecScatterDims N M wf).scatterDimsToOperandDims,
      List.idxOf_lt_length_iff.2 (List.mem_singleton.mpr rfl)⟩ = ix2 j 0 := by
    funext b; refine Fin.ext ?_
    match b with
    | ⟨0, _⟩ => rfl
    | ⟨1, _⟩ => rfl
  rw [hsi]

/-- The updates are scalars: the window coordinate is `0`. -/
theorem vecScatter_window (j : (⟨1, ![M]⟩ : Shape).Idx) (a : Fin (⟨1, ![N]⟩ : Shape).rank) :
    (vecScatterDims N M wf).window j a = 0 := by
  obtain rfl : a = 0 := Subsingleton.elim _ _
  unfold ScatterDims.window
  rw [dif_neg (not_mem_kept (List.mem_singleton.mpr rfl))]

/-- UPDATE `j` LANDS ON ELEMENT `i` exactly when its index `idx[j, 0]`, read signed, is `i`. -/
theorem vecScatter_resultIdx (idx : IVec ⟨2, ![M, 1]⟩ w) (j : Fin M) (i : Fin N) :
    (vecScatterDims N M wf).resultIdx? (ix1 j) idx = some (ix1 i) ↔ (idx (ix2 j 0)).toInt = (i.val : Int) := by
  rw [resultIdx?_eq_some_iff]
  constructor
  · intro H
    have := H 0
    rw [vecScatter_start, vecScatter_window, Nat.cast_zero, add_zero] at this
    exact this
  · intro H a
    obtain rfl : a = 0 := Subsingleton.elim _ _
    rw [vecScatter_start, vecScatter_window, Nat.cast_zero, add_zero]
    exact H

end VecScatter

/-! ## A vector gathered by a column of indices

What `x[idx]` of a vector `x : [N]` at `idx : [M]` lowers to: start indices `[M, 1]`, result `[M]`, offset_dims
`[]`, collapsed_slice_dims `[0]`, start_index_map `[0]`, index_vector_dim 1, slice_sizes `[1]`. -/

section VecGather
variable {α : Type}

/-- Those dimension numbers for an operand `[N]`, start indices `[M, 1]` and result `[M]`; their conditions `wf`
    are decided on a program's literal shapes. -/
abbrev vecGatherDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

variable {N M w : Nat} (wf : GatherDims.WF ⟨1, ![N]⟩ ⟨2, ![M, 1]⟩ ⟨1, ![M]⟩ [] [0] [] [0] [] 1 ![1])

/-- Result element `j`'s slice starts, on the operand's one axis, at the index `idx[j, 0]` read signed and clamped
    into `[0, N − 1]`. -/
theorem vecGather_start (idx : IVec ⟨2, ![M, 1]⟩ w) (j : Fin M) (a : Fin (⟨1, ![N]⟩ : Shape).rank) :
    (vecGatherDims N M wf).start (ix1 j) idx a = min (idx (ix2 j 0)).toInt.toNat (N - 1) := by
  obtain rfl : a = 0 := Subsingleton.elim _ _
  have hmem : (0 : Fin 1) ∈ (vecGatherDims N M wf).startIndexMap := List.mem_singleton.mpr rfl
  have hsi : (vecGatherDims N M wf).siIdx (ix1 j) ⟨List.idxOf (0 : Fin 1) (vecGatherDims N M wf).startIndexMap,
      List.idxOf_lt_length_iff.2 hmem⟩ = ix2 j 0 := by
    funext b; refine Fin.ext ?_
    match b with
    | ⟨0, _⟩ => rfl
    | ⟨1, _⟩ => rfl
  unfold GatherDims.start
  rw [dif_pos hmem, hsi]
  rfl

/-- THE GATHER READ AT `j`: the operand at the start index `idx[j, 0]`, read signed and clamped into
    `[0, N − 1]`. -/
theorem vecGather_apply (hN : 0 < N) (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (j : Fin M) :
    Host.gather (vecGatherDims N M wf) x idx (ix1 j) = x (ix1 ⟨min (idx (ix2 j 0)).toInt.toNat (N - 1), by omega⟩) := by
  unfold Host.gather
  congr 1
  funext a
  refine Fin.ext ?_
  rw [operandIdx_val, vecGather_start, batchCoord_of_nil _ rfl,
    offCoord_of_collapsed _ _ (by obtain rfl : a = 0 := Subsingleton.elim _ _; exact List.mem_singleton.mpr rfl)]
  obtain rfl : a = 0 := Subsingleton.elim _ _
  rfl

end VecGather

/-! ## Scalars scattered into a matrix by index pairs

What `x.at[r, c].add(v)` of a matrix `x : [N, N']` at `r, c : [M]` lowers to: scatter indices `[M, 2]` (the pairs
`(r[j], c[j])`), updates `[M]`, update_window_dims `[]`, inserted_window_dims `[0, 1]`,
scatter_dims_to_operand_dims `[0, 1]`, index_vector_dim 1. -/

section PairScatter

/-- Those dimension numbers for an operand `[N, N']`, scatter indices `[M, 2]` and updates `[M]`; their conditions
    `wf` are decided on a program's literal shapes. -/
abbrev pairScatterDims (N N' M : Nat) (wf : ScatterDims.WF ⟨2, ![N, N']⟩ ⟨2, ![M, 2]⟩ ⟨1, ![M]⟩ [] [0, 1] [0, 1] 1) :
    ScatterDims ⟨2, ![N, N']⟩ ⟨2, ![M, 2]⟩ ⟨1, ![M]⟩ where
  updateWindowDims := []
  insertedWindowDims := [0, 1]
  scatterDimsToOperandDims := [0, 1]
  indexVectorDim := 1
  wf := wf

variable {N N' M w : Nat} (wf : ScatterDims.WF ⟨2, ![N, N']⟩ ⟨2, ![M, 2]⟩ ⟨1, ![M]⟩ [] [0, 1] [0, 1] 1)

/-- Update `j`'s window starts, on the operand's row axis, at the index `idx[j, 0]` read signed. -/
theorem pairScatter_start0 (idx : IVec ⟨2, ![M, 2]⟩ w) (j : Fin M) :
    (pairScatterDims N N' M wf).start (ix1 j) idx 0 = (idx (ix2 j 0)).toInt := by
  have hmem : (0 : Fin 2) ∈ (pairScatterDims N N' M wf).scatterDimsToOperandDims :=
    (by decide : (0 : Fin 2) ∈ ([0, 1] : List (Fin 2)))
  have hsi : (pairScatterDims N N' M wf).siIdx (ix1 j) ⟨List.idxOf (0 : Fin 2) (pairScatterDims N N' M wf).scatterDimsToOperandDims,
      List.idxOf_lt_length_iff.2 hmem⟩ = ix2 j 0 := by
    funext b; refine Fin.ext ?_
    match b with
    | ⟨0, _⟩ => rfl
    | ⟨1, _⟩ => rfl
  unfold ScatterDims.start
  rw [dif_pos hmem, hsi]

/-- Update `j`'s window starts, on the operand's column axis, at the index `idx[j, 1]` read signed. -/
theorem pairScatter_start1 (idx : IVec ⟨2, ![M, 2]⟩ w) (j : Fin M) :
    (pairScatterDims N N' M wf).start (ix1 j) idx 1 = (idx (ix2 j 1)).toInt := by
  have hmem : (1 : Fin 2) ∈ (pairScatterDims N N' M wf).scatterDimsToOperandDims :=
    (by decide : (1 : Fin 2) ∈ ([0, 1] : List (Fin 2)))
  have hsi : (pairScatterDims N N' M wf).siIdx (ix1 j) ⟨List.idxOf (1 : Fin 2) (pairScatterDims N N' M wf).scatterDimsToOperandDims,
      List.idxOf_lt_length_iff.2 hmem⟩ = ix2 j 1 := by
    funext b; refine Fin.ext ?_
    match b with
    | ⟨0, _⟩ => rfl
    | ⟨1, _⟩ => rfl
  unfold ScatterDims.start
  rw [dif_pos hmem, hsi]

/-- The updates are scalars: the window coordinate is `0` on both axes. -/
theorem pairScatter_window (j : (⟨1, ![M]⟩ : Shape).Idx) (a : Fin (⟨2, ![N, N']⟩ : Shape).rank) :
    (pairScatterDims N N' M wf).window j a = 0 := by
  unfold ScatterDims.window
  rw [dif_neg (not_mem_kept (by
    match a with
    | ⟨0, _⟩ => exact (by decide : (0 : Fin 2) ∈ ([0, 1] : List (Fin 2)))
    | ⟨1, _⟩ => exact (by decide : (1 : Fin 2) ∈ ([0, 1] : List (Fin 2)))))]

/-- UPDATE `j` LANDS ON ELEMENT `(i, i')` exactly when its index pair `(idx[j, 0], idx[j, 1])`, read signed, is
    `(i, i')`. -/
theorem pairScatter_resultIdx (idx : IVec ⟨2, ![M, 2]⟩ w) (j : Fin M) (i : Fin N) (i' : Fin N') :
    (pairScatterDims N N' M wf).resultIdx? (ix1 j) idx = some (ix2 i i') ↔
      ((idx (ix2 j 0)).toInt = (i.val : Int) ∧ (idx (ix2 j 1)).toInt = (i'.val : Int)) := by
  rw [resultIdx?_eq_some_iff]
  constructor
  · intro H
    have h0 := H 0
    have h1 := H 1
    rw [pairScatter_start0, pairScatter_window, Nat.cast_zero, add_zero] at h0
    rw [pairScatter_start1, pairScatter_window, Nat.cast_zero, add_zero] at h1
    exact ⟨h0, h1⟩
  · intro H a
    match a with
    | ⟨0, _⟩ =>
      show (pairScatterDims N N' M wf).start (ix1 j) idx 0 + ((pairScatterDims N N' M wf).window (ix1 j) 0 : Int) = _
      rw [pairScatter_start0, pairScatter_window, Nat.cast_zero, add_zero]
      exact H.1
    | ⟨1, _⟩ =>
      show (pairScatterDims N N' M wf).start (ix1 j) idx 1 + ((pairScatterDims N N' M wf).window (ix1 j) 1 : Int) = _
      rw [pairScatter_start1, pairScatter_window, Nat.cast_zero, add_zero]
      exact H.2

end PairScatter

/-! ## Rows scattered into a matrix by a column of indices

What `x.at[idx].add(v)` of a matrix `x : [N, C]` at `idx : [M]` with `v : [M, C]` lowers to: scatter indices
`[M, 1]`, updates `[M, C]`, update_window_dims `[1]`, inserted_window_dims `[0]`, scatter_dims_to_operand_dims
`[0]`, index_vector_dim 1. -/

section RowScatter

/-- Those dimension numbers for an operand `[N, C]`, scatter indices `[M, 1]` and updates `[M, C]`; their
    conditions `wf` are decided on a program's literal shapes. -/
abbrev rowScatterDims (N C M : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

variable {N C M w : Nat} (wf : ScatterDims.WF ⟨2, ![N, C]⟩ ⟨2, ![M, 1]⟩ ⟨2, ![M, C]⟩ [1] [0] [0] 1)

/-- Update `(j, f)`'s window starts, on the operand's row axis, at the index `idx[j, 0]` read signed. -/
theorem rowScatter_start0 (idx : IVec ⟨2, ![M, 1]⟩ w) (j : Fin M) (f : Fin C) :
    (rowScatterDims N C M wf).start (ix2 j f) idx 0 = (idx (ix2 j 0)).toInt := by
  have hmem : (0 : Fin 2) ∈ (rowScatterDims N C M wf).scatterDimsToOperandDims := List.mem_singleton.mpr rfl
  have hsi : (rowScatterDims N C M wf).siIdx (ix2 j f) ⟨List.idxOf (0 : Fin 2) (rowScatterDims N C M wf).scatterDimsToOperandDims,
      List.idxOf_lt_length_iff.2 hmem⟩ = ix2 j 0 := by
    funext b; refine Fin.ext ?_
    match b with
    | ⟨0, _⟩ => rfl
    | ⟨1, _⟩ => rfl
  unfold ScatterDims.start
  rw [dif_pos hmem, hsi]

/-- The scatter indices name no column: on the operand's column axis the window starts at `0`. -/
theorem rowScatter_start1 (idx : IVec ⟨2, ![M, 1]⟩ w) (j : (⟨2, ![M, C]⟩ : Shape).Idx) :
    (rowScatterDims N C M wf).start j idx 1 = 0 := by
  unfold ScatterDims.start
  rw [dif_neg (by decide : (1 : Fin 2) ∉ ([0] : List (Fin 2)))]

/-- The row axis is inserted: the window coordinate on it is `0`. -/
theorem rowScatter_window0 (j : (⟨2, ![M, C]⟩ : Shape).Idx) : (rowScatterDims N C M wf).window j 0 = 0 := by
  unfold ScatterDims.window
  rw [dif_neg (not_mem_kept (List.mem_singleton.mpr rfl))]

/-- The window coordinate on the operand's column axis is the update's column. -/
theorem rowScatter_window1 (j : Fin M) (f : Fin C) : (rowScatterDims N C M wf).window (ix2 j f) 1 = f.val := by
  unfold ScatterDims.window
  rw [dif_pos (mem_kept (by decide : (1 : Fin 2) ∉ ([0] : List (Fin 2))))]
  rfl

/-- UPDATE `(j, f)` LANDS ON ELEMENT `(i, g)` exactly when its row's index `idx[j, 0]`, read signed, is `i` and its
    column `f` is `g`. -/
theorem rowScatter_resultIdx (idx : IVec ⟨2, ![M, 1]⟩ w) (j : Fin M) (f : Fin C) (i : Fin N) (g : Fin C) :
    (rowScatterDims N C M wf).resultIdx? (ix2 j f) idx = some (ix2 i g) ↔
      ((idx (ix2 j 0)).toInt = (i.val : Int) ∧ f = g) := by
  rw [resultIdx?_eq_some_iff]
  constructor
  · intro H
    have h0 := H 0
    have h1 := H 1
    rw [rowScatter_start0, rowScatter_window0, Nat.cast_zero, add_zero] at h0
    rw [rowScatter_start1, rowScatter_window1, zero_add] at h1
    exact ⟨h0, Fin.ext (Int.ofNat_inj.mp h1)⟩
  · intro H a
    match a with
    | ⟨0, _⟩ =>
      show (rowScatterDims N C M wf).start (ix2 j f) idx 0 + ((rowScatterDims N C M wf).window (ix2 j f) 0 : Int) = _
      rw [rowScatter_start0, rowScatter_window0, Nat.cast_zero, add_zero]
      exact H.1
    | ⟨1, _⟩ =>
      show (rowScatterDims N C M wf).start (ix2 j f) idx 1 + ((rowScatterDims N C M wf).window (ix2 j f) 1 : Int) = _
      rw [rowScatter_start1, rowScatter_window1, zero_add, H.2]

end RowScatter

/-! ## Rows of a matrix gathered by a column of indices

What `x[idx]` of a matrix `x : [N, C]` at `idx : [M]` lowers to: start indices `[M, 1]`, result `[M, C]`,
offset_dims `[1]`, collapsed_slice_dims `[0]`, start_index_map `[0]`, index_vector_dim 1, slice_sizes `[1, C]`. -/

section RowGather
variable {α : Type}

/-- Those dimension numbers for an operand `[N, C]`, start indices `[M, 1]` and result `[M, C]`; their conditions
    `wf` are decided on a program's literal shapes. -/
abbrev rowGatherDims (N C M : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

variable {N C M w : Nat} (wf : GatherDims.WF ⟨2, ![N, C]⟩ ⟨2, ![M, 1]⟩ ⟨2, ![M, C]⟩ [1] [0] [] [0] [] 1 ![1, C])

/-- Result element `(j, f)`'s slice starts, on the operand's row axis, at the index `idx[j, 0]` read signed and
    clamped into `[0, N − 1]`. -/
theorem rowGather_start0 (idx : IVec ⟨2, ![M, 1]⟩ w) (j : Fin M) (f : Fin C) :
    (rowGatherDims N C M wf).start (ix2 j f) idx 0 = min (idx (ix2 j 0)).toInt.toNat (N - 1) := by
  have hmem : (0 : Fin 2) ∈ (rowGatherDims N C M wf).startIndexMap := List.mem_singleton.mpr rfl
  have hsi : (rowGatherDims N C M wf).siIdx (ix2 j f) ⟨List.idxOf (0 : Fin 2) (rowGatherDims N C M wf).startIndexMap,
      List.idxOf_lt_length_iff.2 hmem⟩ = ix2 j 0 := by
    funext b; refine Fin.ext ?_
    match b with
    | ⟨0, _⟩ => rfl
    | ⟨1, _⟩ => rfl
  unfold GatherDims.start
  rw [dif_pos hmem, hsi]
  rfl

/-- The start indices name no column: on the operand's column axis the slice starts at `0`. -/
theorem rowGather_start1 (idx : IVec ⟨2, ![M, 1]⟩ w) (j : (⟨2, ![M, C]⟩ : Shape).Idx) :
    (rowGatherDims N C M wf).start j idx 1 = 0 := by
  unfold GatherDims.start
  rw [dif_neg (by decide : (1 : Fin 2) ∉ ([0] : List (Fin 2)))]

/-- The offset coordinate on the operand's column axis is the result's column. -/
theorem rowGather_offCoord1 (j : Fin M) (f : Fin C) : (rowGatherDims N C M wf).offCoord (ix2 j f) 1 = f.val := by
  unfold GatherDims.offCoord
  rw [dif_pos (mem_kept (by decide : (1 : Fin 2) ∉ ([0] ++ [] : List (Fin 2))))]
  rfl

/-- THE GATHER READ AT `(j, f)`: column `f` of the operand's row at the start index `idx[j, 0]`, read signed and
    clamped into `[0, N − 1]`. -/
theorem rowGather_apply (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (j : Fin M)
    (f : Fin C) :
    Host.gather (rowGatherDims N C M wf) x idx (ix2 j f)
      = x (ix2 ⟨min (idx (ix2 j 0)).toInt.toNat (N - 1), by omega⟩ f) := by
  unfold Host.gather
  congr 1
  funext a
  refine Fin.ext ?_
  rw [operandIdx_val, batchCoord_of_nil _ rfl, Nat.add_zero]
  match a with
  | ⟨0, _⟩ =>
    show (rowGatherDims N C M wf).start (ix2 j f) idx 0 + (rowGatherDims N C M wf).offCoord (ix2 j f) 0 = _
    rw [rowGather_start0, offCoord_of_collapsed _ _ (List.mem_singleton.mpr rfl)]
    rfl
  | ⟨1, _⟩ =>
    show (rowGatherDims N C M wf).start (ix2 j f) idx 1 + (rowGatherDims N C M wf).offCoord (ix2 j f) 1 = _
    rw [rowGather_start1, rowGather_offCoord1, Nat.zero_add]

end RowGather

/-! ## The accumulating scatters over the extended reals

At the ideal instance an accumulating scatter (`Host.scatterAdd`) is each operand element plus the sum of the updates
that land on it; by the landing conditions above, the sum over the updates whose index is that element's. -/

section Sums

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

variable {φ : FTy}

/-- SCALARS ACCUMULATED INTO A VECTOR, read at `i`: the operand's element plus the sum of the updates whose index
    `idx[j, 0]`, read signed, is `i`. -/
theorem vecScatterAdd_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (i : Fin N) :
    Host.scatterAdd (F := Ideal) (φ := φ) (vecScatterDims N M wf) x idx upd (ix1 i)
      = x (ix1 i) + ∑ j ∈ Finset.univ.filter (fun j : Fin M => (idx (ix2 j 0)).toInt = (i.val : Int)), upd (ix1 j) := by
  simp only [Host.scatterAdd, Ideal.hostScatterAdd_def, Ideal.hostScatterAdd]
  congr 1
  rw [Finset.sum_filter, Finset.sum_filter, sum_idx1]
  refine Finset.sum_congr rfl fun j _ => ?_
  exact if_congr (vecScatter_resultIdx wf idx j i) rfl rfl

/-- SCALARS ACCUMULATED INTO A MATRIX BY INDEX PAIRS, read at `(i, i')`: the operand's element plus the sum of the
    updates whose index pair `(idx[j, 0], idx[j, 1])`, read signed, is `(i, i')`. -/
theorem pairScatterAdd_apply {N N' M w : Nat}
    (wf : ScatterDims.WF ⟨2, ![N, N']⟩ ⟨2, ![M, 2]⟩ ⟨1, ![M]⟩ [] [0, 1] [0, 1] 1)
    (x : (⟨2, ![N, N']⟩ : Shape).Idx → EReal) (idx : IVec ⟨2, ![M, 2]⟩ w) (upd : (⟨1, ![M]⟩ : Shape).Idx → EReal)
    (i : Fin N) (i' : Fin N') :
    Host.scatterAdd (F := Ideal) (φ := φ) (pairScatterDims N N' M wf) x idx upd (ix2 i i')
      = x (ix2 i i') + ∑ j ∈ Finset.univ.filter (fun j : Fin M =>
          (idx (ix2 j 0)).toInt = (i.val : Int) ∧ (idx (ix2 j 1)).toInt = (i'.val : Int)), upd (ix1 j) := by
  simp only [Host.scatterAdd, Ideal.hostScatterAdd_def, Ideal.hostScatterAdd]
  congr 1
  rw [Finset.sum_filter, Finset.sum_filter, sum_idx1]
  refine Finset.sum_congr rfl fun j _ => ?_
  exact if_congr (pairScatter_resultIdx wf idx j i i') rfl rfl

/-- ROWS ACCUMULATED INTO A MATRIX, read at `(i, g)`: the operand's element plus the sum of column `g` of the
    update rows whose index `idx[j, 0]`, read signed, is `i`. -/
theorem rowScatterAdd_apply {N C M w : Nat} (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w) (upd : (⟨2, ![M, C]⟩ : Shape).Idx → EReal)
    (i : Fin N) (g : Fin C) :
    Host.scatterAdd (F := Ideal) (φ := φ) (rowScatterDims N C M wf) x idx upd (ix2 i g)
      = x (ix2 i g) + ∑ j ∈ Finset.univ.filter (fun j : Fin M => (idx (ix2 j 0)).toInt = (i.val : Int)), upd (ix2 j g) := by
  simp only [Host.scatterAdd, Ideal.hostScatterAdd_def, Ideal.hostScatterAdd]
  congr 1
  rw [Finset.sum_filter, Finset.sum_filter, sum_idx2]
  refine Finset.sum_congr rfl fun j _ => ?_
  rw [Finset.sum_congr rfl fun f _ => if_congr (rowScatter_resultIdx wf idx j f i g) rfl rfl]
  by_cases h : (idx (ix2 j 0)).toInt = (i.val : Int)
  · simp only [h, true_and, if_true]
    rw [Finset.sum_ite_eq']
    simp only [Finset.mem_univ, if_true]
  · simp only [h, false_and, if_false, Finset.sum_const_zero]

end Sums

end Idealize.ShloMosaic.GatherScatter

end
-- ==== Proof.LibTakeAlongAxis1.lean ====
/-
  STABLEHLO'S BATCHED GATHER ALONG THE CLASS AXIS, read at an index.

  `jnp.take_along_axis(x, idx, axis=1)` of an array `x : [B, C, H, W]` at integer indices `idx : [B, 1, H, W]`
  lowers to a `stablehlo.gather` of `x` at the start indices `idx` reshaped to `[B, 1, H, W, 1]`, with
  offset_dims `[]`, collapsed_slice_dims `[1]`, operand_batching_dims `[0, 2, 3]`,
  start_indices_batching_dims `[0, 2, 3]`, start_index_map `[1]`, index_vector_dim 4 and slice_sizes
  `[1, 1, 1, 1]`. This file builds that record from the sizes (`takeAlong1Dims`) and reads the operation at an
  index (`takeAlong1_apply`): result element `(b, 0, h, w)` is `x` at `(b, k, h, w)`, where `k` is the start
  index `idx[b, 0, h, w, 0]` read SIGNED and CLAMPED into `[0, C − 1]`. On the three batching axes the operand
  index is the result's own coordinate; on the collapsed axis it is the clamped start index.
-/
import Idealize.ShloMosaic.PureOps.Ideal
import Idealize.ShloMosaic.Lib.ValueIdx
import proofs.«422559_j52725018526410_3_alg».proof.Proof.LibGatherScatter

noncomputable section

namespace Idealize.ShloMosaic.GatherScatter

open Idealize.ShloMosaic Idealize.ShloMosaic.ValueIdx

section TakeAlongAxis1
variable {α : Type}

/-- Those dimension numbers for an operand `[B, C, H, W]`, start indices `[B, 1, H, W, 1]` and result
    `[B, 1, H, W]`; their conditions `wf` are decided on a program's literal shapes. -/
abbrev takeAlong1Dims (B C H W : Nat)
    (wf : GatherDims.WF ⟨4, ![B, C, H, W]⟩ ⟨5, ![B, 1, H, W, 1]⟩ ⟨4, ![B, 1, H, W]⟩ [] [1] [0, 2, 3] [1] [0, 2, 3] 4
      ![1, 1, 1, 1]) :
    GatherDims ⟨4, ![B, C, H, W]⟩ ⟨5, ![B, 1, H, W, 1]⟩ ⟨4, ![B, 1, H, W]⟩ where
  offsetDims := []
  collapsedSliceDims := [1]
  operandBatchingDims := [0, 2, 3]
  startIndicesBatchingDims := [0, 2, 3]
  startIndexMap := [1]
  indexVectorDim := 4
  sliceSizes := ![1, 1, 1, 1]
  wf := wf

variable {B C H W w : Nat}
  (wf : GatherDims.WF ⟨4, ![B, C, H, W]⟩ ⟨5, ![B, 1, H, W, 1]⟩ ⟨4, ![B, 1, H, W]⟩ [] [1] [0, 2, 3] [1] [0, 2, 3] 4
    ![1, 1, 1, 1])

/-- Result element `(b, 0, h, v)`'s slice starts, on the operand's class axis, at the index `idx[b, 0, h, v, 0]`
    read signed and clamped into `[0, C − 1]`. -/
theorem takeAlong1_start1 (idx : IVec ⟨5, ![B, 1, H, W, 1]⟩ w) (b : Fin B) (h : Fin H) (v : Fin W) :
    (takeAlong1Dims B C H W wf).start (ix4 b (0 : Fin 1) h v) idx 1
      = min (idx (ix5 b (0 : Fin 1) h v (0 : Fin 1))).toInt.toNat (C - 1) := by
  have hmem : (1 : Fin 4) ∈ (takeAlong1Dims B C H W wf).startIndexMap := List.mem_singleton.mpr rfl
  have hsi : (takeAlong1Dims B C H W wf).siIdx (ix4 b (0 : Fin 1) h v)
      ⟨List.idxOf (1 : Fin 4) (takeAlong1Dims B C H W wf).startIndexMap, List.idxOf_lt_length_iff.2 hmem⟩
        = ix5 b (0 : Fin 1) h v (0 : Fin 1) := by
    funext a; refine Fin.ext ?_
    match a with
    | ⟨0, _⟩ => rfl
    | ⟨1, _⟩ => rfl
    | ⟨2, _⟩ => rfl
    | ⟨3, _⟩ => rfl
    | ⟨4, _⟩ => rfl
  unfold GatherDims.start
  rw [dif_pos hmem, hsi]
  rfl

/-- On the batch axis the operand index is the result's batch coordinate. -/
theorem takeAlong1_batchCoord0 (b : Fin B) (h : Fin H) (v : Fin W) :
    (takeAlong1Dims B C H W wf).batchCoord (ix4 b (0 : Fin 1) h v) 0 = b.val := by
  unfold GatherDims.batchCoord
  rw [dif_pos (by decide : (0 : Fin 4) ∈ ([0, 2, 3] : List (Fin 4)))]
  rfl

/-- On the row axis the operand index is the result's row coordinate. -/
theorem takeAlong1_batchCoord2 (b : Fin B) (h : Fin H) (v : Fin W) :
    (takeAlong1Dims B C H W wf).batchCoord (ix4 b (0 : Fin 1) h v) 2 = h.val := by
  unfold GatherDims.batchCoord
  rw [dif_pos (by decide : (2 : Fin 4) ∈ ([0, 2, 3] : List (Fin 4)))]
  rfl

/-- On the column axis the operand index is the result's column coordinate. -/
theorem takeAlong1_batchCoord3 (b : Fin B) (h : Fin H) (v : Fin W) :
    (takeAlong1Dims B C H W wf).batchCoord (ix4 b (0 : Fin 1) h v) 3 = v.val := by
  unfold GatherDims.batchCoord
  rw [dif_pos (by decide : (3 : Fin 4) ∈ ([0, 2, 3] : List (Fin 4)))]
  rfl

/-- No operand axis is an offset axis: each is collapsed or batching. -/
theorem takeAlong1_offCoord (j : (⟨4, ![B, 1, H, W]⟩ : Shape).Idx) (a : Fin 4) :
    (takeAlong1Dims B C H W wf).offCoord j a = 0 := by
  refine GatherDims.offCoord_eq_zero (takeAlong1Dims B C H W wf) j a fun hk => ?_
  have hk' := (GatherDims.mem_sKept (takeAlong1Dims B C H W wf) a).mp hk
  match a with
  | ⟨0, _⟩ => exact hk'.2 (by decide : (0 : Fin 4) ∈ ([0, 2, 3] : List (Fin 4)))
  | ⟨1, _⟩ => exact hk'.1 (by decide : (1 : Fin 4) ∈ ([1] : List (Fin 4)))
  | ⟨2, _⟩ => exact hk'.2 (by decide : (2 : Fin 4) ∈ ([0, 2, 3] : List (Fin 4)))
  | ⟨3, _⟩ => exact hk'.2 (by decide : (3 : Fin 4) ∈ ([0, 2, 3] : List (Fin 4)))

/-- THE GATHER READ AT `(b, 0, h, v)`: the operand at `(b, k, h, v)`, `k` the start index `idx[b, 0, h, v, 0]`
    read signed and clamped into `[0, C − 1]`. -/
theorem takeAlong1_apply (hC : 0 < C)
    (wf : GatherDims.WF ⟨4, ![B, C, H, W]⟩ ⟨5, ![B, 1, H, W, 1]⟩ ⟨4, ![B, 1, H, W]⟩ [] [1] [0, 2, 3] [1] [0, 2, 3] 4
      ![1, 1, 1, 1])
    (x : (⟨4, ![B, C, H, W]⟩ : Shape).Idx → α) (idx : IVec ⟨5, ![B, 1, H, W, 1]⟩ w) (b : Fin B) (h : Fin H)
    (v : Fin W) :
    Host.gather (takeAlong1Dims B C H W wf) x idx (ix4 b (0 : Fin 1) h v)
      = x (ix4 b ⟨min (idx (ix5 b (0 : Fin 1) h v (0 : Fin 1))).toInt.toNat (C - 1), by omega⟩ h v) := by
  unfold Host.gather
  congr 1
  funext a
  refine Fin.ext ?_
  rw [operandIdx_val, takeAlong1_offCoord, Nat.add_zero]
  match a with
  | ⟨0, _⟩ =>
    show (takeAlong1Dims B C H W wf).start (ix4 b (0 : Fin 1) h v) idx 0
      + (takeAlong1Dims B C H W wf).batchCoord (ix4 b (0 : Fin 1) h v) 0 = b.val
    rw [GatherDims.start_batching _ _ _ _ (by decide : (0 : Fin 4) ∈ ([0, 2, 3] : List (Fin 4))),
      takeAlong1_batchCoord0, Nat.zero_add]
  | ⟨1, _⟩ =>
    show (takeAlong1Dims B C H W wf).start (ix4 b (0 : Fin 1) h v) idx 1
      + (takeAlong1Dims B C H W wf).batchCoord (ix4 b (0 : Fin 1) h v) 1
        = min (idx (ix5 b (0 : Fin 1) h v (0 : Fin 1))).toInt.toNat (C - 1)
    rw [takeAlong1_start1,
      GatherDims.batchCoord_eq_zero _ _ _ (by decide : (1 : Fin 4) ∉ ([0, 2, 3] : List (Fin 4))), Nat.add_zero]
  | ⟨2, _⟩ =>
    show (takeAlong1Dims B C H W wf).start (ix4 b (0 : Fin 1) h v) idx 2
      + (takeAlong1Dims B C H W wf).batchCoord (ix4 b (0 : Fin 1) h v) 2 = h.val
    rw [GatherDims.start_batching _ _ _ _ (by decide : (2 : Fin 4) ∈ ([0, 2, 3] : List (Fin 4))),
      takeAlong1_batchCoord2, Nat.zero_add]
  | ⟨3, _⟩ =>
    show (takeAlong1Dims B C H W wf).start (ix4 b (0 : Fin 1) h v) idx 3
      + (takeAlong1Dims B C H W wf).batchCoord (ix4 b (0 : Fin 1) h v) 3 = v.val
    rw [GatherDims.start_batching _ _ _ _ (by decide : (3 : Fin 4) ∈ ([0, 2, 3] : List (Fin 4))),
      takeAlong1_batchCoord3, Nat.zero_add]

end TakeAlongAxis1

end Idealize.ShloMosaic.GatherScatter

end
-- ==== Proof.RefLoss1.lean ====
/-
  The reference's first summand: log_softmax, the label's entry taken along the class axis, negated, summed over every
  pixel and divided by their number, is `Spec.loss1`.

  Pixel by pixel: the fold of `max` from -∞ over the 19 classes is `Spec.rowMax`; the sum of the shifted exponentials,
  from the zero word, and its log are `Spec.lse`; so log_softmax at class c is (x - rowMax) - lse. With the label in
  range its normalisation (add 19 when negative) is the identity, the range test 0 ≤ label ≤ 18 folded over the unit
  axis is true, and the batched gather along the class axis, whose start index is clamped into 0 … 18, reads the label's
  own class. The negated selection is `Spec.pix`, and the total over all pixels divided by the word of 2^22 is
  `Spec.loss1`.
-/
import proofs.«422559_j52725018526410_3_alg».proof.Proof.RefReadP
import proofs.«422559_j52725018526410_3_alg».proof.Proof.Spec
import proofs.«422559_j52725018526410_3_alg».proof.Proof.LibTakeAlongAxis1
import Idealize.ShloMosaic.Lib.Pipeline.Value
import Idealize.ShloMosaic.Lib.ValueLayout
import Idealize.ShloMosaic.Lib.Affine
import Idealize.ShloMosaic.PureOps.Reduce
import Idealize.ShloMosaic.PureOps.Ideal.Laws

noncomputable section

open scoped BigOperators

namespace Cert.ReferenceIdeal.RefValue

open Idealize.ShloMosaic Idealize.ShloMosaic.ValueIdx Idealize.ShloMosaic.GatherScatter Cert.ReferenceIdeal Cert.ReferenceIdeal.Gen
  Cert.ReferenceIdeal.ReadP Cert.Spec

variable (x0 : (⟨S16x19x512x512, .f32⟩ : BufTy).Contents (Elt Ideal)) (x2 : (⟨S16x512x512, .i32⟩ : BufTy).Contents (Elt Ideal))

/-! ## log_softmax at an index -/

/-- The reduction over the class axis with `max` from -∞ is the pixel's largest logit. -/
theorem v0_apply (b : Fin 16) (hh w : Fin 512) :
    val_main_call0_v0 (F := Ideal) x0 (ix3 b hh w) = rowMax x0 b hh w := by
  have h : S16x19x512x512.Reduces [1] S16x512x512 := by decide
  unfold val_main_call0_v0
  refine (Host.reduce_eq_fold_single (FloatOps.maximumf (F := Ideal) (φ := .f32)) x0 (val_main_call0_cst (F := Ideal))
    reducesTo_S16x19x512x512_S16x512x512_d1 h h_S_ (ix3 b hh w)).trans ?_
  rw [val_main_call0_cst_apply, Ideal.ofBits_def, ofBits_neginf]
  have hl : ∀ c : Fin 19, h.lift (ix3 b hh w) c = ix4 b c hh w := fun c => funext fun a => Fin.ext (by
    match a with
    | ⟨0, _⟩ => rfl
    | ⟨1, _⟩ => rfl
    | ⟨2, _⟩ => rfl
    | ⟨3, _⟩ => rfl)
  show Finset.fold max ⊥ (fun c : Fin 19 => x0 (h.lift (ix3 b hh w) c)) Finset.univ = _
  simp only [hl]
  rfl

/-- The maximum with the -∞ splat changes nothing. -/
theorem v2_apply (b : Fin 16) (hh w : Fin 512) :
    val_main_call0_v2 (F := Ideal) x0 (ix3 b hh w) = rowMax x0 b hh w := by
  rw [val_main_call0_v2_apply, val_main_call0_v1_apply, val_main_call0_cst_0_apply, v0_apply, Ideal.ofBits_def,
    ofBits_neginf, Ideal.maximumf_def]
  exact max_bot_left _

/-- The shifted logit. -/
theorem v5_apply (b : Fin 16) (c : Fin 19) (hh w : Fin 512) :
    val_main_call0_v5 (F := Ideal) x0 (ix4 b c hh w) = x0 (ix4 b c hh w) - rowMax x0 b hh w := by
  have hi : idx_main_call0_v3 (idx_main_call0_v4 (ix4 b c hh w)) = ix3 b hh w := funext fun a => Fin.ext (by
    match a with
    | ⟨0, _⟩ => rfl
    | ⟨1, _⟩ => rfl
    | ⟨2, _⟩ => rfl)
  rw [val_main_call0_v5_apply, val_main_call0_v4_apply, val_main_call0_v3_apply, hi, v2_apply, Ideal.subf_def]

/-- The log of the sum of the shifted exponentials. -/
theorem v10_apply (b : Fin 16) (c : Fin 19) (hh w : Fin 512) :
    val_main_call0_v10 (F := Ideal) x0 (ix4 b c hh w) = lse x0 b hh w := by
  have hi : idx_main_call0_v8 (idx_main_call0_v10 (ix4 b c hh w)) = ix3 b hh w := funext fun a => Fin.ext (by
    match a with
    | ⟨0, _⟩ => rfl
    | ⟨1, _⟩ => rfl
    | ⟨2, _⟩ => rfl)
  have hk : ∀ k : Fin 19, idx_main_call0_v7 (ix3 b hh w) k = ix4 b k hh w := fun k => funext fun a => Fin.ext (by
    match a with
    | ⟨0, _⟩ => rfl
    | ⟨1, _⟩ => rfl
    | ⟨2, _⟩ => rfl
    | ⟨3, _⟩ => rfl)
  rw [val_main_call0_v10_apply, val_main_call0_v9_apply, val_main_call0_v8_apply, hi, val_main_call0_v7_apply,
    val_main_call0_cst_1_apply, Ideal.ofBits_def, Ideal.ofBits_zero_f32, zero_add, Ideal.hostUnary_log_def]
  unfold lse
  congr 1
  refine Finset.sum_congr rfl fun k _ => ?_
  rw [hk, val_main_call0_v6_apply, v5_apply, Ideal.hostUnary_exp_def]

/-- log_softmax at a class of a pixel. -/
theorem logp_apply (b : Fin 16) (c : Fin 19) (hh w : Fin 512) :
    val_main_v0 (F := Ideal) x0 (ix4 b c hh w) = (x0 (ix4 b c hh w) - rowMax x0 b hh w) - lse x0 b hh w := by
  rw [val_main_v0_apply, v5_apply, v10_apply, Ideal.subf_def]

/-! ## The label's index -/

/-- With the label in range the index normalisation is the identity. -/
theorem lab_apply (hr : InRange (B := 16) (H := 512) (W := 512) x2) (b : Fin 16) (hh w : Fin 512) :
    val_main_call1_v5 (F := Ideal) x2 (ix5 b (0 : Fin 1) hh w (0 : Fin 1)) = x2 (ix3 b hh w) := by
  have h5 : idx_main_call1_v5 (ix5 b (0 : Fin 1) hh w (0 : Fin 1)) = ix4 b (0 : Fin 1) hh w := funext fun a => Fin.ext (by
    have hb := b.isLt; have hh' := hh.isLt; have hw := w.isLt
    match a with
    | ⟨0, _⟩ => show ((((b.val * 1 + 0) * 512 + hh.val) * 512 + w.val) * 1 + 0) / 262144 = b.val; omega
    | ⟨1, _⟩ => rfl
    | ⟨2, _⟩ => show ((((b.val * 1 + 0) * 512 + hh.val) * 512 + w.val) * 1 + 0) / 512 % 512 = hh.val; omega
    | ⟨3, _⟩ => show ((((b.val * 1 + 0) * 512 + hh.val) * 512 + w.val) * 1 + 0) % 512 = w.val; omega)
  have h1 : idx_main_v1 (ix4 b (0 : Fin 1) hh w) = ix3 b hh w := funext fun a => Fin.ext (by
    match a with
    | ⟨0, _⟩ => rfl
    | ⟨1, _⟩ => rfl
    | ⟨2, _⟩ => rfl)
  rw [val_main_call1_v5_apply, h5, val_main_call1_v4_apply, val_main_call1_v1_apply, val_main_v1_apply, h1,
    val_main_call1_v0_apply, val_main_call1_c_apply]
  have hn : ¬ IntOp.cmpi .slt (x2 (ix3 b hh w)) 0#32 = 1#1 := by
    rw [IntOp.cmpi_slt, BitVec.toInt_zero]
    have := (hr (ix3 b hh w)).1
    omega
  exact if_neg hn

/-- With the label in range, the range test, folded over the unit axis, passes. -/
theorem v12_apply (hr : InRange (B := 16) (H := 512) (W := 512) x2) (b : Fin 16) (hh w : Fin 512) :
    val_main_call1_v12 (F := Ideal) x2 (ix4 b (0 : Fin 1) hh w) = 1#1 := by
  have h : S16x1x512x512x1.Reduces [4] S16x1x512x512 := by decide
  unfold val_main_call1_v12
  refine (Host.reduce_eq_fold_single (IntOp.andi (w := 1)) (val_main_call1_v11 (F := Ideal) x2) (val_main_call1_c_3 (F := Ideal))
    reducesTo_S16x1x512x512x1_S16x1x512x512_d4 h h_S_ (ix4 b (0 : Fin 1) hh w)).trans ?_
  have hl : ∀ k : Fin 1, h.lift (ix4 b (0 : Fin 1) hh w) k = ix5 b (0 : Fin 1) hh w (0 : Fin 1) := fun k => funext fun a => Fin.ext (by
    match a with
    | ⟨0, _⟩ => rfl
    | ⟨1, _⟩ => rfl
    | ⟨2, _⟩ => rfl
    | ⟨3, _⟩ => rfl
    | ⟨4, _⟩ => show k.val = 0; omega)
  show Finset.fold IntOp.andi _ (fun k : Fin 1 => val_main_call1_v11 (F := Ideal) x2 (h.lift (ix4 b (0 : Fin 1) hh w) k))
    (Finset.univ : Finset (Fin 1)) = _
  simp only [hl]
  rw [Finset.univ_unique, Finset.fold_singleton, val_main_call1_c_3_apply, val_main_call1_v11_apply, val_main_call1_v7_apply,
    val_main_call1_v10_apply, lab_apply x2 hr, val_main_call1_v6_apply, val_main_call1_c_2_apply, val_main_call1_v9_apply,
    val_main_call1_v8_apply, val_main_call1_c_1_apply]
  have h7 : IntOp.cmpi .sge (x2 (ix3 b hh w)) 0#32 = 1#1 := by
    rw [IntOp.cmpi_sge, BitVec.toInt_zero]; exact (hr (ix3 b hh w)).1
  have h10 : IntOp.cmpi .sle (x2 (ix3 b hh w)) 18#32 = 1#1 := by
    rw [IntOp.cmpi_sle]
    have := (hr (ix3 b hh w)).2
    have h18 : (18#32 : BitVec 32).toInt = 18 := by decide
    omega
  rw [h7, h10]
  decide

/-- With the label in range the gather reads log_softmax at the label's class. -/
theorem v13_apply (hr : InRange (B := 16) (H := 512) (W := 512) x2) (b : Fin 16) (hh w : Fin 512) :
    val_main_call1_v13 (F := Ideal) x0 x2 (ix4 b (0 : Fin 1) hh w)
      = val_main_v0 (F := Ideal) x0 (ix4 b (labOf (x2 (ix3 b hh w))) hh w) := by
  unfold val_main_call1_v13
  refine (takeAlong1_apply (B := 16) (C := 19) (H := 512) (W := 512) (by norm_num)
    gather_S16x19x512x512_S16x1x512x512x1_S16x1x512x512_n_1_023_023_1_4_1111_wf (val_main_v0 (F := Ideal) x0)
    (val_main_call1_v5 (F := Ideal) x2) b hh w).trans ?_
  congr 1
  funext a
  match a with
  | ⟨0, _⟩ => rfl
  | ⟨1, _⟩ =>
    refine Fin.ext ?_
    show min (val_main_call1_v5 (F := Ideal) x2 (ix5 b (0 : Fin 1) hh w (0 : Fin 1))).toInt.toNat (19 - 1)
      = (labOf (x2 (ix3 b hh w))).val
    rw [lab_apply x2 hr]
    have h01 := hr (ix3 b hh w)
    have hv := labOf_val h01.1 h01.2
    have := (labOf (x2 (ix3 b hh w))).isLt
    omega
  | ⟨2, _⟩ => rfl
  | ⟨3, _⟩ => rfl

/-! ## A pixel's value, and the mean -/

/-- A pixel's value is its negative log-likelihood. -/
theorem v4_apply (hr : InRange (B := 16) (H := 512) (W := 512) x2) (b : Fin 16) (hh w : Fin 512) :
    val_main_v4 (F := Ideal) x0 x2 (ix3 b hh w) = pix x0 x2 b hh w := by
  have h3 : idx_main_v3 (ix3 b hh w) = ix4 b (0 : Fin 1) hh w := funext fun a => Fin.ext (by
    have hb := b.isLt; have hh' := hh.isLt; have hw := w.isLt
    match a with
    | ⟨0, _⟩ => show ((b.val * 512 + hh.val) * 512 + w.val) / 262144 = b.val; omega
    | ⟨1, _⟩ => rfl
    | ⟨2, _⟩ => show ((b.val * 512 + hh.val) * 512 + w.val) / 512 % 512 = hh.val; omega
    | ⟨3, _⟩ => show ((b.val * 512 + hh.val) * 512 + w.val) % 512 = w.val; omega)
  rw [val_main_v4_apply, val_main_v3_apply, h3, val_main_v2_apply, v12_apply x2 hr, select_one, v13_apply x0 x2 hr,
    logp_apply, Ideal.hostNegf_def, Ideal.negf_def]
  rfl

/-- With labels in range the index normalisation adds nothing, the range test passes, the gather reads the label's
    class, and the pixel's value is `Spec.pix`; the sum over every pixel and the quotient are the specification's. -/
theorem loss1_eq (x0 : (⟨S16x19x512x512, .f32⟩ : BufTy).Contents (Elt Ideal)) (x2 : (⟨S16x512x512, .i32⟩ : BufTy).Contents (Elt Ideal))
    (hr : InRange (B := 16) (H := 512) (W := 512) x2) (i : S_.Idx) :
    val_main_v6 (F := Ideal) x0 x2 i = loss1 x0 x2 := by
  have hs : ∑ j : S16x512x512.Idx, val_main_v4 (F := Ideal) x0 x2 j
      = ∑ j : (ST 16 512 512).Idx, pix x0 x2 (j 0) (j 1) (j 2) :=
    Finset.sum_congr rfl fun j _ => by
      exact (congrArg (val_main_v4 (F := Ideal) x0 x2) (eq_ix3 j)).trans (v4_apply x0 x2 hr (j 0) (j 1) (j 2))
  rw [val_main_v6_apply, val_main_v5_apply, val_main_cst_apply, val_main_cst_0_apply, Ideal.hostDivf_def, Ideal.ofBits_def,
    Ideal.ofBits_def, hs]
  rfl

end Cert.ReferenceIdeal.RefValue

end
-- ==== Proof.LibPairScatterRows.lean ====
/-
  STABLEHLO'S SCATTER READ AT AN INDEX, for the dimension numbers that a row-wise indexed update of a matrix lowers to.

  `x.at[arange(B)[:, None], idx].add(v)` of a matrix `x : [N, N']` with `idx, v : [B, P]` is a `stablehlo.scatter`
  with an `add` body whose scatter indices are the pairs `[B, P, 2]` (at `(b, p)` the pair `(b, idx[b, p])`), whose
  updates are `[B, P]`, and whose dimension numbers are update_window_dims `[]`, inserted_window_dims `[0, 1]`,
  scatter_dims_to_operand_dims `[0, 1]`, index_vector_dim 2. This file builds that record from the sizes
  (`pairRowsScatterDims`) and reads the operation at an index:

  * update `(b, p)` lands on operand element `(i, i')` exactly when its index pair `(idx[b, p, 0], idx[b, p, 1])`, read
    SIGNED and NOT clamped, is `(i, i')` (`pairRowsScatter_resultIdx`); an update whose pair is outside the operand
    lands nowhere;
  * so, over the extended reals, the accumulating scatter's result element at `(i, i')` is the operand's plus the sum
    over `(b, p)` of the updates `v[b, p]` whose index pair is `(i, i')` (`pairRowsScatterAdd_apply`).
-/
import Idealize.ShloMosaic.PureOps.Ideal
import Idealize.ShloMosaic.Lib.ValueIdx
import proofs.«422559_j52725018526410_3_alg».proof.Proof.LibGatherScatter

noncomputable section

open scoped BigOperators

namespace Idealize.ShloMosaic.GatherScatter

open Idealize.ShloMosaic Idealize.ShloMosaic.ValueIdx

/-! ## Scalars scattered into a matrix by a matrix of index pairs -/

section PairRowsScatter

/-- Those dimension numbers for an operand `[N, N']`, scatter indices `[B, P, 2]` and updates `[B, P]`; their
    conditions `wf` are decided on a program's literal shapes. -/
abbrev pairRowsScatterDims (N N' B P : Nat)
    (wf : ScatterDims.WF ⟨2, ![N, N']⟩ ⟨3, ![B, P, 2]⟩ ⟨2, ![B, P]⟩ [] [0, 1] [0, 1] 2) :
    ScatterDims ⟨2, ![N, N']⟩ ⟨3, ![B, P, 2]⟩ ⟨2, ![B, P]⟩ where
  updateWindowDims := []
  insertedWindowDims := [0, 1]
  scatterDimsToOperandDims := [0, 1]
  indexVectorDim := 2
  wf := wf

variable {N N' B P w : Nat} (wf : ScatterDims.WF ⟨2, ![N, N']⟩ ⟨3, ![B, P, 2]⟩ ⟨2, ![B, P]⟩ [] [0, 1] [0, 1] 2)

/-- Update `(b, p)`'s window starts, on the operand's row axis, at the index `idx[b, p, 0]` read signed. -/
theorem pairRowsScatter_start0 (idx : IVec ⟨3, ![B, P, 2]⟩ w) (b : Fin B) (p : Fin P) :
    (pairRowsScatterDims N N' B P wf).start (ix2 b p) idx 0 = (idx (ix3 b p 0)).toInt := by
  have hmem : (0 : Fin 2) ∈ (pairRowsScatterDims N N' B P wf).scatterDimsToOperandDims :=
    (by decide : (0 : Fin 2) ∈ ([0, 1] : List (Fin 2)))
  have hsi : (pairRowsScatterDims N N' B P wf).siIdx (ix2 b p)
      ⟨List.idxOf (0 : Fin 2) (pairRowsScatterDims N N' B P wf).scatterDimsToOperandDims,
        List.idxOf_lt_length_iff.2 hmem⟩ = ix3 b p 0 := by
    funext a; refine Fin.ext ?_
    match a with
    | ⟨0, _⟩ => rfl
    | ⟨1, _⟩ => rfl
    | ⟨2, _⟩ => rfl
  unfold ScatterDims.start
  rw [dif_pos hmem, hsi]

/-- Update `(b, p)`'s window starts, on the operand's column axis, at the index `idx[b, p, 1]` read signed. -/
theorem pairRowsScatter_start1 (idx : IVec ⟨3, ![B, P, 2]⟩ w) (b : Fin B) (p : Fin P) :
    (pairRowsScatterDims N N' B P wf).start (ix2 b p) idx 1 = (idx (ix3 b p 1)).toInt := by
  have hmem : (1 : Fin 2) ∈ (pairRowsScatterDims N N' B P wf).scatterDimsToOperandDims :=
    (by decide : (1 : Fin 2) ∈ ([0, 1] : List (Fin 2)))
  have hsi : (pairRowsScatterDims N N' B P wf).siIdx (ix2 b p)
      ⟨List.idxOf (1 : Fin 2) (pairRowsScatterDims N N' B P wf).scatterDimsToOperandDims,
        List.idxOf_lt_length_iff.2 hmem⟩ = ix3 b p 1 := by
    funext a; refine Fin.ext ?_
    match a with
    | ⟨0, _⟩ => rfl
    | ⟨1, _⟩ => rfl
    | ⟨2, _⟩ => rfl
  unfold ScatterDims.start
  rw [dif_pos hmem, hsi]

/-- The updates are scalars: the window coordinate is `0` on both axes. -/
theorem pairRowsScatter_window (j : (⟨2, ![B, P]⟩ : Shape).Idx) (a : Fin (⟨2, ![N, N']⟩ : Shape).rank) :
    (pairRowsScatterDims N N' B P wf).window j a = 0 := by
  unfold ScatterDims.window
  rw [dif_neg (not_mem_kept (by
    match a with
    | ⟨0, _⟩ => exact (by decide : (0 : Fin 2) ∈ ([0, 1] : List (Fin 2)))
    | ⟨1, _⟩ => exact (by decide : (1 : Fin 2) ∈ ([0, 1] : List (Fin 2)))))]

/-- UPDATE `(b, p)` LANDS ON ELEMENT `(i, i')` exactly when its index pair `(idx[b, p, 0], idx[b, p, 1])`, read
    signed, is `(i, i')`. -/
theorem pairRowsScatter_resultIdx (idx : IVec ⟨3, ![B, P, 2]⟩ w) (b : Fin B) (p : Fin P) (i : Fin N) (i' : Fin N') :
    (pairRowsScatterDims N N' B P wf).resultIdx? (ix2 b p) idx = some (ix2 i i') ↔
      ((idx (ix3 b p 0)).toInt = (i.val : Int) ∧ (idx (ix3 b p 1)).toInt = (i'.val : Int)) := by
  rw [resultIdx?_eq_some_iff]
  constructor
  · intro H
    have h0 := H 0
    have h1 := H 1
    rw [pairRowsScatter_start0, pairRowsScatter_window, Nat.cast_zero, add_zero] at h0
    rw [pairRowsScatter_start1, pairRowsScatter_window, Nat.cast_zero, add_zero] at h1
    exact ⟨h0, h1⟩
  · intro H a
    match a with
    | ⟨0, _⟩ =>
      show (pairRowsScatterDims N N' B P wf).start (ix2 b p) idx 0
        + ((pairRowsScatterDims N N' B P wf).window (ix2 b p) 0 : Int) = _
      rw [pairRowsScatter_start0, pairRowsScatter_window, Nat.cast_zero, add_zero]
      exact H.1
    | ⟨1, _⟩ =>
      show (pairRowsScatterDims N N' B P wf).start (ix2 b p) idx 1
        + ((pairRowsScatterDims N N' B P wf).window (ix2 b p) 1 : Int) = _
      rw [pairRowsScatter_start1, pairRowsScatter_window, Nat.cast_zero, add_zero]
      exact H.2

end PairRowsScatter

/-! ## The accumulating scatter over the extended reals -/

section Sums
variable {φ : FTy}

/-- SCALARS ACCUMULATED INTO A MATRIX BY A MATRIX OF INDEX PAIRS, read at `(i, i')`: the operand's element plus the
    sum over `(b, p)` of the updates whose index pair `(idx[b, p, 0], idx[b, p, 1])`, read signed, is `(i, i')`. -/
theorem pairRowsScatterAdd_apply {N N' B P w : Nat}
    (wf : ScatterDims.WF ⟨2, ![N, N']⟩ ⟨3, ![B, P, 2]⟩ ⟨2, ![B, P]⟩ [] [0, 1] [0, 1] 2)
    (x : (⟨2, ![N, N']⟩ : Shape).Idx → EReal) (idx : IVec ⟨3, ![B, P, 2]⟩ w)
    (upd : (⟨2, ![B, P]⟩ : Shape).Idx → EReal) (i : Fin N) (i' : Fin N') :
    Host.scatterAdd (F := Ideal) (φ := φ) (pairRowsScatterDims N N' B P wf) x idx upd (ix2 i i')
      = x (ix2 i i') + ∑ b : Fin B, ∑ p : Fin P,
          if (idx (ix3 b p 0)).toInt = (i.val : Int) ∧ (idx (ix3 b p 1)).toInt = (i'.val : Int)
            then upd (ix2 b p) else 0 := by
  simp only [Host.scatterAdd, Ideal.hostScatterAdd_def, Ideal.hostScatterAdd]
  congr 1
  rw [Finset.sum_filter, sum_idx2]
  refine Finset.sum_congr rfl fun b _ => Finset.sum_congr rfl fun p _ => ?_
  exact if_congr (pairRowsScatter_resultIdx wf idx b p i i') rfl rfl

end Sums

end Idealize.ShloMosaic.GatherScatter

end
-- ==== Proof.RefLoss2.lean ====
/-
  The reference's second summand: the scatter-count of the labels, thresholded, against the presence head's logits
  in the softplus form of the binary cross entropy, averaged, is `Spec.loss2`.

  The scatter's index pairs: at (b, p, 0) the sample number b (an iota column, its negative-index normalisation the
  identity below 16), at (b, p, 1) the label of position p of the flattened sample b (row-major: p = 512 h + w; with the
  label in range its normalisation, add 19 when negative, is the identity). The updates are all 1 and the operand is the
  zero splat, so the accumulating scatter at (b, c) is 0 plus the number of pixels of sample b labelled c: only the
  pairs of sample b land in row b, and a pair lands on column c exactly when its label is c. Compared with 0 and
  converted to a float that is the presence indicator; the inlined softplus is the specification's term by term; the
  sum over (b, c) and the quotient by the word of 304 are the specification's.
-/
import proofs.«422559_j52725018526410_3_alg».proof.Proof.RefReadP
import proofs.«422559_j52725018526410_3_alg».proof.Proof.Spec
import proofs.«422559_j52725018526410_3_alg».proof.Proof.LibPairScatterRows
import Idealize.ShloMosaic.Lib.Pipeline.Value
import Idealize.ShloMosaic.Lib.ValueLayout
import Idealize.ShloMosaic.PureOps.Ideal.Laws

noncomputable section

open scoped BigOperators

namespace Cert.ReferenceIdeal.RefValue

open Idealize.ShloMosaic Idealize.ShloMosaic.ValueIdx Idealize.ShloMosaic.GatherScatter Cert.ReferenceIdeal Cert.ReferenceIdeal.Gen Cert.ReferenceIdeal.ReadP Cert.Spec

namespace Loss2

/-! ## Words -/

/-- The f32 word of 1. -/
theorem ofBits_one : Ideal.ofBits .f32 0x3F800000#32 = 1 := by
  simp [Ideal.ofBits, Ideal.ieee, -EReal.coe_mul]; norm_num

/-- A sample number below 16 is not negative as a signed word, so its normalisation (add 16 if negative) is itself … -/
theorem sample_norm (n : Nat) (hn : n < 16) :
    Scalar.select (IntOp.cmpi .slt (BitVec.ofNat 32 n) 0#32) (IntOp.addi (BitVec.ofNat 32 n) 16#32) (BitVec.ofNat 32 n)
      = BitVec.ofNat 32 n := by
  interval_cases n <;> rfl

/-- … and read signed it is the number. -/
theorem sample_toInt (n : Nat) (hn : n < 16) : (BitVec.ofNat 32 n).toInt = (n : Int) := by
  interval_cases n <;> rfl

/-- A label that is not negative is its own normalisation (add 19 if negative). -/
theorem label_norm (v : BitVec 32) (h0 : 0 ≤ v.toInt) :
    Scalar.select (IntOp.cmpi .slt v 0#32) (IntOp.addi v 19#32) v = v := by
  have hc : IntOp.cmpi .slt v 0#32 = 0#1 := by
    have : v.slt 0#32 = false := by
      rw [BitVec.slt]; simp; exact h0
    show BitVec.ofBool (v.slt 0#32) = 0#1
    rw [this]; rfl
  rw [hc, select_zero]

/-! ## The pixels of a sample, in row-major order -/

/-- Pixel (h, w)'s position in the flattened sample. -/
abbrev pixel (h w : Fin 512) : Fin 262144 := ⟨512 * h.val + w.val, by have := h.isLt; have := w.isLt; omega⟩

/-- The positions of a flattened sample are the pixels, row by row. -/
def pixelEquiv : Fin 512 × Fin 512 ≃ Fin 262144 where
  toFun x := pixel x.1 x.2
  invFun p := (⟨p.val / 512, by have := p.isLt; omega⟩, ⟨p.val % 512, by omega⟩)
  left_inv x := by
    have h1 := x.1.isLt; have h2 := x.2.isLt
    refine Prod.ext (Fin.ext ?_) (Fin.ext ?_)
    · show (512 * x.1.val + x.2.val) / 512 = x.1.val; omega
    · show (512 * x.1.val + x.2.val) % 512 = x.2.val; omega
  right_inv p := by
    refine Fin.ext ?_
    show 512 * (p.val / 512) + p.val % 512 = p.val; omega

/-- A sum over the positions of a flattened sample is the sum over its pixels. -/
theorem sum_pixels {M : Type*} [AddCommMonoid M] (g : Fin 262144 → M) :
    ∑ p : Fin 262144, g p = ∑ h : Fin 512, ∑ w : Fin 512, g (pixel h w) := by
  rw [← Equiv.sum_comp pixelEquiv g, Fintype.sum_prod_type]
  rfl

/-! ## The scatter's index pairs -/

variable (x2 : (⟨S16x512x512, .i32⟩ : BufTy).Contents (Elt Ideal))

/-- At (b, p, 0) the index pair holds the sample number b. -/
theorem pair_sample (b : Fin 16) (p : Fin 262144) :
    val_main_v24 (F := Ideal) x2 (ix3 b p 0) = BitVec.ofNat 32 b.val := by
  unfold val_main_v24
  rw [concatenate_pair_apply_left (t := S16x262144x2) (s₁ := S16x262144x1) (s₂ := S16x262144x1) 2 _ _ _ (ix3 b p 0) rfl
    (ix3 b p 0) (fun a => match a with | ⟨0, _⟩ => rfl | ⟨1, _⟩ => rfl | ⟨2, _⟩ => rfl)]
  rw [val_main_v22_apply, val_main_v21_apply, val_main_v15_apply, val_main_v12_apply, val_main_v14_apply,
    val_main_v10_apply, val_main_v9_apply, val_main_v11_apply, val_main_c_apply, val_main_v13_apply,
    val_main_c_2_apply]
  exact sample_norm b.val b.isLt

/-- At (b, pixel h w, 1) the index pair holds the label of pixel (h, w) of sample b, when that label is not negative. -/
theorem pair_label (hr : InRange (B := 16) (H := 512) (W := 512) x2) (b : Fin 16) (h w : Fin 512) :
    val_main_v24 (F := Ideal) x2 (ix3 b (pixel h w) 1) = x2 (ix3 b h w) := by
  unfold val_main_v24
  rw [concatenate_pair_apply_right (t := S16x262144x2) (s₁ := S16x262144x1) (s₂ := S16x262144x1) 2 _ _ _
    (ix3 b (pixel h w) 1) rfl rfl (ix3 b (pixel h w) 0)
    (fun a => match a with | ⟨0, _⟩ => fun _ => rfl | ⟨1, _⟩ => fun _ => rfl | ⟨2, _⟩ => fun hne => absurd rfl hne) rfl]
  rw [val_main_v23_apply, val_main_v20_apply, val_main_v17_apply, val_main_v19_apply, val_main_v7_apply,
    val_main_v16_apply, val_main_c_3_apply, val_main_v18_apply, val_main_c_4_apply]
  have hi : idx_main_v7 (idx_main_v23 (ix3 b (pixel h w) (0 : Fin 1))) = ix3 b h w := by
    have hb := b.isLt; have hh := h.isLt; have hw := w.isLt
    funext a
    refine Fin.ext ?_
    match a with
    | ⟨0, _⟩ => show (b.val * 262144 + (512 * h.val + w.val)) / 262144 = b.val; omega
    | ⟨1, _⟩ => show (b.val * 262144 + (512 * h.val + w.val)) / 512 % 512 = h.val; omega
    | ⟨2, _⟩ => show (b.val * 262144 + (512 * h.val + w.val)) % 512 = w.val; omega
  rw [hi]
  exact label_norm _ (hr (ix3 b h w)).1

/-! ## The count, its threshold, and the softplus -/

/-- The scatter-add of ones at the (sample, label) pairs counts, at (b, c), the pixels of sample b labelled c. -/
theorem count_eq (hr : InRange (B := 16) (H := 512) (W := 512) x2) (b : Fin 16) (c : Fin 19) :
    val_main_v26 (F := Ideal) x2 (ix2 b c) = z0 + cnt x2 b c := by
  unfold val_main_v26
  have hd : scatter_S16x19_S16x262144x2_S16x262144_n_01_01_2
      = pairRowsScatterDims 16 19 16 262144 Facts₀.scatter_S16x19_S16x262144x2_S16x262144_n_01_01_2_wf := rfl
  rw [hd, pairRowsScatterAdd_apply]
  refine congrArg₂ (· + ·) (by rw [val_main_v8_apply, val_main_cst_1_apply]; rfl) ?_
  unfold cnt
  rw [Finset.sum_eq_single b]
  · rw [sum_pixels]
    refine Finset.sum_congr rfl fun h _ => Finset.sum_congr rfl fun w _ => ?_
    rw [pair_sample, pair_label x2 hr, sample_toInt b.val b.isLt, val_main_v25_apply, val_main_cst_5_apply]
    unfold hit
    simp only [true_and]
    exact if_congr Iff.rfl ofBits_one rfl
  · intro b' _ hb
    refine Finset.sum_eq_zero fun p _ => if_neg ?_
    rw [pair_sample, sample_toInt b'.val b'.isLt]
    intro hc
    exact hb (Fin.ext (Int.ofNat_inj.mp hc.1))
  · intro hb; exact absurd (Finset.mem_univ b) hb

/-- Its threshold, as a float, is the presence indicator. -/
theorem present_eq (hr : InRange (B := 16) (H := 512) (W := 512) x2) (b : Fin 16) (c : Fin 19) :
    val_main_v29 (F := Ideal) x2 (ix2 b c) = pres x2 b c := by
  rw [val_main_v29_apply, val_main_v28_apply, count_eq x2 hr, val_main_v27_apply, val_main_cst_6_apply]
  show (((Ideal.cmp .ogt (z0 + cnt x2 b c) z0).toNat : ℝ) : EReal) = pres x2 b c
  unfold pres
  rw [z0_eq, zero_add]
  by_cases hc : 0 < cnt x2 b c
  · rw [if_pos hc]
    have : Ideal.cmp .ogt (cnt x2 b c) 0 = 1#1 := by
      show BitVec.ofBool (decide (0 < cnt x2 b c)) = 1#1
      rw [decide_eq_true hc]; rfl
    rw [this]; norm_num
  · rw [if_neg hc]
    have : Ideal.cmp .ogt (cnt x2 b c) 0 = 0#1 := by
      show BitVec.ofBool (decide (0 < cnt x2 b c)) = 0#1
      rw [decide_eq_false hc]; rfl
    rw [this]; norm_num

/-- The inlined softplus is the specification's, pointwise. -/
theorem softplus_eq (x1 : (⟨S16x19, .f32⟩ : BufTy).Contents (Elt Ideal)) (j : S16x19.Idx) : val_main_v30 (F := Ideal) x1 j = sp (x1 j) := by
  rw [val_main_v30_apply, val_main_call2_v4_apply, val_main_call2_v6_apply, val_main_call2_v11_apply,
    val_main_call2_v1_apply, val_main_call2_v10_apply, val_main_call2_v9_apply, val_main_call2_v8_apply,
    val_main_call2_v7_apply, val_main_call2_v3_apply, val_main_call2_v0_apply, val_main_call2_v2_apply,
    val_main_call2_v5_apply, val_main_call2_cst_apply]
  rfl

end Loss2

open Loss2

/-- With labels in range the scatter's index pairs are (sample, label), every update of 1 lands, and the count at
    (b, c) is the number of pixels of sample b labelled c; the rest is the same pointwise text as the specification's. -/
theorem loss2_eq (x1 : (⟨S16x19, .f32⟩ : BufTy).Contents (Elt Ideal)) (x2 : (⟨S16x512x512, .i32⟩ : BufTy).Contents (Elt Ideal))
    (hr : InRange (B := 16) (H := 512) (W := 512) x2) (i : S_.Idx) :
    val_main_v34 (F := Ideal) x1 x2 i = loss2 x2 x1 := by
  rw [val_main_v34_apply, val_main_v33_apply, val_main_cst_7_apply, val_main_cst_8_apply]
  show Ideal.div (z0 + ∑ j : S16x19.Idx, val_main_v32 (F := Ideal) x1 x2 j) (Ideal.ofBits .f32 0x43980000#32) = loss2 x2 x1
  unfold loss2
  congr 2
  refine Finset.sum_congr rfl fun j _ => ?_
  obtain ⟨b, c, rfl⟩ : ∃ (b : Fin 16) (c : Fin 19), j = ix2 b c := ⟨j 0, j 1, eq_ix2 j⟩
  rw [val_main_v32_apply, val_main_v31_apply, softplus_eq, present_eq x2 hr]
  rfl

end Cert.ReferenceIdeal.RefValue

end
-- ==== Proof.LibTRefCast.lean ====
/-
  A VALUE STORED THROUGH A TYPED REFERENCE AND READ BACK IS ITSELF.

  The operations of a module-local function (a `func.call` of the program: jnp.take's `_take`, jnp.where's `_where`, …) are
  built over typed references, and each moves its function's operands and result between the value's type and the
  buffer's own along the reference's type equation (`TRef.ofBuf`, `TRef.toBuf`). Read back after a run of such
  operations (the `*_result` lemmas, `after_results`, `after_results_simp`), every intermediate value therefore sits
  under a pair `x.ofBuf (x.toBuf v)` of the SAME reference, and the term, though equal to the plain composition of the
  operations' functions, is not syntactically so; closing it by `rfl` sends the elaborator through every transport.
  `simp only [TRef.ofBuf_toBuf]` removes the pairs without evaluating any buffer type; what is left is the outermost
  `toBuf` and the `ofBuf` of each buffer the stretch reads, each the identity at a literal reference by `rfl`.
-/
import Idealize.ShloMosaic.Lib.StableHlo

namespace Idealize.ShloMosaic.StableHlo.TRef

variable {sig : RefSig} {Val : EltTy → Type} {T : BufTy}

/-- Storing a value at a typed reference's buffer type and reading it back at the value's type gives the value. -/
theorem ofBuf_toBuf (x : TRef sig T) (v : T.Contents Val) : x.ofBuf (x.toBuf v) = v := by
  obtain ⟨r, h, _, _⟩ := x
  subst h
  rfl

/-- Reading a buffer's contents at the value's type and storing them back gives the contents. -/
theorem toBuf_ofBuf (x : TRef sig T) (v : x.ref.ty.Contents Val) : x.toBuf (x.ofBuf v) = v := by
  obtain ⟨r, h, _, _⟩ := x
  subst h
  rfl

end Idealize.ShloMosaic.StableHlo.TRef
-- ==== Proof.RefValue.lean ====
/-
  The idealized reference program's result is the specification's loss, when the labels are in range: its two
  summands are the specification's (the two modules imported), and its run ends at their sum.
-/
import proofs.«422559_j52725018526410_3_alg».proof.Proof.RefLoss1
import proofs.«422559_j52725018526410_3_alg».proof.Proof.RefLoss2
import proofs.«422559_j52725018526410_3_alg».proof.Proof.RefRunP

noncomputable section

namespace Cert.ReferenceIdeal.RefValue

open Idealize.ShloMosaic Idealize.ShloMosaic.TcCoe Idealize.ShloMosaic.ValueIdx Idealize.SL.Sem
open Cert.ReferenceIdeal Cert.ReferenceIdeal.Gen Cert.Spec

/-- The last stage of the reference is the loss. -/
theorem result_eq (x0 : (⟨S16x19x512x512, .f32⟩ : BufTy).Contents (Elt Ideal)) (x1 : (⟨S16x19, .f32⟩ : BufTy).Contents (Elt Ideal))
    (x2 : (⟨S16x512x512, .i32⟩ : BufTy).Contents (Elt Ideal)) (hr : InRange (B := 16) (H := 512) (W := 512) x2) :
    ReadP.val_main_v35 (F := Ideal) x0 x1 x2 = fun _ => loss x0 x2 x1 := by
  funext i
  rw [ReadP.val_main_v35_apply, loss1_eq x0 x2 hr i, loss2_eq x1 x2 hr i]
  rfl

/-- THE RUN of the idealized reference, read: the result buffer ends at the specification's loss, the arguments
    unchanged. -/
theorem run (m : (ℓ : Loc nD τ sig) → Buf (Elt Ideal) ℓ) (ρ : Dev nD → PrngReg)
    (hr : ∀ c : Dev nD, InRange (B := 16) (H := 512) (W := 512) (m ((c.tc : Thread nD τ).loc main_arg2))) :
    θ_run defs (onTc (τ := τ) (main (F := Ideal))) ⟨m, fun _ => 0, ρ⟩ (fun r => ∀ c : Dev nD,
      r.2.mem ((c.tc : Thread nD τ).loc main_v35)
          = (fun _ => loss (m ((c.tc : Thread nD τ).loc main_arg0)) (m ((c.tc : Thread nD τ).loc main_arg2)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨(h c).1.trans ((ReadP.val_main_v35_eq m c).trans (result_eq _ _ _ (hr c))), (h c).2⟩)
    (ValueP.run (F := Ideal) m ρ)

end Cert.ReferenceIdeal.RefValue

end
-- ==== Proof.PreRange.lean ====
/-
  The precondition's label conjunct, decoded: every label word, read signed, lies in 0 … 18.
-/
import proofs.«422559_j52725018526410_3_alg».proof.Pre_finite_inputs
import proofs.«422559_j52725018526410_3_alg».proof.Proof.Gen.Pre_finite_inputs
import proofs.«422559_j52725018526410_3_alg».proof.Proof.Spec
import Idealize.ShloMosaic.Lib.ReduceAll
import Idealize.ShloMosaic.Lib.StableHlo.Predicate

noncomputable section

namespace Cert.Proof.PreRange

open Idealize.ShloMosaic Idealize.ShloMosaic.ValueIdx Cert.Pre_finite_inputs Cert.Spec

/-- If the printed precondition is all ones on the arguments, the labels are in range: its last conjunct is the
    `and` over every pixel of (0 ≤ label) and (label < 19), both compared signed. -/
theorem inRange_of_pre (a0 : FVec Ideal S16x19x512x512 .f32) (a1 : FVec Ideal S16x19 .f32) (a2 : IVec S16x512x512 32)
    (h : Cert.Pre_finite_inputs.fn (F := Ideal) a0 a1 a2 = fun _ => 1#1) :
    InRange (B := 16) (H := 512) (W := 512) a2 := by
  -- the predicate's one word is the `and` of three conjuncts; the last is the `and` over all pixels
  have h0 := congrFun h ValueIdx.ix0
  dsimp only [Cert.Pre_finite_inputs.fn] at h0
  have h14 := (IntOp.andi_eq_one.1 h0).2
  haveI : Subsingleton S_.Idx := ⟨fun a b => funext fun d => d.elim0⟩
  unfold InRange
  intro i
  -- at pixel i both compares hold
  have hi := Host.reduce_andi_all _ _ _ _ _ h14 i
  obtain ⟨hge, hlt⟩ := IntOp.andi_eq_one.1 hi
  have hge' := IntOp.cmpi_sge.1 hge
  have hlt' := IntOp.cmpi_slt.1 hlt
  -- the broadcast constants read 0 and 19 at every pixel
  rw [StableHlo.Predicate.bcast_scalar _ Facts.h_S_] at hge' hlt'
  change (0#32 : BitVec 32).toInt ≤ _ at hge'
  change _ < (19#32 : BitVec 32).toInt at hlt'
  rw [show (0#32 : BitVec 32).toInt = 0 from by decide] at hge'
  rw [show (19#32 : BitVec 32).toInt = 19 from by decide] at hlt'
  exact ⟨hge', hlt'⟩

end Cert.Proof.PreRange

end
-- ==== Proof.lean ====
/-
  Cross entropy over 19 classes fused with a per-sample label histogram, plus a binary cross entropy of the presence
  head against the histogram's support: a Pallas kernel that streams the logits in (batch half, row tile) blocks,
  carrying a per-row nll accumulator and a per-class count accumulator across the 16 row tiles of each half, against
  the plain jnp form (log_softmax, take_along_axis, a scatter-count).

  The claim holds for labels in 0 … 18 (the precondition's added conjunct): outside that range the reference wraps
  negative labels and reads NaN past the last class, while the kernel drops such pixels.  Under it both programs end
  at the specification's loss (Proof/Spec.lean): the kernel by Proof/KValue.lean, the reference by
  Proof/RefValue.lean; the label range is read out of the printed precondition by Proof/PreRange.lean.
-/
import proofs.«422559_j52725018526410_3_alg».proof.Defs
import proofs.«422559_j52725018526410_3_alg».proof.Proof.Gen.Kernel
import proofs.«422559_j52725018526410_3_alg».proof.Proof.Gen.Kernel.Skeleton
import proofs.«422559_j52725018526410_3_alg».proof.Proof.Gen.Kernel.Launch
import proofs.«422559_j52725018526410_3_alg».proof.Proof.Gen.Kernel.Points
import proofs.«422559_j52725018526410_3_alg».proof.Proof.Gen.Kernel.Frame
import proofs.«422559_j52725018526410_3_alg».proof.Proof.Gen.KernelIdeal
import proofs.«422559_j52725018526410_3_alg».proof.Proof.Gen.KernelIdeal.Skeleton
import proofs.«422559_j52725018526410_3_alg».proof.Proof.Gen.KernelIdeal.Launch
import proofs.«422559_j52725018526410_3_alg».proof.Proof.Gen.KernelIdeal.Points
import proofs.«422559_j52725018526410_3_alg».proof.Proof.Gen.KernelIdeal.Frame
import proofs.«422559_j52725018526410_3_alg».proof.Proof.Gen.ReferenceIdeal
import proofs.«422559_j52725018526410_3_alg».proof.Proof.Gen.Pre_finite_inputs
import proofs.«422559_j52725018526410_3_alg».proof.Proof.KValue
import proofs.«422559_j52725018526410_3_alg».proof.Proof.RefValue
import proofs.«422559_j52725018526410_3_alg».proof.Proof.PreRange
import Idealize.ShloMosaic.Adequacy
import Idealize.ShloMosaic.Init

noncomputable section

namespace Cert.Proof

open Idealize.ShloMosaic Idealize.SL.Sem

/-- Both idealized programs, run from memories that agree on the arguments, end at the loss of those arguments. -/
theorem algebraic : Cert.algebraic_KernelIdeal_ReferenceIdeal := by
  intro m ρ m' ρ' hpre hagree
  have hr : ∀ c : Dev Cert.KernelIdeal.nD, Cert.Spec.InRange (B := 16) (H := 512) (W := 512)
      (m ((c.tc : Thread Cert.KernelIdeal.nD Cert.KernelIdeal.τ).loc Cert.KernelIdeal.main_arg2)) :=
    fun c => Cert.Proof.PreRange.inRange_of_pre _ _ _ (hpre c)
  refine ⟨fun c _ => Cert.Spec.loss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg1)),
    Cert.KernelIdeal.KValue.run m ρ hr, ?_⟩
  have hr' : ∀ c : Dev Cert.ReferenceIdeal.nD, Cert.Spec.InRange (B := 16) (H := 512) (W := 512)
      (m' ((c.tc : Thread Cert.ReferenceIdeal.nD Cert.ReferenceIdeal.τ).loc Cert.ReferenceIdeal.main_arg2)) := by
    intro c; rw [(hagree c).2.2]; exact hr c
  refine (θ_run Cert.ReferenceIdeal.defs _ _).mono (fun _ h c => ⟨(h c).1.trans ?_, (h c).2⟩)
    (Cert.ReferenceIdeal.RefValue.run m' ρ' hr')
  rw [(hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2)
      (Cert.ReferenceIdeal.ValueP.run (F := Ideal) m ρ),
    trivial,
    algebraic⟩

end Cert.Proof

end
